-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3x128 : Shape := ⟨3, ![20000, 3, 128]⟩
abbrev S320000x20 : Shape := ⟨2, ![320000, 20]⟩
abbrev S320000x3 : Shape := ⟨2, ![320000, 3]⟩
abbrev S320000x1 : Shape := ⟨2, ![320000, 1]⟩
abbrev S320000x2 : Shape := ⟨2, ![320000, 2]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S_ : Shape := ⟨0, ![]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S320000x20 : S_.BroadcastsInDim S320000x20 (![] : Fin 0 → Fin S320000x20.rank)
  reducesTo_S320000x20_S_d0_1 : S320000x20.ReducesTo [0, 1] S_
  bcast_S_S320000x3 : S_.BroadcastsInDim S320000x3 (![] : Fin 0 → Fin S320000x3.rank)
  reducesTo_S320000x3_S_d0_1 : S320000x3.ReducesTo [0, 1] S_
  bcast_S_S320000x1 : S_.BroadcastsInDim S320000x1 (![] : Fin 0 → Fin S320000x1.rank)
  reducesTo_S320000x1_S_d0_1 : S320000x1.ReducesTo [0, 1] S_
  bcast_S_S20x384 : S_.BroadcastsInDim S20x384 (![] : Fin 0 → Fin S20x384.rank)
  reducesTo_S20x384_S_d0_1 : S20x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  slices_S320000x2_S320000x1_0_0 : S320000x2.Slices ![0, 0] S320000x1
  shapeCasts_S320000x1_S320000 : S320000x1.ShapeCasts S320000
  bcast_S_S320000 : S_.BroadcastsInDim S320000 (![] : Fin 0 → Fin S320000.rank)
  reducesTo_S320000_S_d0 : S320000.ReducesTo [0] S_

variable [Facts]

def fn_part3 {F : FTy → Type} [FloatOps F] (main_arg5 : IVec S320000x2 32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : IVec S320000x1 32 := (extractStridedSlice S320000x1 ![0, 0] · slices_S320000x2_S320000x1_0_0) main_arg5
  let main_v55 : IVec S320000 32 := shapeCast S320000 main_v54 shapeCasts_S320000x1_S320000
  let main_c_20 : IVec S_ 32 := constantI S_ 32 0#32
  let main_v56 : IVec S320000 32 := broadcastInDim S320000 ![] bcast_S_S320000 main_c_20
  let main_v57 : IVec S320000 1 := cmpi .sge main_v55 main_v56
  let main_v58 : IVec S320000x1 32 := (extractStridedSlice S320000x1 ![0, 0] · slices_S320000x2_S320000x1_0_0) main_arg5
  let main_v59 : IVec S320000 32 := shapeCast S320000 main_v58 shapeCasts_S320000x1_S320000
  let main_c_21 : IVec S_ 32 := constantI S_ 32 20000#32
  let main_v60 : IVec S320000 32 := broadcastInDim S320000 ![] bcast_S_S320000 main_c_21
  let main_v61 : IVec S320000 1 := cmpi .slt main_v59 main_v60
  let main_v62 : IVec S320000 1 := andi main_v57 main_v61
  let main_c_22 : IVec S_ 1 := constantI S_ 1 1#1
  let main_v63 : IVec S_ 1 := (fun x v => Host.reduce IntOp.andi x v reducesTo_S320000_S_d0 h_S_) main_v62 main_c_22
  let main_v64 : IVec S_ 1 := andi main_v53 main_v63
  main_v64

def fn_part2 {F : FTy → Type} [FloatOps F] (main_arg5 : IVec S320000x2 32) (main_arg8 : FVec F S128x128 .f32) (main_arg9 : FVec F S128 .f32) (main_arg10 : FVec F S128x384 .f32) (main_arg11 : FVec F S384 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x384 .f32 := Host.absf main_arg10
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg5 main_v48 main_v49 main_v50

def fn_part1 {F : FTy → Type} [FloatOps F] (main_arg4 : FVec F S320000x1 .f32) (main_arg5 : IVec S320000x2 32) (main_arg6 : FVec F S20x384 .f32) (main_arg7 : FVec F S384 .f32) (main_arg8 : FVec F S128x128 .f32) (main_arg9 : FVec F S128 .f32) (main_arg10 : FVec F S128x384 .f32) (main_arg11 : FVec F S384 .f32) (main_v13 : IVec S_ 1) (main_v16 : IVec S320000x3 1) : IVec S_ 1 :=
  let main_c_5 : IVec S_ 1 := constantI S_ 1 1#1
  let main_v17 : IVec S_ 1 := (fun x v => Host.reduce IntOp.andi x v reducesTo_S320000x3_S_d0_1 h_S_) main_v16 main_c_5
  let main_v18 : IVec S_ 1 := andi main_v13 main_v17
  let main_v19 : FVec F S320000x1 .f32 := Host.absf main_arg4
  let main_cst_6 : FVec F S_ .f32 := constant S_ .f32 0x7F800000#32
  let main_v20 : FVec F S320000x1 .f32 := broadcastInDim S320000x1 ![] bcast_S_S320000x1 main_cst_6
  let main_v21 : IVec S320000x1 1 := cmpf .olt main_v19 main_v20
  let main_c_7 : IVec S_ 1 := constantI S_ 1 1#1
  let main_v22 : IVec S_ 1 := (fun x v => Host.reduce IntOp.andi x v reducesTo_S320000x1_S_d0_1 h_S_) main_v21 main_c_7
  let main_v23 : IVec S_ 1 := andi main_v18 main_v22
  let main_v24 : FVec F S20x384 .f32 := Host.absf main_arg6
  let main_cst_8 : FVec F S_ .f32 := constant S_ .f32 0x7F800000#32
  let main_v25 : FVec F S20x384 .f32 := broadcastInDim S20x384 ![] bcast_S_S20x384 main_cst_8
  let main_v26 : IVec S20x384 1 := cmpf .olt main_v24 main_v25
  let main_c_9 : IVec S_ 1 := constantI S_ 1 1#1
  let main_v27 : IVec S_ 1 := (fun x v => Host.reduce IntOp.andi x v reducesTo_S20x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg5 main_arg8 main_arg9 main_arg10 main_arg11 main_v33

def fn {F : FTy → Type} [FloatOps F] (main_arg0 : FVec F S20000x128 .f32) (main_arg1 : FVec F S20000x3x128 .f32) (main_arg2 : FVec F S320000x20 .f32) (main_arg3 : FVec F S320000x3 .f32) (main_arg4 : FVec F S320000x1 .f32) (main_arg5 : IVec S320000x2 32) (main_arg6 : FVec F S20x384 .f32) (main_arg7 : FVec F S384 .f32) (main_arg8 : FVec F S128x128 .f32) (main_arg9 : FVec F S128 .f32) (main_arg10 : FVec F S128x384 .f32) (main_arg11 : FVec F S384 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S320000x20 .f32 := Host.absf main_arg2
  let main_cst_2 : FVec F S_ .f32 := constant S_ .f32 0x7F800000#32
  let main_v10 : FVec F S320000x20 .f32 := broadcastInDim S320000x20 ![] bcast_S_S320000x20 main_cst_2
  let main_v11 : IVec S320000x20 1 := cmpf .olt main_v9 main_v10
  let main_c_3 : IVec S_ 1 := constantI S_ 1 1#1
  let main_v12 : IVec S_ 1 := (fun x v => Host.reduce IntOp.andi x v reducesTo_S320000x20_S_d0_1 h_S_) main_v11 main_c_3
  let main_v13 : IVec S_ 1 := andi main_v8 main_v12
  let main_v14 : FVec F S320000x3 .f32 := Host.absf main_arg3
  let main_cst_4 : FVec F S_ .f32 := constant S_ .f32 0x7F800000#32
  let main_v15 : FVec F S320000x3 .f32 := broadcastInDim S320000x3 ![] bcast_S_S320000x3 main_cst_4
  let main_v16 : IVec S320000x3 1 := cmpf .olt main_v14 main_v15
  fn_part1 (F := F) main_arg4 main_arg5 main_arg6 main_arg7 main_arg8 main_arg9 main_arg10 main_arg11 main_v13 main_v16
-- ==== Kernel.lean ====
abbrev S20000x128 : Shape := ⟨2, ![20000, 128]⟩
abbrev S20000x3x128 : Shape := ⟨3, ![20000, 3, 128]⟩
abbrev S320000x20 : Shape := ⟨2, ![320000, 20]⟩
abbrev S320000x3 : Shape := ⟨2, ![320000, 3]⟩
abbrev S320000x1 : Shape := ⟨2, ![320000, 1]⟩
abbrev S320000x2 : Shape := ⟨2, ![320000, 2]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S320000 : Shape := ⟨1, ![320000]⟩
abbrev S1x128 : Shape := ⟨2, ![1, 128]⟩
abbrev S1x384 : Shape := ⟨2, ![1, 384]⟩
abbrev S20000x384 : Shape := ⟨2, ![20000, 384]⟩
abbrev S2000x128 : Shape := ⟨2, ![2000, 128]⟩
abbrev S2000x384 : Shape := ⟨2, ![2000, 384]⟩
abbrev S20000x768 : Shape := ⟨2, ![20000, 768]⟩
abbrev S_ : Shape := ⟨0, ![]⟩
abbrev S1 : Shape := ⟨1, ![1]⟩
abbrev S1x1 : Shape := ⟨2, ![1, 1]⟩
abbrev S320000x768 : Shape := ⟨2, ![320000, 768]⟩
abbrev S320000x384 : Shape := ⟨2, ![320000, 384]⟩
abbrev S320000x24 : Shape := ⟨2, ![320000, 24]⟩
abbrev S320000x128 : Shape := ⟨2, ![320000, 128]⟩
abbrev S2560x24 : Shape := ⟨2, ![2560, 24]⟩
abbrev S2560x384 : Shape := ⟨2, ![2560, 384]⟩
abbrev S2560x128 : Shape := ⟨2, ![2560, 128]⟩
abbrev S2560x20 : Shape := ⟨2, ![2560, 20]⟩
abbrev S2560x1 : Shape := ⟨2, ![2560, 1]⟩
abbrev S2560x3 : Shape := ⟨2, ![2560, 3]⟩
abbrev S2560 : Shape := ⟨1, ![2560]⟩

abbrev nBuf : Space → Nat
  | .hbm => 61
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S320000x20, .f32⟩
  | .hbm, ⟨3, _⟩ => ⟨S320000x3, .f32⟩
  | .hbm, ⟨4, _⟩ => ⟨S320000x1, .f32⟩
  | .hbm, ⟨5, _⟩ => ⟨S320000x2, .i32⟩
  | .hbm, ⟨6, _⟩ => ⟨S20x384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S320000x1, .i32⟩
  | .hbm, ⟨13, _⟩ => ⟨S320000, .i32⟩
  | .hbm, ⟨14, _⟩ => ⟨S320000x1, .i32⟩
  | .hbm, ⟨15, _⟩ => ⟨S320000, .i32⟩
  | .hbm, ⟨16, _⟩ => ⟨S1x128, .f32⟩
  | .hbm, ⟨17, _⟩ => ⟨S1x384, .f32⟩
  | .hbm, ⟨18, _⟩ => ⟨S20000x384, .f32⟩
  | .hbm, ⟨19, _⟩ => ⟨S20000x384, .f32⟩
  | .hbm, ⟨20, _⟩ => ⟨S20000x768, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S1, .i32⟩
  | .hbm, ⟨30, _⟩ => ⟨S_, .i32⟩
  | .hbm, ⟨31, _⟩ => ⟨S320000x1, .i32⟩
  | .hbm, ⟨32, _⟩ => ⟨S320000x1, .i1⟩
  | .hbm, ⟨33, _⟩ => ⟨S1x1, .i32⟩
  | .hbm, ⟨34, _⟩ => ⟨S320000x1, .i32⟩
  | .hbm, ⟨35, _⟩ => ⟨S320000x1, .i1⟩
  | .hbm, ⟨36, _⟩ => ⟨S320000x1, .i1⟩
  | .hbm, ⟨37, _⟩ => ⟨S_, .i1⟩
  | .hbm, ⟨38, _⟩ => ⟨S320000, .i1⟩
  | .hbm, ⟨39, _⟩ => ⟨S320000x768, .f32⟩
  | .hbm, ⟨40, _⟩ => ⟨S320000x768, .i1⟩
  | .hbm, ⟨41, _⟩ => ⟨S_, .f32⟩
  | .hbm, ⟨42, _⟩ => ⟨S320000x768, .f32⟩
  | .hbm, ⟨43, _⟩ => ⟨S320000x768, .f32⟩
  | .hbm, ⟨44, _⟩ => ⟨S320000x384, .f32⟩
  | .hbm, ⟨45, _⟩ => ⟨S320000x384, .f32⟩
  | .hbm, ⟨46, _⟩ => ⟨S320000x24, .f32⟩
  | .hbm, ⟨47, _⟩ => ⟨S1x384, .f32⟩
  | .hbm, ⟨48, _⟩ => ⟨S320000x128, .f32⟩
  | .hbm, ⟨49, _⟩ => ⟨S320000x384, .f32⟩
  | .hbm, ⟨50, _⟩ => ⟨S_, .f32⟩
  | .hbm, ⟨51, _⟩ => ⟨S20000x128, .f32⟩
  | .hbm, ⟨52, _⟩ => ⟨S320000x1, .i32⟩
  | .hbm, ⟨53, _⟩ => ⟨S20000x128, .f32⟩
  | .hbm, ⟨54, _⟩ => ⟨S_, .f32⟩
  | .hbm, ⟨55, _⟩ => ⟨S20000x384, .f32⟩
  | .hbm, ⟨56, _⟩ => ⟨S320000x1, .i32⟩
  | .hbm, ⟨57, _⟩ => ⟨S20000x384, .f32⟩
  | .hbm, ⟨58, _⟩ => ⟨S20000x3x128, .f32⟩
  | .hbm, ⟨59, _⟩ => ⟨S20000x128, .f32⟩
  | .hbm, ⟨60, _⟩ => ⟨S20000x3x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S2000x384, .f32⟩
  | .local _ .vmem, ⟨7, _⟩ => ⟨S2000x384, .f32⟩
  | .local _ .vmem, ⟨8, _⟩ => ⟨S2560x24, .f32⟩
  | .local _ .vmem, ⟨9, _⟩ => ⟨S2560x24, .f32⟩
  | .local _ .vmem, ⟨10, _⟩ => ⟨S20x384, .f32⟩
  | .local _ .vmem, ⟨11, _⟩ => ⟨S1x384, .f32⟩
  | .local _ .vmem, ⟨12, _⟩ => ⟨S2560x384, .f32⟩
  | .local _ .vmem, ⟨13, _⟩ => ⟨S2560x384, .f32⟩
  | .local _ .vmem, ⟨14, _⟩ => ⟨S2560x384, .f32⟩
  | .local _ .vmem, ⟨15, _⟩ => ⟨S2560x384, .f32⟩
  | .local _ .vmem, ⟨16, _⟩ => ⟨S2560x128, .f32⟩
  | .local _ .vmem, ⟨17, _⟩ => ⟨S2560x128, .f32⟩
  | .local _ .vmem, ⟨18, _⟩ => ⟨S2560x384, .f32⟩
  | .local _ .vmem, ⟨19, _⟩ => ⟨S2560x384, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14_0 : Ref sig .tc := ⟨.hbm, 48, rfl⟩
abbrev main_v14_1 : Ref sig .tc := ⟨.hbm, 49, rfl⟩
abbrev main_cst : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_0 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S20x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2560x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2560x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2560x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2560x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  shapeCasts_S128_S1x128 : S128.ShapeCasts S1x128
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  shapeCasts_S20000x3x128_S20000x384 : S20000x3x128.ShapeCasts S20000x384
  concatenates_S20000x384_S20000x384_S20000x768_d1 : Shape.Concatenates [S20000x384, S20000x384] S20000x768 1
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x768_0 : S320000.BroadcastsInDim S320000x768 (![0] : Fin 1 → Fin S320000x768.rank)
  bcast_S_S320000x768 : S_.BroadcastsInDim S320000x768 (![] : Fin 0 → Fin S320000x768.rank)
  slices_S320000x768_S320000x384_0_0 : S320000x768.Slices ![0, 0] S320000x384
  slices_S320000x768_S320000x384_0_384 : S320000x768.Slices ![0, 384] S320000x384
  concatenates_S320000x20_S320000x1_S320000x3_S320000x24_d1 : Shape.Concatenates [S320000x20, S320000x1, S320000x3] S320000x24 1
  inb_S2560x24_S2560x24_0_0 : ∀ a, (![0, 0] : Fin 2 → Nat) a + S2560x24.size a ≤ S2560x24.size a
  h_S2560x24 : 0 < S2560x24.numel
  shapeCasts_S2560x24_S2560x24 : S2560x24.ShapeCasts S2560x24
  slices_S2560x24_o0_0_S2560x20 : S2560x24.Slices ![0, 0] S2560x20
  slices_S2560x24_o0_20_S2560x1 : S2560x24.Slices ![0, 20] S2560x1
  slices_S2560x24_o0_21_S2560x3 : S2560x24.Slices ![0, 21] S2560x3
  inb_S20x384_S20x384_0_0 : ∀ a, (![0, 0] : Fin 2 → Nat) a + S20x384.size a ≤ S20x384.size a
  h_S20x384 : 0 < S20x384.numel
  broadcasts_S1x384_S2560x384 : S1x384.Broadcasts S2560x384
  broadcasts_S2560x1_S2560x384 : S2560x1.Broadcasts S2560x384
  inb_S2560x384_S2560x384_0_0 : ∀ a, (![0, 0] : Fin 2 → Nat) a + S2560x384.size a ≤ S2560x384.size a
  h_S2560x384 : 0 < S2560x384.numel
  shapeCasts_S2560x384_S2560x384 : S2560x384.ShapeCasts S2560x384
  slices_S2560x384_o0_0_S2560x128 : S2560x384.Slices ![0, 0] S2560x128
  slices_S2560x384_o0_128_S2560x128 : S2560x384.Slices ![0, 128] S2560x128
  slices_S2560x384_o0_256_S2560x128 : S2560x384.Slices ![0, 256] S2560x128
  inb_S2560x128_S2560x128_0_0 : ∀ a, (![0, 0] : Fin 2 → Nat) a + S2560x128.size a ≤ S2560x128.size a
  h_S2560x128 : 0 < S2560x128.numel
  reduces_S2560x3_S2560 : S2560x3.Reduces [1] S2560
  shapeCasts_S2560_S2560x1 : S2560.ShapeCasts S2560x1
  broadcasts_S2560x1_S2560x3 : S2560x1.Broadcasts S2560x3
  slices_S2560x3_o0_0_S2560x1 : S2560x3.Slices ![0, 0] S2560x1
  broadcasts_S2560x1_S2560x128 : S2560x1.Broadcasts S2560x128
  inb_S2560x384_S2560x128_0_0 : ∀ a, (![0, 0] : Fin 2 → Nat) a + S2560x128.size a ≤ S2560x384.size a
  slices_S2560x3_o0_1_S2560x1 : S2560x3.Slices ![0, 1] S2560x1
  inb_S2560x384_S2560x128_0_128 : ∀ a, (![0, 128] : Fin 2 → Nat) a + S2560x128.size a ≤ S2560x384.size a
  slices_S2560x3_o0_2_S2560x1 : S2560x3.Slices ![0, 2] S2560x1
  inb_S2560x384_S2560x128_0_256 : ∀ a, (![0, 256] : Fin 2 → Nat) a + S2560x128.size a ≤ S2560x384.size a
  bcast_S_S20000x128 : S_.BroadcastsInDim S20000x128 (![] : Fin 0 → Fin S20000x128.rank)
  bcast_S_S20000x384 : S_.BroadcastsInDim S20000x384 (![] : Fin 0 → Fin S20000x384.rank)
  shapeCasts_S20000x384_S20000x3x128 : S20000x384.ShapeCasts S20000x3x128
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  gather_S20000x768_S320000x1_S320000x768_1_0_n_n_0_1_1768_wf : GatherDims.WF S20000x768 S320000x1 S320000x768 [1] [0] [] [0] [] 1 ![1, 768]
  dot_S2560x20_S20x384_S2560x384_1_0_0_1_n_n_wf : DotDims.WF S2560x20 S20x384 S2560x384 [1] [0] [0] [1] [] []
  scatter_S20000x128_S320000x1_S320000x128_1_0_0_1_wf : ScatterDims.WF S20000x128 S320000x1 S320000x128 [1] [0] [0] 1
  scatter_S20000x384_S320000x1_S320000x384_1_0_0_1_wf : ScatterDims.WF S20000x384 S320000x1 S320000x384 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S20000x384.size a
  hwx0_5 : ∀ i : grid0.Coords, EltTy.bits .f32 = 32 ∨ (Rect.block (s := S20000x384) S2000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x24.size a ≤ S320000x24.size a
  hwx1_0 : ∀ i : grid1.Coords, EltTy.bits .f32 = 32 ∨ (Rect.block (s := S320000x24) S2560x24.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S20x384.size a ≤ S20x384.size a
  hwx1_1 : ∀ i : grid1.Coords, EltTy.bits .f32 = 32 ∨ (Rect.block (s := S20x384) S20x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x384.size a ≤ S320000x384.size a
  hwx1_3 : ∀ i : grid1.Coords, EltTy.bits .f32 = 32 ∨ (Rect.block (s := S320000x384) S2560x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2560x384.size a ≤ S320000x384.size a
  hwx1_4 : ∀ i : grid1.Coords, EltTy.bits .f32 = 32 ∨ (Rect.block (s := S320000x384) S2560x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2560x128.size a ≤ S320000x128.size a
  hwx1_5 : ∀ i : grid1.Coords, EltTy.bits .f32 = 32 ∨ (Rect.block (s := S320000x128) S2560x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2560x384.size a ≤ S320000x384.size a
  hwx1_6 : ∀ i : grid1.Coords, EltTy.bits .f32 = 32 ∨ (Rect.block (s := S320000x384) S2560x384.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S20000x768_S320000x1_S320000x768_1_0_n_n_0_1_1768 : GatherDims S20000x768 S320000x1 S320000x768 where
  offsetDims := [1]
  collapsedSliceDims := [0]
  operandBatchingDims := []
  startIndicesBatchingDims := []
  startIndexMap := [0]
  indexVectorDim := 1
  sliceSizes := ![1, 768]
  wf := gather_S20000x768_S320000x1_S320000x768_1_0_n_n_0_1_1768_wf
def dot_S2560x20_S20x384_S2560x384_1_0_0_1_n_n : DotDims S2560x20 S20x384 S2560x384 where
  lhsContracting := [1]
  rhsContracting := [0]
  lhsNonContracting := [0]
  rhsNonContracting := [1]
  lhsBatch := []
  rhsBatch := []
  wf := dot_S2560x20_S20x384_S2560x384_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x384_S320000x1_S320000x384_1_0_0_1 : ScatterDims S20000x384 S320000x1 S320000x384 where
  updateWindowDims := [1]
  insertedWindowDims := [0]
  scatterDimsToOperandDims := [0]
  indexVectorDim := 1
  wf := scatter_S20000x384_S320000x1_S320000x384_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S2560x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S20x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2560x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2560x384.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S2560x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S2560x384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x3x128 : Shape := ⟨3, ![20000, 3, 128]⟩
abbrev S320000x20 : Shape := ⟨2, ![320000, 20]⟩
abbrev S320000x3 : Shape := ⟨2, ![320000, 3]⟩
abbrev S320000x1 : Shape := ⟨2, ![320000, 1]⟩
abbrev S320000x2 : Shape := ⟨2, ![320000, 2]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S320000 : Shape := ⟨1, ![320000]⟩
abbrev S_ : Shape := ⟨0, ![]⟩
abbrev S320000x384 : Shape := ⟨2, ![320000, 384]⟩
abbrev S1x384 : Shape := ⟨2, ![1, 384]⟩
abbrev S1x128 : Shape := ⟨2, ![1, 128]⟩
abbrev S20000x384 : Shape := ⟨2, ![20000, 384]⟩
abbrev S320000x128 : Shape := ⟨2, ![320000, 128]⟩
abbrev S320000x3x128 : Shape := ⟨3, ![320000, 3, 128]⟩
abbrev S320000x1x128 : Shape := ⟨3, ![320000, 1, 128]⟩
abbrev S320000x3x1 : Shape := ⟨3, ![320000, 3, 1]⟩

abbrev nBuf : Space → Nat
  | .hbm => 107
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S320000x20, .f32⟩
  | .hbm, ⟨3, _⟩ => ⟨S320000x3, .f32⟩
  | .hbm, ⟨4, _⟩ => ⟨S320000x1, .f32⟩
  | .hbm, ⟨5, _⟩ => ⟨S320000x2, .i32⟩
  | .hbm, ⟨6, _⟩ => ⟨S20x384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S320000x1, .i32⟩
  | .hbm, ⟨13, _⟩ => ⟨S320000, .i32⟩
  | .hbm, ⟨14, _⟩ => ⟨S320000x1, .i32⟩
  | .hbm, ⟨15, _⟩ => ⟨S320000, .i32⟩
  | .hbm, ⟨16, _⟩ => ⟨S320000x3, .f32⟩
  | .hbm, ⟨17, _⟩ => ⟨S_, .f32⟩
  | .hbm, ⟨18, _⟩ => ⟨S320000, .f32⟩
  | .hbm, ⟨19, _⟩ => ⟨S320000x1, .f32⟩
  | .hbm, ⟨20, _⟩ => ⟨S320000x1, .f32⟩
  | .hbm, ⟨21, _⟩ => ⟨S_, .f32⟩
  | .hbm, ⟨22, _⟩ => ⟨S320000x1, .f32⟩
  | .hbm, ⟨23, _⟩ => ⟨S320000x1, .f32⟩
  | .hbm, ⟨24, _⟩ => ⟨S320000x3, .f32⟩
  | .hbm, ⟨25, _⟩ => ⟨S320000x3, .f32⟩
  | .hbm, ⟨26, _⟩ => ⟨S320000x384, .f32⟩
  | .hbm, ⟨27, _⟩ => ⟨S1x384, .f32⟩
  | .hbm, ⟨28, _⟩ => ⟨S320000x384, .f32⟩
  | .hbm, ⟨29, _⟩ => ⟨S320000x384, .f32⟩
  | .hbm, ⟨30, _⟩ => ⟨S_, .f32⟩
  | .hbm, ⟨31, _⟩ => ⟨S320000x1, .f32⟩
  | .hbm, ⟨32, _⟩ => ⟨S320000x1, .i1⟩
  | .hbm, ⟨33, _⟩ => ⟨S_, .f32⟩
  | .hbm, ⟨34, _⟩ => ⟨S320000x1, .f32⟩
  | .hbm, ⟨35, _⟩ => ⟨S320000x1, .f32⟩
  | .hbm, ⟨36, _⟩ => ⟨S320000x1, .f32⟩
  | .hbm, ⟨37, _⟩ => ⟨S_, .f32⟩
  | .hbm, ⟨38, _⟩ => ⟨S320000x1, .f32⟩
  | .hbm, ⟨39, _⟩ => ⟨S320000x1, .f32⟩
  | .hbm, ⟨40, _⟩ => ⟨S_, .f32⟩
  | .hbm, ⟨41, _⟩ => ⟨S320000x1, .f32⟩
  | .hbm, ⟨42, _⟩ => ⟨S320000x1, .f32⟩
  | .hbm, ⟨43, _⟩ => ⟨S_, .f32⟩
  | .hbm, ⟨44, _⟩ => ⟨S_, .f32⟩
  | .hbm, ⟨45, _⟩ => ⟨S320000x1, .f32⟩
  | .hbm, ⟨46, _⟩ => ⟨S320000x1, .f32⟩
  | .hbm, ⟨47, _⟩ => ⟨S320000x384, .f32⟩
  | .hbm, ⟨48, _⟩ => ⟨S320000x384, .f32⟩
  | .hbm, ⟨49, _⟩ => ⟨S20000x128, .f32⟩
  | .hbm, ⟨50, _⟩ => ⟨S1x128, .f32⟩
  | .hbm, ⟨51, _⟩ => ⟨S20000x128, .f32⟩
  | .hbm, ⟨52, _⟩ => ⟨S20000x128, .f32⟩
  | .hbm, ⟨53, _⟩ => ⟨S20000x128, .f32⟩
  | .hbm, ⟨54, _⟩ => ⟨S20000x128, .f32⟩
  | .hbm, ⟨55, _⟩ => ⟨S_, .f32⟩
  | .hbm, ⟨56, _⟩ => ⟨S20000x128, .f32⟩
  | .hbm, ⟨57, _⟩ => ⟨S20000x128, .f32⟩
  | .hbm, ⟨58, _⟩ => ⟨S_, .f32⟩
  | .hbm, ⟨59, _⟩ => ⟨S20000x128, .f32⟩
  | .hbm, ⟨60, _⟩ => ⟨S20000x128, .f32⟩
  | .hbm, ⟨61, _⟩ => ⟨S20000x128, .f32⟩
  | .hbm, ⟨62, _⟩ => ⟨S20000x384, .f32⟩
  | .hbm, ⟨63, _⟩ => ⟨S1x384, .f32⟩
  | .hbm, ⟨64, _⟩ => ⟨S20000x384, .f32⟩
  | .hbm, ⟨65, _⟩ => ⟨S20000x384, .f32⟩
  | .hbm, ⟨66, _⟩ => ⟨S_, .i32⟩
  | .hbm, ⟨67, _⟩ => ⟨S320000, .i32⟩
  | .hbm, ⟨68, _⟩ => ⟨S320000, .i1⟩
  | .hbm, ⟨69, _⟩ => ⟨S_, .i32⟩
  | .hbm, ⟨70, _⟩ => ⟨S320000, .i32⟩
  | .hbm, ⟨71, _⟩ => ⟨S320000, .i32⟩
  | .hbm, ⟨72, _⟩ => ⟨S320000, .i32⟩
  | .hbm, ⟨73, _⟩ => ⟨S320000x1, .i32⟩
  | .hbm, ⟨74, _⟩ => ⟨S320000x384, .f32⟩
  | .hbm, ⟨75, _⟩ => ⟨S320000x384, .f32⟩
  | .hbm, ⟨76, _⟩ => ⟨S320000x128, .f32⟩
  | .hbm, ⟨77, _⟩ => ⟨S320000x128, .f32⟩
  | .hbm, ⟨78, _⟩ => ⟨S320000x128, .f32⟩
  | .hbm, ⟨79, _⟩ => ⟨S_, .i32⟩
  | .hbm, ⟨80, _⟩ => ⟨S320000, .i32⟩
  | .hbm, ⟨81, _⟩ => ⟨S320000, .i1⟩
  | .hbm, ⟨82, _⟩ => ⟨S_, .i32⟩
  | .hbm, ⟨83, _⟩ => ⟨S320000, .i32⟩
  | .hbm, ⟨84, _⟩ => ⟨S320000, .i32⟩
  | .hbm, ⟨85, _⟩ => ⟨S320000, .i32⟩
  | .hbm, ⟨86, _⟩ => ⟨S320000x1, .i32⟩
  | .hbm, ⟨87, _⟩ => ⟨S320000x3x128, .f32⟩
  | .hbm, ⟨88, _⟩ => ⟨S320000x1x128, .f32⟩
  | .hbm, ⟨89, _⟩ => ⟨S320000x3x128, .f32⟩
  | .hbm, ⟨90, _⟩ => ⟨S320000x3x128, .f32⟩
  | .hbm, ⟨91, _⟩ => ⟨S320000x1x128, .f32⟩
  | .hbm, ⟨92, _⟩ => ⟨S320000x3x1, .f32⟩
  | .hbm, ⟨93, _⟩ => ⟨S320000x3x128, .f32⟩
  | .hbm, ⟨94, _⟩ => ⟨S320000x3x128, .f32⟩
  | .hbm, ⟨95, _⟩ => ⟨S320000x3x128, .f32⟩
  | .hbm, ⟨96, _⟩ => ⟨S320000x3x128, .f32⟩
  | .hbm, ⟨97, _⟩ => ⟨S_, .f32⟩
  | .hbm, ⟨98, _⟩ => ⟨S20000x128, .f32⟩
  | .hbm, ⟨99, _⟩ => ⟨S320000x1, .i32⟩
  | .hbm, ⟨100, _⟩ => ⟨S20000x128, .f32⟩
  | .hbm, ⟨101, _⟩ => ⟨S_, .f32⟩
  | .hbm, ⟨102, _⟩ => ⟨S20000x3x128, .f32⟩
  | .hbm, ⟨103, _⟩ => ⟨S320000x1, .i32⟩
  | .hbm, ⟨104, _⟩ => ⟨S20000x3x128, .f32⟩
  | .hbm, ⟨105, _⟩ => ⟨S20000x128, .f32⟩
  | .hbm, ⟨106, _⟩ => ⟨S20000x3x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c : Ref sig .tc := ⟨.hbm, 66, rfl⟩
abbrev main_v34 : Ref sig .tc := ⟨.hbm, 67, rfl⟩
abbrev main_v35 : Ref sig .tc := ⟨.hbm, 68, rfl⟩
abbrev main_c_5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_6 : Ref sig .tc := ⟨.hbm, 79, rfl⟩
abbrev main_v45 : Ref sig .tc := ⟨.hbm, 80, rfl⟩
abbrev main_v46 : Ref sig .tc := ⟨.hbm, 81, rfl⟩
abbrev main_c_7 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_8 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_9 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  reducesTo_S320000x3_S320000_d1 : S320000x3.ReducesTo [1] S320000
  h_S_ : 0 < S_.numel
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  bcast_S384_S1x384_1 : S384.BroadcastsInDim S1x384 (![1] : Fin 1 → Fin S1x384.rank)
  bcast_S1x384_S320000x384_0_1 : S1x384.BroadcastsInDim S320000x384 (![0, 1] : Fin 2 → Fin S320000x384.rank)
  bcast_S320000x1_S320000x384_0_1 : S320000x1.BroadcastsInDim S320000x384 (![0, 1] : Fin 2 → Fin S320000x384.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x384_S20000x384_0_1 : S1x384.BroadcastsInDim S20000x384 (![0, 1] : Fin 2 → Fin S20000x384.rank)
  bcast_S_S320000 : S_.BroadcastsInDim S320000 (![] : Fin 0 → Fin S320000.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S320000x128_S320000x1x128_0_2 : S320000x128.BroadcastsInDim S320000x1x128 (![0, 2] : Fin 2 → Fin S320000x1x128.rank)
  bcast_S320000x1x128_S320000x3x128_0_1_2 : S320000x1x128.BroadcastsInDim S320000x3x128 (![0, 1, 2] : Fin 3 → Fin S320000x3x128.rank)
  bcast_S320000x3_S320000x3x1_0_1 : S320000x3.BroadcastsInDim S320000x3x1 (![0, 1] : Fin 2 → Fin S320000x3x1.rank)
  bcast_S320000x3x1_S320000x3x128_0_1_2 : S320000x3x1.BroadcastsInDim S320000x3x128 (![0, 1, 2] : Fin 3 → Fin S320000x3x128.rank)
  bcast_S_S20000x3x128 : S_.BroadcastsInDim S20000x3x128 (![] : Fin 0 → Fin S20000x3x128.rank)
  dot_S320000x20_S20x384_S320000x384_1_0_0_1_n_n_wf : DotDims.WF S320000x20 S20x384 S320000x384 [1] [0] [0] [1] [] []
  dot_S20000x128_S128x128_S20000x128_1_0_0_1_n_n_wf : DotDims.WF S20000x128 S128x128 S20000x128 [1] [0] [0] [1] [] []
  dot_S20000x128_S128x384_S20000x384_1_0_0_1_n_n_wf : DotDims.WF S20000x128 S128x384 S20000x384 [1] [0] [0] [1] [] []
  gather_S20000x384_S320000x1_S320000x384_1_0_n_n_0_1_1384_wf : GatherDims.WF S20000x384 S320000x1 S320000x384 [1] [0] [] [0] [] 1 ![1, 384]
  gather_S20000x3x128_S320000x1_S320000x3x128_12_0_n_n_0_1_13128_wf : GatherDims.WF S20000x3x128 S320000x1 S320000x3x128 [1, 2] [0] [] [0] [] 1 ![1, 3, 128]
  scatter_S20000x128_S320000x1_S320000x128_1_0_0_1_wf : ScatterDims.WF S20000x128 S320000x1 S320000x128 [1] [0] [0] 1
  scatter_S20000x3x128_S320000x1_S320000x3x128_12_0_0_1_wf : ScatterDims.WF S20000x3x128 S320000x1 S320000x3x128 [1, 2] [0] [0] 1

variable [Facts₀]

def dot_S320000x20_S20x384_S320000x384_1_0_0_1_n_n : DotDims S320000x20 S20x384 S320000x384 where
  lhsContracting := [1]
  rhsContracting := [0]
  lhsNonContracting := [0]
  rhsNonContracting := [1]
  lhsBatch := []
  rhsBatch := []
  wf := dot_S320000x20_S20x384_S320000x384_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf
def gather_S20000x384_S320000x1_S320000x384_1_0_n_n_0_1_1384 : GatherDims S20000x384 S320000x1 S320000x384 where
  offsetDims := [1]
  collapsedSliceDims := [0]
  operandBatchingDims := []
  startIndicesBatchingDims := []
  startIndexMap := [0]
  indexVectorDim := 1
  sliceSizes := ![1, 384]
  wf := gather_S20000x384_S320000x1_S320000x384_1_0_n_n_0_1_1384_wf
def gather_S20000x3x128_S320000x1_S320000x3x128_12_0_n_n_0_1_13128 : GatherDims S20000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S20000x3x128_S320000x1_S320000x3x128_12_0_n_n_0_1_13128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf

class Facts : Prop extends Facts₀ where

variable [Facts]
-- ==== Proof.KB.NodeMlp.lean ====
/-
  The node network's launch, first half: what one grid point of the per-node kernel leaves in its output block.

  The kernel's ten grid points each take a block of 2000 rows of the node features together with the two weight
  matrices and the two bias rows (whole, the same at every point), and store one value into the whole output block:
  the second layer's affine image of the gated first layer.  This module fixes, at an arbitrary valuation `V` of the
  buffers as the launch finds them, each window's block at a point, the output block as a function of the input
  blocks, the body's triple, and the proof data the pipeline's launch theorem takes.
-/
import proofs.«405721_j59141699666425_3_alg».proof.Proof.Gen.Kernel.Launch
import proofs.«405721_j59141699666425_3_alg».proof.Proof.Gen.Kernel.Skeleton
import proofs.«405721_j59141699666425_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the index map
    had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the index map
    had not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the index map
    had not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the index map
    had not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the index map
    had not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and the one store take the whole block -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x384 := Rect.unit (s := S128x384) ![0, 0] S128x384.size inb_S128x384_S128x384_0_0
abbrev r0_4 : Rect S1x384 := Rect.unit (s := S1x384) ![0, 0] S1x384.size inb_S1x384_S1x384_0_0
abbrev r0_5 : Rect S2000x384 := Rect.unit (s := S2000x384) ![0, 0] S2000x384.size inb_S2000x384_S2000x384_0_0

/-- The output block after the body, from the five input blocks: the one store's payload laid over the whole block. -/
def out0_5 (x0 : Vec F S2000x128 .f32) (x1 : Vec F S128x128 .f32) (x2 : Vec F S1x128 .f32) (x3 : Vec F S128x384 .f32) (x4 : Vec F S1x384 .f32) : Vec F S2000x384 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S2000x384 .f32) (y : S2000x384.Idx) :
    ∃ pc ∈ ([⟨r0_5, p0⟩] : List (View.Piece (Elt F) S2000x384 .f32)), y ∈ pc.1.set :=
  View.cover_of_tiled [⟨r0_5, p0⟩] S2000x384.size (by rfl) y

set_option maxHeartbeats 1000000 in
/-- The body on whole staging buffers, the inputs' at contents `x0 … x4` and the output's at anything, runs to the end
    and leaves the inputs as they were and the output at `out0_5` of them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x384 .f32) (harg4 : arg4.IsWhole)
    (arg5 : Memref sig .tc .vmem S1x384 .f32) (harg5 : arg5.IsWhole) (arg6 : Memref sig .tc .vmem S2000x384 .f32) (harg6 : arg6.IsWhole)
    (x0 : Vec F S2000x128 .f32) (x1 : Vec F S128x128 .f32) (x2 : Vec F S1x128 .f32) (x3 : Vec F S128x384 .f32) (x4 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_mlp_kernel i arg1 harg1 arg2 harg2 arg3 harg3 arg4 harg4 arg5 harg5 arg6 harg6) K := by
  simp only [cc0__node_mlp_kernel_eq_skeleton]; unfold cc0__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the first launch on core `c`: the arrays as the launch finds them; after the body each input's
    buffer at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.EdgeGate.lean ====
/-
  The edge network's launch, first half: what one grid point of the per-edge kernel leaves in its two output blocks.

  Each of the 125 grid points takes a block of 2560 edges: the packed edge features (twenty filter inputs, the distance,
  the three vector components), the filter weights and bias (whole, the same at every point), and the two gathered node
  rows (the node network's output and the node's flattened vector state).  It stores the scalar message, the last third
  of the gated filter, into its first output block, and the vector message into the three column thirds of its second.
  This module fixes, at an arbitrary valuation `V` of the buffers as the launch finds them, each window's block at a
  point, the output blocks as functions of the input blocks, the body's triple, and the launch's proof data.
-/
import proofs.«405721_j59141699666425_3_alg».proof.Proof.Gen.Kernel.Launch
import proofs.«405721_j59141699666425_3_alg».proof.Proof.Gen.Kernel.Skeleton
import proofs.«405721_j59141699666425_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the index map
    had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the index map
    had not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the index map
    had not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the index map
    had not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the index map
    had not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: every load takes its whole block; the stores take the first output block whole and the
    second in its three column thirds -/

abbrev r1_0 : Rect S2560x24 := Rect.unit (s := S2560x24) ![0, 0] S2560x24.size inb_S2560x24_S2560x24_0_0
abbrev r1_1 : Rect S20x384 := Rect.unit (s := S20x384) ![0, 0] S20x384.size inb_S20x384_S20x384_0_0
abbrev r1_2 : Rect S1x384 := Rect.unit (s := S1x384) ![0, 0] S1x384.size inb_S1x384_S1x384_0_0
abbrev r1_3 : Rect S2560x384 := Rect.unit (s := S2560x384) ![0, 0] S2560x384.size inb_S2560x384_S2560x384_0_0
abbrev r1_5 : Rect S2560x128 := Rect.unit (s := S2560x128) ![0, 0] S2560x128.size inb_S2560x128_S2560x128_0_0
abbrev r1_6a : Rect S2560x384 := Rect.unit (s := S2560x384) ![0, 0] S2560x128.size inb_S2560x384_S2560x128_0_0
abbrev r1_6b : Rect S2560x384 := Rect.unit (s := S2560x384) ![0, 128] S2560x128.size inb_S2560x384_S2560x128_0_128
abbrev r1_6c : Rect S2560x384 := Rect.unit (s := S2560x384) ![0, 256] S2560x128.size inb_S2560x384_S2560x128_0_256

/-- The first output block after the body: the scalar message's payload laid over the whole block. -/
def out1_5 (x0 : Vec F S2560x24 .f32) (x1 : Vec F S20x384 .f32) (x2 : Vec F S1x384 .f32) (x3 : Vec F S2560x384 .f32) : Vec F S2560x128 .f32 :=
  View.canon [⟨r1_5, k1_pay9 (View.ld x0 r1_0) (View.ld x1 r1_1) (View.ld x2 r1_2) (View.ld x3 r1_3)⟩]

/-- The second output block after the body: the three vector components' payloads, each over its column third (the
    last store first). -/
def out1_6 (x0 : Vec F S2560x24 .f32) (x1 : Vec F S20x384 .f32) (x2 : Vec F S1x384 .f32) (x3 : Vec F S2560x384 .f32) (x4 : Vec F S2560x384 .f32) : Vec F S2560x384 .f32 :=
  View.canon [
    ⟨r1_6c, k1_pay4 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩,
    ⟨r1_6b, k1_pay3 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩,
    ⟨r1_6a, k1_pay2 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩]

/-- The one store covers the first output block. -/
theorem cover1_5 (p0 : Vec F S2560x128 .f32) (y : S2560x128.Idx) :
    ∃ pc ∈ ([⟨r1_5, p0⟩] : List (View.Piece (Elt F) S2560x128 .f32)), y ∈ pc.1.set :=
  View.cover_of_tiled [⟨r1_5, p0⟩] S2560x128.size (by rfl) y

/-- The three column thirds cover the second output block. -/
theorem cover1_6 (p0 p1 p2 : Vec F S2560x128 .f32) (y : S2560x384.Idx) :
    ∃ pc ∈ ([⟨r1_6c, p0⟩, ⟨r1_6b, p1⟩, ⟨r1_6a, p2⟩] : List (View.Piece (Elt F) S2560x384 .f32)), y ∈ pc.1.set :=
  View.cover_of_tiled [⟨r1_6c, p0⟩, ⟨r1_6b, p1⟩, ⟨r1_6a, p2⟩] S2560x128.size (by rfl) y

set_option maxHeartbeats 2000000 in
/-- The body on whole staging buffers, the inputs' at contents `x0 … x4` and the outputs' at anything, runs to the end
    and leaves the inputs as they were and the outputs at `out1_5` and `out1_6` of them. -/
theorem sound_kernel1 (c : Dev nD) (E : Set ℕ) (i : grid1.Coords)
    (arg1 : Memref sig .tc .vmem S2560x24 .f32) (harg1 : arg1.IsWhole) (arg2 : Memref sig .tc .vmem S20x384 .f32) (harg2 : arg2.IsWhole)
    (arg3 : Memref sig .tc .vmem S1x384 .f32) (harg3 : arg3.IsWhole) (arg4 : Memref sig .tc .vmem S2560x384 .f32) (harg4 : arg4.IsWhole)
    (arg5 : Memref sig .tc .vmem S2560x384 .f32) (harg5 : arg5.IsWhole) (arg6 : Memref sig .tc .vmem S2560x128 .f32) (harg6 : arg6.IsWhole)
    (arg7 : Memref sig .tc .vmem S2560x384 .f32) (harg7 : arg7.IsWhole)
    (x0 : Vec F S2560x24 .f32) (x1 : Vec F S20x384 .f32) (x2 : Vec F S1x384 .f32) (x3 : Vec F S2560x384 .f32) (x4 : Vec F S2560x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3)
            ∗ owns (c : Thread nD τ) arg7 fullShare (out1_6 x0 x1 x2 x3 x4)) -∗ K ⟨⟩))
      ⊢ wp frame (wpE (defs₀ (F := F)) Variants.none c none) E (cc1__filter_gate_kernel i arg1 harg1 arg2 harg2 arg3 harg3 arg4 harg4 arg5 harg5 arg6 harg6 arg7 harg7) K := by
  simp only [cc1__filter_gate_kernel_eq_skeleton]; unfold cc1__filter_gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _ _ _)

/-- The proof data of the second launch on core `c`: the arrays as the launch finds them; after the body each input's
    buffer at its block and the outputs' at `out1_5`, `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program as a run of seven segments: three reshapes and slices on the host, the node network's launch, the
  host's gather of the node rows for every edge, the edge network's launch, and the host's scatter-add of the messages.

  The buffers' contents at each segment boundary are a fold from the launch memory: a host stretch applies its
  operations; a launch leaves each output array at what its grid points wrote back and every other buffer as it found
  it.  The run's postcondition reads EVERY unscoped buffer at the last boundary's contents, so both the frame claim
  (each argument as launched) and the value claim (the two results) are read off it.
-/
import proofs.«405721_j59141699666425_3_alg».proof.Proof.KB.NodeMlp
import proofs.«405721_j59141699666425_3_alg».proof.Proof.KB.EdgeGate
import proofs.«405721_j59141699666425_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the node launch's entry). -/
abbrev W1 : Dev nD → Valuation τ sig (Elt F) := fun c => StableHlo.after hostOps0 (W0 m c)
abbrev A1 : (c : Dev nD) → (b : Ref sig .tc) → Buf (Elt F) ((c : Thread nD τ).loc b) := fun c b => W1 m c b
/-- At the node launch's exit: its arrays at what the pipeline leaves, every other buffer as entered. -/
def W2 (c : Dev nD) : Valuation τ sig (Elt F) :=
  Pipeline.withArrays spec0 c (W1 m c) fun w => (dat0 (A1 m) c).arrAt w cfg0.N
theorem W2_arr (c : Dev nD) (w : Fin cfg0.W) :
    W2 m c (Proc.devRef .tc (Pipeline.arrRef spec0 w)) = (dat0 (A1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev A2 : (c : Dev nD) → (b : Ref sig .tc) → Buf (Elt F) ((c : Thread nD τ).loc b) := fun c b => W2 m c b
theorem hF0 (c : Dev nD) (w : Fin cfg0.W) : (dat0 (A1 m) c).arrAt w cfg0.N = A2 m c (Pipeline.arrRef spec0 w) :=
  (W2_arr m c w).symm
theorem hrest0 (c : Dev nD) : ∀ b, b ∉ Finset.univ.image (Pipeline.arrRef spec0) → A2 m c b = A1 m c b :=
  fun b hb => W2_of_ne m c b fun w e => hb (Finset.mem_image.mpr ⟨w, Finset.mem_univ _, e⟩)

/-- After the three host stretches between the launches (the edge launch's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev A5 : (c : Dev nD) → (b : Ref sig .tc) → Buf (Elt F) ((c : Thread nD τ).loc b) := fun c b => W5 m c b
/-- At the edge launch's exit. -/
def W6 (c : Dev nD) : Valuation τ sig (Elt F) :=
  Pipeline.withArrays spec1 c (W5 m c) fun w => (dat1 (A5 m) c).arrAt w cfg1.N
theorem W6_arr (c : Dev nD) (w : Fin cfg1.W) :
    W6 m c (Proc.devRef .tc (Pipeline.arrRef spec1 w)) = (dat1 (A5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev A6 : (c : Dev nD) → (b : Ref sig .tc) → Buf (Elt F) ((c : Thread nD τ).loc b) := fun c b => W6 m c b
theorem hF1 (c : Dev nD) (w : Fin cfg1.W) : (dat1 (A5 m) c).arrAt w cfg1.N = A6 m c (Pipeline.arrRef spec1 w) :=
  (W6_arr m c w).symm
theorem hrest1 (c : Dev nD) : ∀ b, b ∉ Finset.univ.image (Pipeline.arrRef spec1) → A6 m c b = A5 m c b :=
  fun b hb => W6_of_ne m c b fun w e => hb (Finset.mem_image.mpr ⟨w, Finset.mem_univ _, e⟩)
/-- After the last host stretch: the program's end. -/
abbrev W7 : Dev nD → Valuation τ sig (Elt F) := fun c => StableHlo.after hostOps2 (W6 m c)

/-! ## No segment changes an argument -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide : main_arg0 ∉ hostOps2_W)
    _ = W5 m c (Proc.devRef .tc main_arg0) := W6_of_ne m c main_arg0 (by decide)
    _ = W4 m c (Proc.devRef .tc main_arg0) := StableHlo.after_of_writes_sub hostOps1_2 _ hostOps1_2_writes (by decide : main_arg0 ∉ hostOps1_2_W)
    _ = W3 m c (Proc.devRef .tc main_arg0) := StableHlo.after_of_writes_sub hostOps1_1 _ hostOps1_1_writes (by decide : main_arg0 ∉ hostOps1_1_W)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (A1 m) c).arrAt_in 0 rfl _).trans (A_eq0 (A1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide : main_arg1 ∉ hostOps2_W)
    _ = W5 m c (Proc.devRef .tc main_arg1) := W6_of_ne m c main_arg1 (by decide)
    _ = W4 m c (Proc.devRef .tc main_arg1) := StableHlo.after_of_writes_sub hostOps1_2 _ hostOps1_2_writes (by decide : main_arg1 ∉ hostOps1_2_W)
    _ = W3 m c (Proc.devRef .tc main_arg1) := StableHlo.after_of_writes_sub hostOps1_1 _ hostOps1_1_writes (by decide : main_arg1 ∉ hostOps1_1_W)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide : main_arg2 ∉ hostOps2_W)
    _ = W5 m c (Proc.devRef .tc main_arg2) := W6_of_ne m c main_arg2 (by decide)
    _ = W4 m c (Proc.devRef .tc main_arg2) := StableHlo.after_of_writes_sub hostOps1_2 _ hostOps1_2_writes (by decide : main_arg2 ∉ hostOps1_2_W)
    _ = W3 m c (Proc.devRef .tc main_arg2) := StableHlo.after_of_writes_sub hostOps1_1 _ hostOps1_1_writes (by decide : main_arg2 ∉ hostOps1_1_W)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide : main_arg3 ∉ hostOps2_W)
    _ = W5 m c (Proc.devRef .tc main_arg3) := W6_of_ne m c main_arg3 (by decide)
    _ = W4 m c (Proc.devRef .tc main_arg3) := StableHlo.after_of_writes_sub hostOps1_2 _ hostOps1_2_writes (by decide : main_arg3 ∉ hostOps1_2_W)
    _ = W3 m c (Proc.devRef .tc main_arg3) := StableHlo.after_of_writes_sub hostOps1_1 _ hostOps1_1_writes (by decide : main_arg3 ∉ hostOps1_1_W)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide : main_arg4 ∉ hostOps2_W)
    _ = W5 m c (Proc.devRef .tc main_arg4) := W6_of_ne m c main_arg4 (by decide)
    _ = W4 m c (Proc.devRef .tc main_arg4) := StableHlo.after_of_writes_sub hostOps1_2 _ hostOps1_2_writes (by decide : main_arg4 ∉ hostOps1_2_W)
    _ = W3 m c (Proc.devRef .tc main_arg4) := StableHlo.after_of_writes_sub hostOps1_1 _ hostOps1_1_writes (by decide : main_arg4 ∉ hostOps1_1_W)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide : main_arg5 ∉ hostOps2_W)
    _ = W5 m c (Proc.devRef .tc main_arg5) := W6_of_ne m c main_arg5 (by decide)
    _ = W4 m c (Proc.devRef .tc main_arg5) := StableHlo.after_of_writes_sub hostOps1_2 _ hostOps1_2_writes (by decide : main_arg5 ∉ hostOps1_2_W)
    _ = W3 m c (Proc.devRef .tc main_arg5) := StableHlo.after_of_writes_sub hostOps1_1 _ hostOps1_1_writes (by decide : main_arg5 ∉ hostOps1_1_W)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide : main_arg6 ∉ hostOps2_W)
    _ = W5 m c (Proc.devRef .tc main_arg6) := (W6_arr m c 1).trans (((dat1 (A5 m) c).arrAt_in 1 rfl _).trans (A_eq1 (A5 m) c 1))
    _ = W4 m c (Proc.devRef .tc main_arg6) := StableHlo.after_of_writes_sub hostOps1_2 _ hostOps1_2_writes (by decide : main_arg6 ∉ hostOps1_2_W)
    _ = W3 m c (Proc.devRef .tc main_arg6) := StableHlo.after_of_writes_sub hostOps1_1 _ hostOps1_1_writes (by decide : main_arg6 ∉ hostOps1_1_W)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps2 _ hostOps2_writes (by decide : main_arg7 ∉ hostOps2_W)
    _ = W5 m c (Proc.devRef .tc main_arg7) := W6_of_ne m c main_arg7 (by decide)
    _ = W4 m c (Proc.devRef .tc main_arg7) := StableHlo.after_of_writes_sub hostOps1_2 _ hostOps1_2_writes (by decide : main_arg7 ∉ hostOps1_2_W)
    _ = W3 m c (Proc.devRef .tc main_arg7) := StableHlo.after_of_writes_sub hostOps1_1 _ hostOps1_1_writes (by decide : main_arg7 ∉ hostOps1_1_W)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps2 _ hostOps2_writes (by decide : main_arg8 ∉ hostOps2_W)
    _ = W5 m c (Proc.devRef .tc main_arg8) := W6_of_ne m c main_arg8 (by decide)
    _ = W4 m c (Proc.devRef .tc main_arg8) := StableHlo.after_of_writes_sub hostOps1_2 _ hostOps1_2_writes (by decide : main_arg8 ∉ hostOps1_2_W)
    _ = W3 m c (Proc.devRef .tc main_arg8) := StableHlo.after_of_writes_sub hostOps1_1 _ hostOps1_1_writes (by decide : main_arg8 ∉ hostOps1_1_W)
    _ = W2 m c (Proc.devRef .tc main_arg8) := StableHlo.after_of_writes_sub hostOps1 _ hostOps1_writes (by decide : main_arg8 ∉ hostOps1_W)
    _ = W1 m c (Proc.devRef .tc main_arg8) := (W2_arr m c 1).trans (((dat0 (A1 m) c).arrAt_in 1 rfl _).trans (A_eq0 (A1 m) c 1))
    _ = W0 m c (Proc.devRef .tc main_arg8) := StableHlo.after_of_writes_sub hostOps0 _ hostOps0_writes (by decide : main_arg8 ∉ hostOps0_W)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps2 _ hostOps2_writes (by decide : main_arg9 ∉ hostOps2_W)
    _ = W5 m c (Proc.devRef .tc main_arg9) := W6_of_ne m c main_arg9 (by decide)
    _ = W4 m c (Proc.devRef .tc main_arg9) := StableHlo.after_of_writes_sub hostOps1_2 _ hostOps1_2_writes (by decide : main_arg9 ∉ hostOps1_2_W)
    _ = W3 m c (Proc.devRef .tc main_arg9) := StableHlo.after_of_writes_sub hostOps1_1 _ hostOps1_1_writes (by decide : main_arg9 ∉ hostOps1_1_W)
    _ = W2 m c (Proc.devRef .tc main_arg9) := StableHlo.after_of_writes_sub hostOps1 _ hostOps1_writes (by decide : main_arg9 ∉ hostOps1_W)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps2 _ hostOps2_writes (by decide : main_arg10 ∉ hostOps2_W)
    _ = W5 m c (Proc.devRef .tc main_arg10) := W6_of_ne m c main_arg10 (by decide)
    _ = W4 m c (Proc.devRef .tc main_arg10) := StableHlo.after_of_writes_sub hostOps1_2 _ hostOps1_2_writes (by decide : main_arg10 ∉ hostOps1_2_W)
    _ = W3 m c (Proc.devRef .tc main_arg10) := StableHlo.after_of_writes_sub hostOps1_1 _ hostOps1_1_writes (by decide : main_arg10 ∉ hostOps1_1_W)
    _ = W2 m c (Proc.devRef .tc main_arg10) := StableHlo.after_of_writes_sub hostOps1 _ hostOps1_writes (by decide : main_arg10 ∉ hostOps1_W)
    _ = W1 m c (Proc.devRef .tc main_arg10) := (W2_arr m c 3).trans (((dat0 (A1 m) c).arrAt_in 3 rfl _).trans (A_eq0 (A1 m) c 3))
    _ = W0 m c (Proc.devRef .tc main_arg10) := StableHlo.after_of_writes_sub hostOps0 _ hostOps0_writes (by decide : main_arg10 ∉ hostOps0_W)
    _ = m ((c : Thread nD τ).loc main_arg10) := rfl
theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps2 _ hostOps2_writes (by decide : main_arg11 ∉ hostOps2_W)
    _ = W5 m c (Proc.devRef .tc main_arg11) := W6_of_ne m c main_arg11 (by decide)
    _ = W4 m c (Proc.devRef .tc main_arg11) := StableHlo.after_of_writes_sub hostOps1_2 _ hostOps1_2_writes (by decide : main_arg11 ∉ hostOps1_2_W)
    _ = W3 m c (Proc.devRef .tc main_arg11) := StableHlo.after_of_writes_sub hostOps1_1 _ hostOps1_1_writes (by decide : main_arg11 ∉ hostOps1_1_W)
    _ = W2 m c (Proc.devRef .tc main_arg11) := StableHlo.after_of_writes_sub hostOps1 _ hostOps1_writes (by decide : main_arg11 ∉ hostOps1_W)
    _ = W1 m c (Proc.devRef .tc main_arg11) := W2_of_ne m c main_arg11 (by decide)
    _ = W0 m c (Proc.devRef .tc main_arg11) := StableHlo.after_of_writes_sub hostOps0 _ hostOps0_writes (by decide : main_arg11 ∉ hostOps0_W)
    _ = m ((c : Thread nD τ).loc main_arg11) := rfl

/-! ## The proof data family and the thread state -/

abbrev adm' : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm' p) c
  | ⟨0, _⟩ => fun c => dat0 (A1 m) c
  | ⟨1, _⟩ => fun c => dat1 (A5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-- The last host stretch's exit state is the run's last thread state beside the core owing nothing. -/
theorem last_step (c : Dev nD) :
    (iprop(StableHlo.held (c : Thread nD τ) (Pipeline.ucRefs τ sig) (W7 m c) ∗ R c) : sProp 𝕄)
      ⊢ iprop(Tₙ m c ∗ ∃ W, owes (c.tc : Thread nD τ) (0 : CellTallies nD τ sig Unit) W) := by
  iintro ⟨Hh, Hp, HO⟩
  isplitl [Hh Hp]
  · isplitl [Hh]; · iexact Hh
    iexact Hp
  iexact HO

/-! ## The launches as segments -/

set_option backward.isDefEq.respectTransparency.types false in
/-- Launch 0 over the thread state: its arrays split out of the unscoped buffers at entry and put back at the exit
    contents; the generator register into the launch's invariant and out; nothing owed; no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (A1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (A1 m c) (A2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers at entry and put back at the exit
    contents; the generator register into the launch's invariant and out; nothing owed; no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (A5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (A5 m c) (A6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

set_option backward.isDefEq.respectTransparency.types false in
/-- THE RUN: from any memory with zero counters every weakly fair execution of the program terminates without a
    fault, and the final memory holds every unscoped buffer at the last boundary's contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm' (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c)⟩) (run_main m ρ)

end Cert.Kernel.Hand

end
-- ==== Proof.KI.NodeMlp.lean ====
/-
  The node network's launch, first half: what one grid point of the per-node kernel leaves in its output block.

  The kernel's ten grid points each take a block of 2000 rows of the node features together with the two weight
  matrices and the two bias rows (whole, the same at every point), and store one value into the whole output block:
  the second layer's affine image of the gated first layer.  This module fixes, at an arbitrary valuation `V` of the
  buffers as the launch finds them, each window's block at a point, the output block as a function of the input
  blocks, the body's triple, and the proof data the pipeline's launch theorem takes.
-/
import proofs.«405721_j59141699666425_3_alg».proof.Proof.Gen.KernelIdeal.Launch
import proofs.«405721_j59141699666425_3_alg».proof.Proof.Gen.KernelIdeal.Skeleton
import proofs.«405721_j59141699666425_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the index map
    had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the index map
    had not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the index map
    had not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the index map
    had not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the index map
    had not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and the one store take the whole block -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x384 := Rect.unit (s := S128x384) ![0, 0] S128x384.size inb_S128x384_S128x384_0_0
abbrev r0_4 : Rect S1x384 := Rect.unit (s := S1x384) ![0, 0] S1x384.size inb_S1x384_S1x384_0_0
abbrev r0_5 : Rect S2000x384 := Rect.unit (s := S2000x384) ![0, 0] S2000x384.size inb_S2000x384_S2000x384_0_0

/-- The output block after the body, from the five input blocks: the one store's payload laid over the whole block. -/
def out0_5 (x0 : Vec F S2000x128 .f32) (x1 : Vec F S128x128 .f32) (x2 : Vec F S1x128 .f32) (x3 : Vec F S128x384 .f32) (x4 : Vec F S1x384 .f32) : Vec F S2000x384 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S2000x384 .f32) (y : S2000x384.Idx) :
    ∃ pc ∈ ([⟨r0_5, p0⟩] : List (View.Piece (Elt F) S2000x384 .f32)), y ∈ pc.1.set :=
  View.cover_of_tiled [⟨r0_5, p0⟩] S2000x384.size (by rfl) y

set_option maxHeartbeats 1000000 in
/-- The body on whole staging buffers, the inputs' at contents `x0 … x4` and the output's at anything, runs to the end
    and leaves the inputs as they were and the output at `out0_5` of them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x384 .f32) (harg4 : arg4.IsWhole)
    (arg5 : Memref sig .tc .vmem S1x384 .f32) (harg5 : arg5.IsWhole) (arg6 : Memref sig .tc .vmem S2000x384 .f32) (harg6 : arg6.IsWhole)
    (x0 : Vec F S2000x128 .f32) (x1 : Vec F S128x128 .f32) (x2 : Vec F S1x128 .f32) (x3 : Vec F S128x384 .f32) (x4 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_mlp_kernel i arg1 harg1 arg2 harg2 arg3 harg3 arg4 harg4 arg5 harg5 arg6 harg6) K := by
  simp only [cc0__node_mlp_kernel_eq_skeleton]; unfold cc0__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the first launch on core `c`: the arrays as the launch finds them; after the body each input's
    buffer at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.EdgeGate.lean ====
/-
  The edge network's launch, first half: what one grid point of the per-edge kernel leaves in its two output blocks.

  Each of the 125 grid points takes a block of 2560 edges: the packed edge features (twenty filter inputs, the distance,
  the three vector components), the filter weights and bias (whole, the same at every point), and the two gathered node
  rows (the node network's output and the node's flattened vector state).  It stores the scalar message, the last third
  of the gated filter, into its first output block, and the vector message into the three column thirds of its second.
  This module fixes, at an arbitrary valuation `V` of the buffers as the launch finds them, each window's block at a
  point, the output blocks as functions of the input blocks, the body's triple, and the launch's proof data.
-/
import proofs.«405721_j59141699666425_3_alg».proof.Proof.Gen.KernelIdeal.Launch
import proofs.«405721_j59141699666425_3_alg».proof.Proof.Gen.KernelIdeal.Skeleton
import proofs.«405721_j59141699666425_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the index map
    had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the index map
    had not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the index map
    had not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the index map
    had not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the index map
    had not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: every load takes its whole block; the stores take the first output block whole and the
    second in its three column thirds -/

abbrev r1_0 : Rect S2560x24 := Rect.unit (s := S2560x24) ![0, 0] S2560x24.size inb_S2560x24_S2560x24_0_0
abbrev r1_1 : Rect S20x384 := Rect.unit (s := S20x384) ![0, 0] S20x384.size inb_S20x384_S20x384_0_0
abbrev r1_2 : Rect S1x384 := Rect.unit (s := S1x384) ![0, 0] S1x384.size inb_S1x384_S1x384_0_0
abbrev r1_3 : Rect S2560x384 := Rect.unit (s := S2560x384) ![0, 0] S2560x384.size inb_S2560x384_S2560x384_0_0
abbrev r1_5 : Rect S2560x128 := Rect.unit (s := S2560x128) ![0, 0] S2560x128.size inb_S2560x128_S2560x128_0_0
abbrev r1_6a : Rect S2560x384 := Rect.unit (s := S2560x384) ![0, 0] S2560x128.size inb_S2560x384_S2560x128_0_0
abbrev r1_6b : Rect S2560x384 := Rect.unit (s := S2560x384) ![0, 128] S2560x128.size inb_S2560x384_S2560x128_0_128
abbrev r1_6c : Rect S2560x384 := Rect.unit (s := S2560x384) ![0, 256] S2560x128.size inb_S2560x384_S2560x128_0_256

/-- The first output block after the body: the scalar message's payload laid over the whole block. -/
def out1_5 (x0 : Vec F S2560x24 .f32) (x1 : Vec F S20x384 .f32) (x2 : Vec F S1x384 .f32) (x3 : Vec F S2560x384 .f32) : Vec F S2560x128 .f32 :=
  View.canon [⟨r1_5, k1_pay9 (View.ld x0 r1_0) (View.ld x1 r1_1) (View.ld x2 r1_2) (View.ld x3 r1_3)⟩]

/-- The second output block after the body: the three vector components' payloads, each over its column third (the
    last store first). -/
def out1_6 (x0 : Vec F S2560x24 .f32) (x1 : Vec F S20x384 .f32) (x2 : Vec F S1x384 .f32) (x3 : Vec F S2560x384 .f32) (x4 : Vec F S2560x384 .f32) : Vec F S2560x384 .f32 :=
  View.canon [
    ⟨r1_6c, k1_pay4 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩,
    ⟨r1_6b, k1_pay3 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩,
    ⟨r1_6a, k1_pay2 (k1_pay7 (View.ld x0 r1_0) (View.ld x1 r1_1) (View.ld x2 r1_2) (View.ld x3 r1_3)) (k1_pay8 (View.ld x0 r1_0) (View.ld x1 r1_1) (View.ld x2 r1_2) (View.ld x3 r1_3)) (k1_pay10 (View.ld x0 r1_0)) (View.ld x4 r1_3)⟩]

/-- The one store covers the first output block. -/
theorem cover1_5 (p0 : Vec F S2560x128 .f32) (y : S2560x128.Idx) :
    ∃ pc ∈ ([⟨r1_5, p0⟩] : List (View.Piece (Elt F) S2560x128 .f32)), y ∈ pc.1.set :=
  View.cover_of_tiled [⟨r1_5, p0⟩] S2560x128.size (by rfl) y

/-- The three column thirds cover the second output block. -/
theorem cover1_6 (p0 p1 p2 : Vec F S2560x128 .f32) (y : S2560x384.Idx) :
    ∃ pc ∈ ([⟨r1_6c, p0⟩, ⟨r1_6b, p1⟩, ⟨r1_6a, p2⟩] : List (View.Piece (Elt F) S2560x384 .f32)), y ∈ pc.1.set :=
  View.cover_of_tiled [⟨r1_6c, p0⟩, ⟨r1_6b, p1⟩, ⟨r1_6a, p2⟩] S2560x128.size (by rfl) y

set_option maxHeartbeats 2000000 in
/-- The body on whole staging buffers, the inputs' at contents `x0 … x4` and the outputs' at anything, runs to the end
    and leaves the inputs as they were and the outputs at `out1_5` and `out1_6` of them. -/
theorem sound_kernel1 (c : Dev nD) (E : Set ℕ) (i : grid1.Coords)
    (arg1 : Memref sig .tc .vmem S2560x24 .f32) (harg1 : arg1.IsWhole) (arg2 : Memref sig .tc .vmem S20x384 .f32) (harg2 : arg2.IsWhole)
    (arg3 : Memref sig .tc .vmem S1x384 .f32) (harg3 : arg3.IsWhole) (arg4 : Memref sig .tc .vmem S2560x384 .f32) (harg4 : arg4.IsWhole)
    (arg5 : Memref sig .tc .vmem S2560x384 .f32) (harg5 : arg5.IsWhole) (arg6 : Memref sig .tc .vmem S2560x128 .f32) (harg6 : arg6.IsWhole)
    (arg7 : Memref sig .tc .vmem S2560x384 .f32) (harg7 : arg7.IsWhole)
    (x0 : Vec F S2560x24 .f32) (x1 : Vec F S20x384 .f32) (x2 : Vec F S1x384 .f32) (x3 : Vec F S2560x384 .f32) (x4 : Vec F S2560x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3)
            ∗ owns (c : Thread nD τ) arg7 fullShare (out1_6 x0 x1 x2 x3 x4)) -∗ K ⟨⟩))
      ⊢ wp frame (wpE (defs₀ (F := F)) Variants.none c none) E (cc1__filter_gate_kernel i arg1 harg1 arg2 harg2 arg3 harg3 arg4 harg4 arg5 harg5 arg6 harg6 arg7 harg7) K := by
  simp only [cc1__filter_gate_kernel_eq_skeleton]; unfold cc1__filter_gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _ _ _)

/-- The proof data of the second launch on core `c`: the arrays as the launch finds them; after the body each input's
    buffer at its block and the outputs' at `out1_5`, `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as a run of seven segments: three reshapes and slices on the host, the node network's launch, the
  host's gather of the node rows for every edge, the edge network's launch, and the host's scatter-add of the messages.

  The buffers' contents at each segment boundary are a fold from the launch memory: a host stretch applies its
  operations; a launch leaves each output array at what its grid points wrote back and every other buffer as it found
  it.  The run's postcondition reads EVERY unscoped buffer at the last boundary's contents, so both the frame claim
  (each argument as launched) and the value claim (the two results) are read off it.
-/
import proofs.«405721_j59141699666425_3_alg».proof.Proof.KI.NodeMlp
import proofs.«405721_j59141699666425_3_alg».proof.Proof.KI.EdgeGate
import proofs.«405721_j59141699666425_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the node launch's entry). -/
abbrev W1 : Dev nD → Valuation τ sig (Elt F) := fun c => StableHlo.after hostOps0 (W0 m c)
abbrev A1 : (c : Dev nD) → (b : Ref sig .tc) → Buf (Elt F) ((c : Thread nD τ).loc b) := fun c b => W1 m c b
/-- At the node launch's exit: its arrays at what the pipeline leaves, every other buffer as entered. -/
def W2 (c : Dev nD) : Valuation τ sig (Elt F) :=
  Pipeline.withArrays spec0 c (W1 m c) fun w => (dat0 (A1 m) c).arrAt w cfg0.N
theorem W2_arr (c : Dev nD) (w : Fin cfg0.W) :
    W2 m c (Proc.devRef .tc (Pipeline.arrRef spec0 w)) = (dat0 (A1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev A2 : (c : Dev nD) → (b : Ref sig .tc) → Buf (Elt F) ((c : Thread nD τ).loc b) := fun c b => W2 m c b
theorem hF0 (c : Dev nD) (w : Fin cfg0.W) : (dat0 (A1 m) c).arrAt w cfg0.N = A2 m c (Pipeline.arrRef spec0 w) :=
  (W2_arr m c w).symm
theorem hrest0 (c : Dev nD) : ∀ b, b ∉ Finset.univ.image (Pipeline.arrRef spec0) → A2 m c b = A1 m c b :=
  fun b hb => W2_of_ne m c b fun w e => hb (Finset.mem_image.mpr ⟨w, Finset.mem_univ _, e⟩)

/-- After the three host stretches between the launches (the edge launch's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev A5 : (c : Dev nD) → (b : Ref sig .tc) → Buf (Elt F) ((c : Thread nD τ).loc b) := fun c b => W5 m c b
/-- At the edge launch's exit. -/
def W6 (c : Dev nD) : Valuation τ sig (Elt F) :=
  Pipeline.withArrays spec1 c (W5 m c) fun w => (dat1 (A5 m) c).arrAt w cfg1.N
theorem W6_arr (c : Dev nD) (w : Fin cfg1.W) :
    W6 m c (Proc.devRef .tc (Pipeline.arrRef spec1 w)) = (dat1 (A5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev A6 : (c : Dev nD) → (b : Ref sig .tc) → Buf (Elt F) ((c : Thread nD τ).loc b) := fun c b => W6 m c b
theorem hF1 (c : Dev nD) (w : Fin cfg1.W) : (dat1 (A5 m) c).arrAt w cfg1.N = A6 m c (Pipeline.arrRef spec1 w) :=
  (W6_arr m c w).symm
theorem hrest1 (c : Dev nD) : ∀ b, b ∉ Finset.univ.image (Pipeline.arrRef spec1) → A6 m c b = A5 m c b :=
  fun b hb => W6_of_ne m c b fun w e => hb (Finset.mem_image.mpr ⟨w, Finset.mem_univ _, e⟩)
/-- After the last host stretch: the program's end. -/
abbrev W7 : Dev nD → Valuation τ sig (Elt F) := fun c => StableHlo.after hostOps2 (W6 m c)

/-! ## No segment changes an argument -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide : main_arg0 ∉ hostOps2_W)
    _ = W5 m c (Proc.devRef .tc main_arg0) := W6_of_ne m c main_arg0 (by decide)
    _ = W4 m c (Proc.devRef .tc main_arg0) := StableHlo.after_of_writes_sub hostOps1_2 _ hostOps1_2_writes (by decide : main_arg0 ∉ hostOps1_2_W)
    _ = W3 m c (Proc.devRef .tc main_arg0) := StableHlo.after_of_writes_sub hostOps1_1 _ hostOps1_1_writes (by decide : main_arg0 ∉ hostOps1_1_W)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (A1 m) c).arrAt_in 0 rfl _).trans (A_eq0 (A1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide : main_arg1 ∉ hostOps2_W)
    _ = W5 m c (Proc.devRef .tc main_arg1) := W6_of_ne m c main_arg1 (by decide)
    _ = W4 m c (Proc.devRef .tc main_arg1) := StableHlo.after_of_writes_sub hostOps1_2 _ hostOps1_2_writes (by decide : main_arg1 ∉ hostOps1_2_W)
    _ = W3 m c (Proc.devRef .tc main_arg1) := StableHlo.after_of_writes_sub hostOps1_1 _ hostOps1_1_writes (by decide : main_arg1 ∉ hostOps1_1_W)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide : main_arg2 ∉ hostOps2_W)
    _ = W5 m c (Proc.devRef .tc main_arg2) := W6_of_ne m c main_arg2 (by decide)
    _ = W4 m c (Proc.devRef .tc main_arg2) := StableHlo.after_of_writes_sub hostOps1_2 _ hostOps1_2_writes (by decide : main_arg2 ∉ hostOps1_2_W)
    _ = W3 m c (Proc.devRef .tc main_arg2) := StableHlo.after_of_writes_sub hostOps1_1 _ hostOps1_1_writes (by decide : main_arg2 ∉ hostOps1_1_W)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide : main_arg3 ∉ hostOps2_W)
    _ = W5 m c (Proc.devRef .tc main_arg3) := W6_of_ne m c main_arg3 (by decide)
    _ = W4 m c (Proc.devRef .tc main_arg3) := StableHlo.after_of_writes_sub hostOps1_2 _ hostOps1_2_writes (by decide : main_arg3 ∉ hostOps1_2_W)
    _ = W3 m c (Proc.devRef .tc main_arg3) := StableHlo.after_of_writes_sub hostOps1_1 _ hostOps1_1_writes (by decide : main_arg3 ∉ hostOps1_1_W)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide : main_arg4 ∉ hostOps2_W)
    _ = W5 m c (Proc.devRef .tc main_arg4) := W6_of_ne m c main_arg4 (by decide)
    _ = W4 m c (Proc.devRef .tc main_arg4) := StableHlo.after_of_writes_sub hostOps1_2 _ hostOps1_2_writes (by decide : main_arg4 ∉ hostOps1_2_W)
    _ = W3 m c (Proc.devRef .tc main_arg4) := StableHlo.after_of_writes_sub hostOps1_1 _ hostOps1_1_writes (by decide : main_arg4 ∉ hostOps1_1_W)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide : main_arg5 ∉ hostOps2_W)
    _ = W5 m c (Proc.devRef .tc main_arg5) := W6_of_ne m c main_arg5 (by decide)
    _ = W4 m c (Proc.devRef .tc main_arg5) := StableHlo.after_of_writes_sub hostOps1_2 _ hostOps1_2_writes (by decide : main_arg5 ∉ hostOps1_2_W)
    _ = W3 m c (Proc.devRef .tc main_arg5) := StableHlo.after_of_writes_sub hostOps1_1 _ hostOps1_1_writes (by decide : main_arg5 ∉ hostOps1_1_W)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide : main_arg6 ∉ hostOps2_W)
    _ = W5 m c (Proc.devRef .tc main_arg6) := (W6_arr m c 1).trans (((dat1 (A5 m) c).arrAt_in 1 rfl _).trans (A_eq1 (A5 m) c 1))
    _ = W4 m c (Proc.devRef .tc main_arg6) := StableHlo.after_of_writes_sub hostOps1_2 _ hostOps1_2_writes (by decide : main_arg6 ∉ hostOps1_2_W)
    _ = W3 m c (Proc.devRef .tc main_arg6) := StableHlo.after_of_writes_sub hostOps1_1 _ hostOps1_1_writes (by decide : main_arg6 ∉ hostOps1_1_W)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps2 _ hostOps2_writes (by decide : main_arg7 ∉ hostOps2_W)
    _ = W5 m c (Proc.devRef .tc main_arg7) := W6_of_ne m c main_arg7 (by decide)
    _ = W4 m c (Proc.devRef .tc main_arg7) := StableHlo.after_of_writes_sub hostOps1_2 _ hostOps1_2_writes (by decide : main_arg7 ∉ hostOps1_2_W)
    _ = W3 m c (Proc.devRef .tc main_arg7) := StableHlo.after_of_writes_sub hostOps1_1 _ hostOps1_1_writes (by decide : main_arg7 ∉ hostOps1_1_W)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps2 _ hostOps2_writes (by decide : main_arg8 ∉ hostOps2_W)
    _ = W5 m c (Proc.devRef .tc main_arg8) := W6_of_ne m c main_arg8 (by decide)
    _ = W4 m c (Proc.devRef .tc main_arg8) := StableHlo.after_of_writes_sub hostOps1_2 _ hostOps1_2_writes (by decide : main_arg8 ∉ hostOps1_2_W)
    _ = W3 m c (Proc.devRef .tc main_arg8) := StableHlo.after_of_writes_sub hostOps1_1 _ hostOps1_1_writes (by decide : main_arg8 ∉ hostOps1_1_W)
    _ = W2 m c (Proc.devRef .tc main_arg8) := StableHlo.after_of_writes_sub hostOps1 _ hostOps1_writes (by decide : main_arg8 ∉ hostOps1_W)
    _ = W1 m c (Proc.devRef .tc main_arg8) := (W2_arr m c 1).trans (((dat0 (A1 m) c).arrAt_in 1 rfl _).trans (A_eq0 (A1 m) c 1))
    _ = W0 m c (Proc.devRef .tc main_arg8) := StableHlo.after_of_writes_sub hostOps0 _ hostOps0_writes (by decide : main_arg8 ∉ hostOps0_W)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps2 _ hostOps2_writes (by decide : main_arg9 ∉ hostOps2_W)
    _ = W5 m c (Proc.devRef .tc main_arg9) := W6_of_ne m c main_arg9 (by decide)
    _ = W4 m c (Proc.devRef .tc main_arg9) := StableHlo.after_of_writes_sub hostOps1_2 _ hostOps1_2_writes (by decide : main_arg9 ∉ hostOps1_2_W)
    _ = W3 m c (Proc.devRef .tc main_arg9) := StableHlo.after_of_writes_sub hostOps1_1 _ hostOps1_1_writes (by decide : main_arg9 ∉ hostOps1_1_W)
    _ = W2 m c (Proc.devRef .tc main_arg9) := StableHlo.after_of_writes_sub hostOps1 _ hostOps1_writes (by decide : main_arg9 ∉ hostOps1_W)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps2 _ hostOps2_writes (by decide : main_arg10 ∉ hostOps2_W)
    _ = W5 m c (Proc.devRef .tc main_arg10) := W6_of_ne m c main_arg10 (by decide)
    _ = W4 m c (Proc.devRef .tc main_arg10) := StableHlo.after_of_writes_sub hostOps1_2 _ hostOps1_2_writes (by decide : main_arg10 ∉ hostOps1_2_W)
    _ = W3 m c (Proc.devRef .tc main_arg10) := StableHlo.after_of_writes_sub hostOps1_1 _ hostOps1_1_writes (by decide : main_arg10 ∉ hostOps1_1_W)
    _ = W2 m c (Proc.devRef .tc main_arg10) := StableHlo.after_of_writes_sub hostOps1 _ hostOps1_writes (by decide : main_arg10 ∉ hostOps1_W)
    _ = W1 m c (Proc.devRef .tc main_arg10) := (W2_arr m c 3).trans (((dat0 (A1 m) c).arrAt_in 3 rfl _).trans (A_eq0 (A1 m) c 3))
    _ = W0 m c (Proc.devRef .tc main_arg10) := StableHlo.after_of_writes_sub hostOps0 _ hostOps0_writes (by decide : main_arg10 ∉ hostOps0_W)
    _ = m ((c : Thread nD τ).loc main_arg10) := rfl
theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps2 _ hostOps2_writes (by decide : main_arg11 ∉ hostOps2_W)
    _ = W5 m c (Proc.devRef .tc main_arg11) := W6_of_ne m c main_arg11 (by decide)
    _ = W4 m c (Proc.devRef .tc main_arg11) := StableHlo.after_of_writes_sub hostOps1_2 _ hostOps1_2_writes (by decide : main_arg11 ∉ hostOps1_2_W)
    _ = W3 m c (Proc.devRef .tc main_arg11) := StableHlo.after_of_writes_sub hostOps1_1 _ hostOps1_1_writes (by decide : main_arg11 ∉ hostOps1_1_W)
    _ = W2 m c (Proc.devRef .tc main_arg11) := StableHlo.after_of_writes_sub hostOps1 _ hostOps1_writes (by decide : main_arg11 ∉ hostOps1_W)
    _ = W1 m c (Proc.devRef .tc main_arg11) := W2_of_ne m c main_arg11 (by decide)
    _ = W0 m c (Proc.devRef .tc main_arg11) := StableHlo.after_of_writes_sub hostOps0 _ hostOps0_writes (by decide : main_arg11 ∉ hostOps0_W)
    _ = m ((c : Thread nD τ).loc main_arg11) := rfl

/-! ## The proof data family and the thread state -/

abbrev adm' : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm' p) c
  | ⟨0, _⟩ => fun c => dat0 (A1 m) c
  | ⟨1, _⟩ => fun c => dat1 (A5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-- The last host stretch's exit state is the run's last thread state beside the core owing nothing. -/
theorem last_step (c : Dev nD) :
    (iprop(StableHlo.held (c : Thread nD τ) (Pipeline.ucRefs τ sig) (W7 m c) ∗ R c) : sProp 𝕄)
      ⊢ iprop(Tₙ m c ∗ ∃ W, owes (c.tc : Thread nD τ) (0 : CellTallies nD τ sig Unit) W) := by
  iintro ⟨Hh, Hp, HO⟩
  isplitl [Hh Hp]
  · isplitl [Hh]; · iexact Hh
    iexact Hp
  iexact HO

/-! ## The launches as segments -/

set_option backward.isDefEq.respectTransparency.types false in
/-- Launch 0 over the thread state: its arrays split out of the unscoped buffers at entry and put back at the exit
    contents; the generator register into the launch's invariant and out; nothing owed; no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (A1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (A1 m c) (A2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers at entry and put back at the exit
    contents; the generator register into the launch's invariant and out; nothing owed; no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (A5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (A5 m c) (A6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

set_option backward.isDefEq.respectTransparency.types false in
/-- THE RUN: from any memory with zero counters every weakly fair execution of the program terminates without a
    fault, and the final memory holds every unscoped buffer at the last boundary's contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm' (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c)⟩) (run_main m ρ)

end Cert.KernelIdeal.Hand

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KI.NodeValue.lean ====
/-
  The node network's launch, second half: the array its ten grid points leave is the reference's node output.

  A grid point stores, at row `r` and column `j` of its block, the sum over the 128 hidden units `k` of the gated hidden
  value `h · logistic h`, `h` the node's row against column `k` of the first weights plus the first bias, times entry
  `(k, j)` of the second weights, plus the second bias at `j`: the two matrix products into a zero accumulator are plain
  finite sums over the contracted coordinate.  The reference computes the same two products on the whole arrays and
  spells the logistic as one over one plus the exponential of the negation, which is the logistic's definition on the
  extended reals, so the two sides are the same term and no finiteness is needed.  Point `t` holds rows
  `2000 t … 2000 t + 1999` of the node array and of the output, and the weights and biases whole; row `p` of the output
  lies in the block of point `p / 2000`, so the ten blocks cover the array.
-/
import proofs.«405721_j59141699666425_3_alg».proof.Proof.KI.NodeMlp
import proofs.«405721_j59141699666425_3_alg».proof.Proof.Gen.ReferenceIdeal.Read
import proofs.«405721_j59141699666425_3_alg».proof.Proof.LibDotPlain
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The hidden layer at row `r`, unit `k`: the affine image of the row, gated by its own logistic. -/
def gatedAt {n : Nat} (a0 : (⟨2, ![n, 128]⟩ : Shape).Idx → EReal) (a1 : S128x128.Idx → EReal) (b : S1x128.Idx → EReal)
    (r : Fin n) (k : Fin 128) : EReal :=
  ((∑ i : Fin 128, a0 (ix2 r i) * a1 (ix2 i k)) + b (ix2 (0 : Fin 1) k))
    * Ideal.logistic ((∑ i : Fin 128, a0 (ix2 r i) * a1 (ix2 i k)) + b (ix2 (0 : Fin 1) k))

/-- The first layer before its gate, at row `r` and unit `k` of a block: the row against column `k` of the weights, plus
    the bias row's entry `k`. -/
theorem pre_apply (v0 : Vec Ideal S2000x128 .f32) (v1 : Vec Ideal S128x128 .f32) (v3 : Vec Ideal S1x128 .f32)
    (r : Fin 2000) (k : Fin 128) :
    addf (matmul (φ₁ := .f32) (φ₂ := .f32) dot_S2000x128_S128x128_S2000x128_1_0_0_1_n_n none v0 v1 (constant (F := Ideal) S2000x128 .f32 0x00000000#32))
        (broadcastTo S2000x128 (shapeCast S1x128 v3 shapeCasts_S1x128_S1x128) broadcasts_S1x128_S2000x128) (ix2 r k)
      = (∑ i : Fin 128, v0 (ix2 r i) * v1 (ix2 i k)) + v3 (ix2 (0 : Fin 1) k) := by
  rw [shapeCast_self]
  exact congrArg₂ (· + ·)
    (Cert.LibDotPlain.matmul_zero_apply dot_S2000x128_S128x128_S2000x128_1_0_0_1_n_n_wf none v0 v1 r k)
    (broadcastTo_1b_ab_apply v3 broadcasts_S1x128_S2000x128 r k)

/-- The body's stored value at row `r`, column `j` of a block: the gated hidden row against column `j` of the second
    weights, plus the second bias row's entry `j`. -/
theorem pay_apply (v0 : Vec Ideal S2000x128 .f32) (v1 : Vec Ideal S128x128 .f32) (v3 : Vec Ideal S1x128 .f32)
    (v9 : Vec Ideal S128x384 .f32) (v11 : Vec Ideal S1x384 .f32) (r : Fin 2000) (j : Fin 384) :
    k0_pay1 (F := Ideal) v0 v1 v3 v9 v11 (ix2 r j)
      = (∑ k : Fin 128, gatedAt v0 v1 v3 r k * v9 (ix2 k j)) + v11 (ix2 (0 : Fin 1) j) := by
  unfold k0_pay1
  rw [shapeCast_self (s := S1x384)]
  refine congrArg₂ (· + ·) ?_ (broadcastTo_1b_ab_apply v11 broadcasts_S1x384_S2000x384 r j)
  refine (Cert.LibDotPlain.matmul_zero_apply dot_S2000x128_S128x384_S2000x384_1_0_0_1_n_n_wf none _ v9 r j).trans ?_
  refine Finset.sum_congr rfl fun k _ => ?_
  refine congrArg (· * v9 (ix2 k j)) ?_
  unfold gatedAt
  exact congrArg (fun h => h * Ideal.logistic h) (pre_apply v0 v1 v3 r k)

/-- The word of the float 1.0 is the extended real 1. -/
theorem one_word : Ideal.ofBits .f32 0x3F800000#32 = 1 := by
  simp [Ideal.ofBits, Ideal.ieee, -EReal.coe_mul]; norm_num

/-- The reference's first layer before its gate, at node `p` and unit `k`. -/
theorem ref_pre_apply (x0 : (⟨Cert.ReferenceIdeal.S20000x128, .f32⟩ : BufTy).Contents (Elt Ideal))
    (x8 : (⟨Cert.ReferenceIdeal.S128x128, .f32⟩ : BufTy).Contents (Elt Ideal))
    (x9 : (⟨Cert.ReferenceIdeal.S128, .f32⟩ : BufTy).Contents (Elt Ideal)) (p : Fin 20000) (k : Fin 128) :
    Cert.ReferenceIdeal.Read.val_main_v28 (F := Ideal) x0 x8 x9 (ix2 p k)
      = (∑ i : Fin 128, x0 (ix2 p i) * x8 (ix2 i k)) + x9 (ix1 k) := by
  rw [Cert.ReferenceIdeal.Read.val_main_v28_apply, Cert.ReferenceIdeal.Read.val_main_v25_apply,
    Cert.ReferenceIdeal.Read.val_main_v27_apply, Cert.ReferenceIdeal.Read.val_main_v26_apply]
  have e1 : ∀ i : Fin 128, Cert.ReferenceIdeal.Read.lidx_main_v25 (ix2 p k) i = ix2 p i := fun i =>
    funext fun a => Fin.ext (by match a with | ⟨0, _⟩ => rfl | ⟨1, _⟩ => rfl)
  have e2 : ∀ i : Fin 128, Cert.ReferenceIdeal.Read.ridx_main_v25 (ix2 p k) i = ix2 i k := fun i =>
    funext fun a => Fin.ext (by match a with | ⟨0, _⟩ => rfl | ⟨1, _⟩ => rfl)
  have e3 : Cert.ReferenceIdeal.Read.idx_main_v26 (Cert.ReferenceIdeal.Read.idx_main_v27 (ix2 p k)) = ix1 k :=
    funext fun a => Fin.ext (by match a with | ⟨0, _⟩ => rfl)
  simp only [e1, e2, e3]
  rfl

/-- The reference's gated hidden layer at node `p`, unit `k`: its own spelling of the logistic, one over one plus the
    exponential of the negation, is the logistic. -/
theorem ref_gated_apply (x0 : (⟨Cert.ReferenceIdeal.S20000x128, .f32⟩ : BufTy).Contents (Elt Ideal))
    (x8 : (⟨Cert.ReferenceIdeal.S128x128, .f32⟩ : BufTy).Contents (Elt Ideal))
    (x9 : (⟨Cert.ReferenceIdeal.S128, .f32⟩ : BufTy).Contents (Elt Ideal)) (p : Fin 20000) (k : Fin 128) :
    Cert.ReferenceIdeal.Read.val_main_v29 (F := Ideal) x0 x8 x9 (ix2 p k)
      = ((∑ i : Fin 128, x0 (ix2 p i) * x8 (ix2 i k)) + x9 (ix1 k))
        * Ideal.logistic ((∑ i : Fin 128, x0 (ix2 p i) * x8 (ix2 i k)) + x9 (ix1 k)) := by
  rw [Cert.ReferenceIdeal.Read.val_main_v29_apply, Cert.ReferenceIdeal.Read.val_main_call2_v5_apply,
    Cert.ReferenceIdeal.Read.val_main_call2_v4_apply, Cert.ReferenceIdeal.Read.val_main_call2_cst_0_apply,
    Cert.ReferenceIdeal.Read.val_main_call2_v3_apply, Cert.ReferenceIdeal.Read.val_main_call2_v2_apply,
    Cert.ReferenceIdeal.Read.val_main_call2_cst_apply, Cert.ReferenceIdeal.Read.val_main_call2_v1_apply,
    Cert.ReferenceIdeal.Read.val_main_call2_v0_apply, ref_pre_apply]
  show _ * Ideal.div (Ideal.ofBits .f32 0x3F800000#32) (Ideal.ofBits .f32 0x3F800000#32 + Ideal.exp (-_)) = _
  rw [one_word]
  rfl

/-- The reference's node output at node `p`, column `q`. -/
theorem ref_apply (x0 : (⟨Cert.ReferenceIdeal.S20000x128, .f32⟩ : BufTy).Contents (Elt Ideal))
    (x8 : (⟨Cert.ReferenceIdeal.S128x128, .f32⟩ : BufTy).Contents (Elt Ideal))
    (x9 : (⟨Cert.ReferenceIdeal.S128, .f32⟩ : BufTy).Contents (Elt Ideal))
    (x10 : (⟨Cert.ReferenceIdeal.S128x384, .f32⟩ : BufTy).Contents (Elt Ideal))
    (x11 : (⟨Cert.ReferenceIdeal.S384, .f32⟩ : BufTy).Contents (Elt Ideal)) (p : Fin 20000) (q : Fin 384) :
    Cert.ReferenceIdeal.Read.val_main_v33 (F := Ideal) x0 x8 x9 x10 x11 (ix2 p q)
      = (∑ k : Fin 128, (((∑ i : Fin 128, x0 (ix2 p i) * x8 (ix2 i k)) + x9 (ix1 k))
          * Ideal.logistic ((∑ i : Fin 128, x0 (ix2 p i) * x8 (ix2 i k)) + x9 (ix1 k))) * x10 (ix2 k q)) + x11 (ix1 q) := by
  rw [Cert.ReferenceIdeal.Read.val_main_v33_apply, Cert.ReferenceIdeal.Read.val_main_v30_apply,
    Cert.ReferenceIdeal.Read.val_main_v32_apply, Cert.ReferenceIdeal.Read.val_main_v31_apply]
  have e1 : ∀ k : Fin 128, Cert.ReferenceIdeal.Read.lidx_main_v30 (ix2 p q) k = ix2 p k := fun k =>
    funext fun a => Fin.ext (by match a with | ⟨0, _⟩ => rfl | ⟨1, _⟩ => rfl)
  have e2 : ∀ k : Fin 128, Cert.ReferenceIdeal.Read.ridx_main_v30 (ix2 p q) k = ix2 k q := fun k =>
    funext fun a => Fin.ext (by match a with | ⟨0, _⟩ => rfl | ⟨1, _⟩ => rfl)
  have e3 : Cert.ReferenceIdeal.Read.idx_main_v31 (Cert.ReferenceIdeal.Read.idx_main_v32 (ix2 p q)) = ix1 q :=
    funext fun a => Fin.ext (by match a with | ⟨0, _⟩ => rfl)
  simp only [e1, e2, e3, ref_gated_apply]
  rfl

/-- The node output as one function of the launch's five operand arrays: at node `p`, column `q`, the gated hidden row
    of the node against column `q` of the second weights, plus the second bias row's entry `q`. -/
def nodeAt (a0 : S20000x128.Idx → EReal) (a1 : S128x128.Idx → EReal) (b1 : S1x128.Idx → EReal)
    (a2 : S128x384.Idx → EReal) (b2 : S1x384.Idx → EReal) (p : Fin 20000) (q : Fin 384) : EReal :=
  (∑ k : Fin 128, gatedAt a0 a1 b1 p k * a2 (ix2 k q)) + b2 (ix2 (0 : Fin 1) q)

/-- The same as a function of the output array's index. -/
def nodeG (a0 : S20000x128.Idx → EReal) (a1 : S128x128.Idx → EReal) (b1 : S1x128.Idx → EReal)
    (a2 : S128x384.Idx → EReal) (b2 : S1x384.Idx → EReal) : S20000x384.Idx → EReal :=
  fun i => nodeAt a0 a1 b1 a2 b2 (i 0) (i 1)

/-- The zero offsets, however spelt. -/
theorem hz : (![0, 0] : Fin 2 → Nat) = fun _ => 0 := funext fun a => by fin_cases a <;> rfl

/-- The printed index maps over the ten grid points: the node rows and the output move with the point along the rows,
    the weights and bias rows stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One block's stored value against the whole arrays: when row `r` of the node block is row `p` of the node array and the
    other four blocks are the whole weight and bias arrays, entry `(r, j)` of the stored value is the node output at
    `(p, j)`. -/
theorem block_apply (a0 : S20000x128.Idx → EReal) (a1 : S128x128.Idx → EReal) (b1 : S1x128.Idx → EReal)
    (a2 : S128x384.Idx → EReal) (b2 : S1x384.Idx → EReal)
    (x0 : Vec Ideal S2000x128 .f32) (x1 : Vec Ideal S128x128 .f32) (x2 : Vec Ideal S1x128 .f32)
    (x3 : Vec Ideal S128x384 .f32) (x4 : Vec Ideal S1x384 .f32) (r : Fin 2000) (j : Fin 384) (p : Fin 20000)
    (h0 : ∀ i : Fin 128, x0 (ix2 r i) = a0 (ix2 p i)) (h1 : x1 = a1) (h2 : x2 = b1) (h3 : x3 = a2) (h4 : x4 = b2) :
    k0_pay1 (F := Ideal) x0 x1 x2 x3 x4 (ix2 r j) = nodeAt a0 a1 b1 a2 b2 p j := by
  subst h1 h2 h3 h4
  rw [pay_apply]
  unfold nodeAt gatedAt
  simp only [h0]

/-- What grid point `t` writes back is block `t` of `nodeG` of the operand arrays as the launch finds them. -/
theorem node_flushed (V : (c : Dev nD) → (b : Ref sig .tc) → Buf (Elt Ideal) ((c : Thread nD τ).loc b)) (c : Dev nD)
    (t : Fin cfg0.N) :
    (dat0 V c).flushed 5 t = ((cfg0.win 5).blk t).view.read (Elt Ideal)
      (nodeG (V c main_arg0) (V c main_arg8) (V c main_v4) (V c main_arg10) (V c main_v5)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz,
    View.ld_unit_zero (S := S128x384) hz, View.ld_unit_zero (S := S1x384) hz]
  obtain ⟨e00, e01, e10, e11, e20, e21, e30, e31, e40, e41, e50, e51⟩ := idx_facts t
  funext y
  obtain ⟨r, j, rfl⟩ : ∃ (r : Fin 2000) (j : Fin 384), y = ix2 r j := ⟨y 0, y 1, eq_ix2 y⟩
  have hr : r.val < 2000 := r.isLt
  have ht : t.val < 10 := t.isLt
  show k0_pay1 (F := Ideal) (iblk0 V c 0 t) (iblk0 V c 1 t) (iblk0 V c 2 t) (iblk0 V c 3 t) (iblk0 V c 4 t) (ix2 r j)
    = nodeG (V c main_arg0) (V c main_arg8) (V c main_v4) (V c main_arg10) (V c main_v5) (((cfg0.win 5).blk t).view.emb (ix2 r j))
  have hp : t.val * 2000 + r.val < 20000 := by omega
  have hemb : ((cfg0.win 5).blk t).view.emb (ix2 r j) = ix2 (⟨t.val * 2000 + r.val, hp⟩ : Fin 20000) j := by
    funext a; apply Fin.ext
    match a with
    | ⟨0, _⟩ => show win0_5.index t (0 : Fin 2) * 2000 + 1 * r.val = t.val * 2000 + r.val; omega
    | ⟨1, _⟩ => show win0_5.index t (1 : Fin 2) * 384 + 1 * j.val = j.val; omega
  rw [hemb]
  show _ = nodeAt (V c main_arg0) (V c main_arg8) (V c main_v4) (V c main_arg10) (V c main_v5) ⟨t.val * 2000 + r.val, hp⟩ j
  refine block_apply (V c main_arg0) (V c main_arg8) (V c main_v4) (V c main_arg10) (V c main_v5)
    (iblk0 V c 0 t) (iblk0 V c 1 t) (iblk0 V c 2 t) (iblk0 V c 3 t) (iblk0 V c 4 t) r j ⟨t.val * 2000 + r.val, hp⟩ ?_ ?_ ?_ ?_ ?_
  · intro i
    show V c main_arg0 (((cfg0.win 0).blk t).view.emb (ix2 r i)) = V c main_arg0 (ix2 (⟨t.val * 2000 + r.val, hp⟩ : Fin 20000) i)
    refine congrArg (V c main_arg0) (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * i.val = i.val; omega
  · funext y
    show V c main_arg8 (((cfg0.win 1).blk t).view.emb y) = V c main_arg8 y
    refine congrArg (V c main_arg8) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v4 (((cfg0.win 2).blk t).view.emb y) = V c main_v4 y
    refine congrArg (V c main_v4) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V c main_arg10 (((cfg0.win 3).blk t).view.emb y) = V c main_arg10 y
    refine congrArg (V c main_arg10) (funext fun a => Fin.ext ?_)
    match a with
    | ⟨0, _⟩ => show win0_3.index t (0 : Fin 2) * 128 + 1 * (y 0).val = (y 0).val; omega
    | ⟨1, _⟩ => show win0_3.index t (1 : Fin 2) * 384 + 1 * (y 1).val = (y 1).val; omega
  · funext y
    show V c main_v5 (((cfg0.win 4).blk t).view.emb y) = V c main_v5 y
    refine congrArg (V c main_v5) (funext fun a => Fin.ext ?_)
    match a with
    | ⟨0, _⟩ => show win0_4.index t (0 : Fin 2) * 1 + 1 * (y 0).val = (y 0).val; omega
    | ⟨1, _⟩ => show win0_4.index t (1 : Fin 2) * 384 + 1 * (y 1).val = (y 1).val; omega

/-- An index of the output array is in point `t`'s block iff each coordinate is in the block's range on its axis. -/
theorem node_mem_blk (t : Fin cfg0.N) (i : S20000x384.Idx) :
    i ∈ ((cfg0.win 5).blk t).view.set ↔ ∀ a : Fin 2, win0_5.index t a * S2000x384.size a ≤ (i a).val
      ∧ (i a).val < win0_5.index t a * S2000x384.size a + S2000x384.size a := by
  show i ∈ ((View.whole main_v6).slice (win0_5.rect t)).set ↔ _
  rw [View.set_slice_whole, Rect.mem_set_unit]
  exact Iff.rfl

/-- Every row of the output is in some point's block: row `p` in that of point `p / 2000`. -/
theorem node_cover (i : S20000x384.Idx) :
    ∃ t : Fin cfg0.N, (cfg0.win 5).flush t = true ∧ i ∈ ((cfg0.win 5).blk t).view.set := by
  have hi0 : (i 0).val < 20000 := (i 0).isLt
  have hi1 : (i 1).val < 384 := (i 1).isLt
  refine ⟨⟨(i 0).val / 2000, by show (i 0).val / 2000 < 10; omega⟩, flush0_5 _, ?_⟩
  rw [node_mem_blk]
  obtain ⟨-, -, -, -, -, -, -, -, -, -, e50, e51⟩ := idx_facts ⟨(i 0).val / 2000, by show (i 0).val / 2000 < 10; omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 384 ≤ (i 1).val ∧ (i 1).val < win0_5.index _ (1 : Fin 2) * 384 + 384
    rw [e51]; omega

/-- The node launch's output array is `nodeG` of the operand arrays as the launch finds them. -/
theorem node_final (V : (c : Dev nD) → (b : Ref sig .tc) → Buf (Elt Ideal) ((c : Thread nD τ).loc b)) (c : Dev nD) :
    ((dat0 V c).arrAt 5 cfg0.N : S20000x384.Idx → EReal)
      = nodeG (V c main_arg0) (V c main_arg8) (V c main_v4) (V c main_arg10) (V c main_v5) :=
  (dat0 V c).arrAt_eq_of_cover 5 _ (fun t _ => node_flushed V c t) node_cover

/-- The node launch's output array, when the bias rows it reads are the bias vectors `x9`, `x11` laid as one row each,
    is the reference's node output at the launch's own operand arrays. -/
theorem node_arr (V : (c : Dev nD) → (b : Ref sig .tc) → Buf (Elt Ideal) ((c : Thread nD τ).loc b)) (c : Dev nD)
    (x9 : (⟨S128, .f32⟩ : BufTy).Contents (Elt Ideal)) (x11 : (⟨S384, .f32⟩ : BufTy).Contents (Elt Ideal))
    (h4 : ∀ k : Fin 128, (V c main_v4 : S1x128.Idx → EReal) (ix2 (0 : Fin 1) k) = x9 (ix1 k))
    (h5 : ∀ j : Fin 384, (V c main_v5 : S1x384.Idx → EReal) (ix2 (0 : Fin 1) j) = x11 (ix1 j)) :
    ((dat0 V c).arrAt 5 cfg0.N : S20000x384.Idx → EReal)
      = Cert.ReferenceIdeal.Read.val_main_v33 (F := Ideal) (V c main_arg0) (V c main_arg8) x9 (V c main_arg10) x11 := by
  rw [node_final]
  funext i
  obtain ⟨p, q, rfl⟩ : ∃ (p : Fin 20000) (q : Fin 384), i = ix2 p q := ⟨i 0, i 1, eq_ix2 i⟩
  refine Eq.trans ?_ (ref_apply (V c main_arg0) (V c main_arg8) x9 (V c main_arg10) x11 p q).symm
  show nodeAt (V c main_arg0) (V c main_arg8) (V c main_v4) (V c main_arg10) (V c main_v5) p q = _
  unfold nodeAt gatedAt
  simp only [h4, h5]

end Cert.KernelIdeal.Hand

end
-- ==== Proof.KI.EdgeBlocks.lean ====
/-
  The edge launch's arrays from its blocks: edge p lies in block p / 2560 at row p % 2560, so the two result arrays at
  row p are what grid point p / 2560 left at row p % 2560 of its output blocks, and the row-blocked operands' blocks at
  that point and row are the operand arrays at row p; the weights and the bias row are taken whole at every point.

  Every window's block index is (t, 0) at grid point t for the row-blocked windows and (0, 0) for the whole ones, so an
  element (r, j) of a block sits in its array at (2560 t + r, j), respectively (r, j).  Each output array is written one
  block per grid point, block t being rows 2560 t .. 2560 t + 2559; what point t writes is therefore block t of the one
  function of the array index (p, j) that looks up point p / 2560's output block at (p % 2560, j), and an index inside
  a written block reads that function after the run.
-/
import proofs.«405721_j59141699666425_3_alg».proof.Proof.KI.EdgeGate
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The grid point whose block holds edge `p`. -/
def tOf (p : Fin 320000) : Fin cfg1.N := ⟨p.val / 2560, by have := p.isLt; rw [show cfg1.N = 125 from N_1]; omega⟩
/-- Edge `p`'s row inside its block. -/
def rOf (p : Fin 320000) : Fin 2560 := ⟨p.val % 2560, Nat.mod_lt _ (by norm_num)⟩

/-- The block indices of the seven windows at every grid point: (t, 0) for the row-blocked ones, (0, 0) for the whole
    ones. -/
theorem edge_idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

section
variable (V : (c : Dev nD) → (b : Ref sig .tc) → Buf (Elt Ideal) ((c : Thread nD τ).loc b)) (c : Dev nD)

/-! ## The input blocks read at an element -/

/-- Element (r, k) of the packed edge inputs' block at point `t` is the packed array at (2560 t + r, k). -/
theorem iblk1_0_apply (t : Fin cfg1.N) (y : S2560x24.Idx) (i : S320000x24.Idx)
    (h0 : (i 0).val = t.val * 2560 + (y 0).val) (h1 : (i 1).val = (y 1).val) :
    (iblk1 V c 0 t : S2560x24.Idx → EReal) y = (V c main_v12 : S320000x24.Idx → EReal) i := by
  obtain ⟨⟨e0, e1⟩, -⟩ := edge_idx_facts t
  unfold iblk1
  rw [View.read_apply]
  show V c main_v12 (((cfg1.win 0).blk t).view.emb y) = V c main_v12 i
  refine congrArg _ (funext fun a => Fin.ext ?_)
  match a with
  | ⟨0, _⟩ => show win1_0.index t (0 : Fin 2) * 2560 + 1 * (y 0).val = (i 0).val; rw [e0, h0]; omega
  | ⟨1, _⟩ => show win1_0.index t (1 : Fin 2) * 24 + 1 * (y 1).val = (i 1).val; rw [e1, h1]; omega

/-- Element (r, j) of the gathered node output's block at point `t` is the gathered array at (2560 t + r, j). -/
theorem iblk1_3_apply (t : Fin cfg1.N) (y : S2560x384.Idx) (i : S320000x384.Idx)
    (h0 : (i 0).val = t.val * 2560 + (y 0).val) (h1 : (i 1).val = (y 1).val) :
    (iblk1 V c 3 t : S2560x384.Idx → EReal) y = (V c main_v10 : S320000x384.Idx → EReal) i := by
  obtain ⟨-, -, -, ⟨e0, e1⟩, -⟩ := edge_idx_facts t
  unfold iblk1
  rw [View.read_apply]
  show V c main_v10 (((cfg1.win 3).blk t).view.emb y) = V c main_v10 i
  refine congrArg _ (funext fun a => Fin.ext ?_)
  match a with
  | ⟨0, _⟩ => show win1_3.index t (0 : Fin 2) * 2560 + 1 * (y 0).val = (i 0).val; rw [e0, h0]; omega
  | ⟨1, _⟩ => show win1_3.index t (1 : Fin 2) * 384 + 1 * (y 1).val = (i 1).val; rw [e1, h1]; omega

/-- Element (r, j) of the gathered vector state's block at point `t` is the gathered array at (2560 t + r, j). -/
theorem iblk1_4_apply (t : Fin cfg1.N) (y : S2560x384.Idx) (i : S320000x384.Idx)
    (h0 : (i 0).val = t.val * 2560 + (y 0).val) (h1 : (i 1).val = (y 1).val) :
    (iblk1 V c 4 t : S2560x384.Idx → EReal) y = (V c main_v11 : S320000x384.Idx → EReal) i := by
  obtain ⟨-, -, -, -, ⟨e0, e1⟩, -⟩ := edge_idx_facts t
  unfold iblk1
  rw [View.read_apply]
  show V c main_v11 (((cfg1.win 4).blk t).view.emb y) = V c main_v11 i
  refine congrArg _ (funext fun a => Fin.ext ?_)
  match a with
  | ⟨0, _⟩ => show win1_4.index t (0 : Fin 2) * 2560 + 1 * (y 0).val = (i 0).val; rw [e0, h0]; omega
  | ⟨1, _⟩ => show win1_4.index t (1 : Fin 2) * 384 + 1 * (y 1).val = (i 1).val; rw [e1, h1]; omega

/-- Edge p is row p % 2560 of block p / 2560. -/
theorem row_split (p : Fin 320000) : p.val = (tOf p).val * 2560 + (rOf p).val := by
  show p.val = p.val / 2560 * 2560 + p.val % 2560
  omega

/-- The packed edge inputs' block at edge p's point and row is the packed array at row p. -/
theorem iblk1_0_at (p : Fin 320000) (k : Fin 24) :
    (iblk1 V c 0 (tOf p) : S2560x24.Idx → EReal) (ix2 (rOf p) k) = (V c main_v12 : S320000x24.Idx → EReal) (ix2 p k) :=
  iblk1_0_apply V c (tOf p) (ix2 (rOf p) k) (ix2 p k) (row_split p) rfl

/-- The filter weights are taken whole at every point. -/
theorem iblk1_1_eq (t : Fin cfg1.N) : (iblk1 V c 1 t : S20x384.Idx → EReal) = V c main_arg6 := by
  obtain ⟨-, ⟨e0, e1⟩, -⟩ := edge_idx_facts t
  funext y
  unfold iblk1
  rw [View.read_apply]
  show V c main_arg6 (((cfg1.win 1).blk t).view.emb y) = V c main_arg6 y
  refine congrArg _ (funext fun a => Fin.ext ?_)
  match a with
  | ⟨0, _⟩ => show win1_1.index t (0 : Fin 2) * 20 + 1 * (y 0).val = (y 0).val; rw [e0]; omega
  | ⟨1, _⟩ => show win1_1.index t (1 : Fin 2) * 384 + 1 * (y 1).val = (y 1).val; rw [e1]; omega

/-- The bias row is taken whole at every point. -/
theorem iblk1_2_eq (t : Fin cfg1.N) : (iblk1 V c 2 t : S1x384.Idx → EReal) = V c main_v13 := by
  obtain ⟨-, -, ⟨e0, e1⟩, -⟩ := edge_idx_facts t
  funext y
  unfold iblk1
  rw [View.read_apply]
  show V c main_v13 (((cfg1.win 2).blk t).view.emb y) = V c main_v13 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 384 + 1 * (y 1).val = (y 1).val; rw [e1]; omega

/-- The gathered node output's block at edge p's point and row is the gathered array at row p. -/
theorem iblk1_3_at (p : Fin 320000) (j : Fin 384) :
    (iblk1 V c 3 (tOf p) : S2560x384.Idx → EReal) (ix2 (rOf p) j) = (V c main_v10 : S320000x384.Idx → EReal) (ix2 p j) :=
  iblk1_3_apply V c (tOf p) (ix2 (rOf p) j) (ix2 p j) (row_split p) rfl

/-- The gathered vector state's block at edge p's point and row is the gathered array at row p. -/
theorem iblk1_4_at (p : Fin 320000) (j : Fin 384) :
    (iblk1 V c 4 (tOf p) : S2560x384.Idx → EReal) (ix2 (rOf p) j) = (V c main_v11 : S320000x384.Idx → EReal) (ix2 p j) :=
  iblk1_4_apply V c (tOf p) (ix2 (rOf p) j) (ix2 p j) (row_split p) rfl

/-! ## The output arrays -/

/-- What point `t` leaves in its first output block. -/
def edgeOut5 (t : Fin cfg1.N) : S2560x128.Idx → EReal :=
  out1_5 (iblk1 V c 0 t) (iblk1 V c 1 t) (iblk1 V c 2 t) (iblk1 V c 3 t)
/-- What point `t` leaves in its second output block. -/
def edgeOut6 (t : Fin cfg1.N) : S2560x384.Idx → EReal :=
  out1_6 (iblk1 V c 0 t) (iblk1 V c 1 t) (iblk1 V c 2 t) (iblk1 V c 3 t) (iblk1 V c 4 t)

/-- The scalar message array as one function of the array index: row p looks up point p / 2560's first output block at
    row p % 2560. -/
def edgeArr5 : S320000x128.Idx → EReal := fun i => edgeOut5 V c (tOf (i 0)) (ix2 (rOf (i 0)) (i 1))
/-- The vector message array as one function of the array index. -/
def edgeArr6 : S320000x384.Idx → EReal := fun i => edgeOut6 V c (tOf (i 0)) (ix2 (rOf (i 0)) (i 1))

/-- Element (r, f) of point `t`'s first output block sits in the array at (2560 t + r, f), where the whole-array function
    looks point `t`'s block up again at (r, f). -/
theorem edgeArr5_emb (t : Fin cfg1.N) (y : S2560x128.Idx) :
    edgeArr5 V c (((cfg1.win 5).blk t).view.emb y) = edgeOut5 V c t y := by
  obtain ⟨-, -, -, -, -, ⟨e0, e1⟩, -⟩ := edge_idx_facts t
  have hy0 : (y 0).val < 2560 := (y 0).isLt
  have hi0 : ((((cfg1.win 5).blk t).view.emb y) 0).val = t.val * 2560 + (y 0).val := by
    show win1_5.index t (0 : Fin 2) * 2560 + 1 * (y 0).val = _
    rw [e0]; omega
  have hi1 : ((((cfg1.win 5).blk t).view.emb y) 1).val = (y 1).val := by
    show win1_5.index t (1 : Fin 2) * 128 + 1 * (y 1).val = _
    rw [e1]; omega
  have ht : tOf ((((cfg1.win 5).blk t).view.emb y) 0) = t :=
    Fin.ext (by show ((((cfg1.win 5).blk t).view.emb y) 0).val / 2560 = t.val; rw [hi0]; omega)
  have hr : (ix2 (rOf ((((cfg1.win 5).blk t).view.emb y) 0)) ((((cfg1.win 5).blk t).view.emb y) 1) : S2560x128.Idx) = y := by
    funext a
    match a with
    | ⟨0, _⟩ => exact Fin.ext (by show ((((cfg1.win 5).blk t).view.emb y) 0).val % 2560 = (y 0).val; rw [hi0]; omega)
    | ⟨1, _⟩ => exact Fin.ext hi1
  unfold edgeArr5
  rw [ht]
  exact congrArg (edgeOut5 V c t) hr

/-- Likewise for the second output block. -/
theorem edgeArr6_emb (t : Fin cfg1.N) (y : S2560x384.Idx) :
    edgeArr6 V c (((cfg1.win 6).blk t).view.emb y) = edgeOut6 V c t y := by
  obtain ⟨-, -, -, -, -, -, ⟨e0, e1⟩⟩ := edge_idx_facts t
  have hy0 : (y 0).val < 2560 := (y 0).isLt
  have hi0 : ((((cfg1.win 6).blk t).view.emb y) 0).val = t.val * 2560 + (y 0).val := by
    show win1_6.index t (0 : Fin 2) * 2560 + 1 * (y 0).val = _
    rw [e0]; omega
  have hi1 : ((((cfg1.win 6).blk t).view.emb y) 1).val = (y 1).val := by
    show win1_6.index t (1 : Fin 2) * 384 + 1 * (y 1).val = _
    rw [e1]; omega
  have ht : tOf ((((cfg1.win 6).blk t).view.emb y) 0) = t :=
    Fin.ext (by show ((((cfg1.win 6).blk t).view.emb y) 0).val / 2560 = t.val; rw [hi0]; omega)
  have hr : (ix2 (rOf ((((cfg1.win 6).blk t).view.emb y) 0)) ((((cfg1.win 6).blk t).view.emb y) 1) : S2560x384.Idx) = y := by
    funext a
    match a with
    | ⟨0, _⟩ => exact Fin.ext (by show ((((cfg1.win 6).blk t).view.emb y) 0).val % 2560 = (y 0).val; rw [hi0]; omega)
    | ⟨1, _⟩ => exact Fin.ext hi1
  unfold edgeArr6
  rw [ht]
  exact congrArg (edgeOut6 V c t) hr

/-- A write-back of the first output block writes the block's contents as they are: the block lies inside the array. -/
theorem cut1_5 (X : S2560x128.Idx → EReal) (t : Fin cfg1.N) (y : S2560x128.Idx) :
    (cfg1.win 5).cut (grid1.coords t) X y = X y := rfl

/-- Likewise for the second output block. -/
theorem cut1_6 (X : S2560x384.Idx → EReal) (t : Fin cfg1.N) (y : S2560x384.Idx) :
    (cfg1.win 6).cut (grid1.coords t) X y = X y := rfl

/-- Block `t` of contents `G` of the scalar message array, read at an element, is `G` at the element's place. -/
theorem read_blk1_5 (G : S320000x128.Idx → EReal) (t : Fin cfg1.N) (y : S2560x128.Idx) :
    ((cfg1.win 5).blk t).view.read (Elt Ideal) G y = G (((cfg1.win 5).blk t).view.emb y) := rfl

/-- Likewise for the vector message array. -/
theorem read_blk1_6 (G : S320000x384.Idx → EReal) (t : Fin cfg1.N) (y : S2560x384.Idx) :
    ((cfg1.win 6).blk t).view.read (Elt Ideal) G y = G (((cfg1.win 6).blk t).view.emb y) := rfl

/-- What point `t` writes back to the scalar message array is block `t` of the whole-array function. -/
theorem flushed1_5_eq (t : Fin cfg1.N) :
    (dat1 V c).flushed 5 t = ((cfg1.win 5).blk t).view.read (Elt Ideal) (edgeArr5 V c) := by
  show (cfg1.win 5).cut (grid1.coords t) ((dat1 V c).after 5 t) = _
  rw [show (dat1 V c).after 5 t = edgeOut5 V c t from after1_5 V c t]
  funext y
  exact (cut1_5 (edgeOut5 V c t) t y).trans ((edgeArr5_emb V c t y).symm.trans (read_blk1_5 (edgeArr5 V c) t y).symm)

/-- What point `t` writes back to the vector message array is block `t` of the whole-array function. -/
theorem flushed1_6_eq (t : Fin cfg1.N) :
    (dat1 V c).flushed 6 t = ((cfg1.win 6).blk t).view.read (Elt Ideal) (edgeArr6 V c) := by
  show (cfg1.win 6).cut (grid1.coords t) ((dat1 V c).after 6 t) = _
  rw [show (dat1 V c).after 6 t = edgeOut6 V c t from after1_6 V c t]
  funext y
  exact (cut1_6 (edgeOut6 V c t) t y).trans ((edgeArr6_emb V c t y).symm.trans (read_blk1_6 (edgeArr6 V c) t y).symm)

/-- An index of the scalar message array is in point `t`'s block iff each coordinate is in the block's range. -/
theorem mem_blk1_5 (t : Fin cfg1.N) (i : S320000x128.Idx) :
    i ∈ ((cfg1.win 5).blk t).view.set ↔ ∀ a : Fin 2, win1_5.index t a * S2560x128.size a ≤ (i a).val ∧ (i a).val < win1_5.index t a * S2560x128.size a + S2560x128.size a := by
  show i ∈ ((View.whole main_v14_0).slice (win1_5.rect t)).set ↔ _
  rw [View.set_slice_whole, Rect.mem_set_unit]
  exact Iff.rfl

/-- An index of the vector message array is in point `t`'s block iff each coordinate is in the block's range. -/
theorem mem_blk1_6 (t : Fin cfg1.N) (i : S320000x384.Idx) :
    i ∈ ((cfg1.win 6).blk t).view.set ↔ ∀ a : Fin 2, win1_6.index t a * S2560x384.size a ≤ (i a).val ∧ (i a).val < win1_6.index t a * S2560x384.size a + S2560x384.size a := by
  show i ∈ ((View.whole main_v14_1).slice (win1_6.rect t)).set ↔ _
  rw [View.set_slice_whole, Rect.mem_set_unit]
  exact Iff.rfl

/-- Row p of the scalar message array lies in point p / 2560's block. -/
theorem row_mem1_5 (p : Fin 320000) (f : Fin 128) : ix2 p f ∈ ((cfg1.win 5).blk (tOf p)).view.set := by
  obtain ⟨-, -, -, -, -, ⟨e0, e1⟩, -⟩ := edge_idx_facts (tOf p)
  have hp := row_split p
  have hr : (rOf p).val < 2560 := (rOf p).isLt
  have hf : f.val < 128 := f.isLt
  rw [mem_blk1_5]
  intro a
  match a with
  | ⟨0, _⟩ =>
    show win1_5.index (tOf p) (0 : Fin 2) * 2560 ≤ p.val ∧ p.val < win1_5.index (tOf p) (0 : Fin 2) * 2560 + 2560
    rw [e0]; omega
  | ⟨1, _⟩ =>
    show win1_5.index (tOf p) (1 : Fin 2) * 128 ≤ f.val ∧ f.val < win1_5.index (tOf p) (1 : Fin 2) * 128 + 128
    rw [e1]; omega

/-- Row p of the vector message array lies in point p / 2560's block. -/
theorem row_mem1_6 (p : Fin 320000) (j : Fin 384) : ix2 p j ∈ ((cfg1.win 6).blk (tOf p)).view.set := by
  obtain ⟨-, -, -, -, -, -, ⟨e0, e1⟩⟩ := edge_idx_facts (tOf p)
  have hp := row_split p
  have hr : (rOf p).val < 2560 := (rOf p).isLt
  have hj : j.val < 384 := j.isLt
  rw [mem_blk1_6]
  intro a
  match a with
  | ⟨0, _⟩ =>
    show win1_6.index (tOf p) (0 : Fin 2) * 2560 ≤ p.val ∧ p.val < win1_6.index (tOf p) (0 : Fin 2) * 2560 + 2560
    rw [e0]; omega
  | ⟨1, _⟩ =>
    show win1_6.index (tOf p) (1 : Fin 2) * 384 ≤ j.val ∧ j.val < win1_6.index (tOf p) (1 : Fin 2) * 384 + 384
    rw [e1]; omega

/-- The scalar message array at row p is what point p / 2560 left at row p % 2560 of its first output block. -/
theorem arr5_at (p : Fin 320000) (f : Fin 128) :
    ((dat1 V c).arrAt 5 cfg1.N : S320000x128.Idx → EReal) (ix2 p f)
      = out1_5 (iblk1 V c 0 (tOf p)) (iblk1 V c 1 (tOf p)) (iblk1 V c 2 (tOf p)) (iblk1 V c 3 (tOf p)) (ix2 (rOf p) f) :=
  (dat1 V c).arrAt_apply_of_mem 5 (edgeArr5 V c) (fun t _ => flushed1_5_eq V c t) cfg1.N (tOf p) (ix2 p f) (tOf p).isLt
    (flush1_5 (tOf p)) (row_mem1_5 p f)

/-- The vector message array at row p is what point p / 2560 left at row p % 2560 of its second output block. -/
theorem arr6_at (p : Fin 320000) (j : Fin 384) :
    ((dat1 V c).arrAt 6 cfg1.N : S320000x384.Idx → EReal) (ix2 p j)
      = out1_6 (iblk1 V c 0 (tOf p)) (iblk1 V c 1 (tOf p)) (iblk1 V c 2 (tOf p)) (iblk1 V c 3 (tOf p)) (iblk1 V c 4 (tOf p)) (ix2 (rOf p) j) :=
  (dat1 V c).arrAt_apply_of_mem 6 (edgeArr6 V c) (fun t _ => flushed1_6_eq V c t) cfg1.N (tOf p) (ix2 p j) (tOf p).isLt
    (flush1_6 (tOf p)) (row_mem1_6 p j)

end

end Cert.KernelIdeal.Hand

end
-- ==== Proof.KI.EdgeOut.lean ====
/-
  The edge kernel's output blocks read at an entry: the first block is its one store's payload; the second block's
  column q·128 + f lies in the q-th column third, which the q-th of the three stores wrote, at column f.
-/
import proofs.«405721_j59141699666425_3_alg».proof.Proof.KI.EdgeGate
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The rectangles at zero offsets -/

/-- The zero offsets, however spelt. -/
theorem off00 : (![0, 0] : Fin 2 → ℕ) = fun _ => 0 := by
  funext a
  match a with
  | ⟨0, _⟩ => rfl
  | ⟨1, _⟩ => rfl

/-! ## A point of the second output block as a point of its column third -/

/-- Column `f` of the third third is column `256 + f` of the block. -/
theorem emb6c (r : Fin 2560) (f : Fin 128) :
    (ix2 r (⟨256 + f.val, by omega⟩ : Fin 384) : S2560x384.Idx) = r1_6c.emb (ix2 r f) := by
  funext a
  match a with
  | ⟨0, _⟩ => exact Fin.ext (by show r.val = 0 + 1 * r.val; omega)
  | ⟨1, _⟩ => exact Fin.ext (by show 256 + f.val = 256 + 1 * f.val; omega)

/-- Column `f` of the second third is column `128 + f` of the block. -/
theorem emb6b (r : Fin 2560) (f : Fin 128) :
    (ix2 r (⟨128 + f.val, by omega⟩ : Fin 384) : S2560x384.Idx) = r1_6b.emb (ix2 r f) := by
  funext a
  match a with
  | ⟨0, _⟩ => exact Fin.ext (by show r.val = 0 + 1 * r.val; omega)
  | ⟨1, _⟩ => exact Fin.ext (by show 128 + f.val = 128 + 1 * f.val; omega)

/-- Column `f` of the first third is column `f` of the block. -/
theorem emb6a (r : Fin 2560) (f : Fin 128) :
    (ix2 r (⟨f.val, by omega⟩ : Fin 384) : S2560x384.Idx) = r1_6a.emb (ix2 r f) := by
  funext a
  match a with
  | ⟨0, _⟩ => exact Fin.ext (by show r.val = 0 + 1 * r.val; omega)
  | ⟨1, _⟩ => exact Fin.ext (by show f.val = 0 + 1 * f.val; omega)

/-- A column below 256 lies outside the third third. -/
theorem not_mem6c (r : Fin 2560) (k : Fin 384) (hk : k.val < 256) : (ix2 r k : S2560x384.Idx) ∉ r1_6c.set := by
  intro hm
  have h1 := (Rect.mem_set_unit.mp hm) (1 : Fin 2)
  have h2 : 256 ≤ k.val := h1.1
  omega

/-- A column below 128 lies outside the second third. -/
theorem not_mem6b (r : Fin 2560) (k : Fin 384) (hk : k.val < 128) : (ix2 r k : S2560x384.Idx) ∉ r1_6b.set := by
  intro hm
  have h1 := (Rect.mem_set_unit.mp hm) (1 : Fin 2)
  have h2 : 128 ≤ k.val := h1.1
  omega

/-! ## Three stores over the column thirds, read at a point: the store whose third holds the column -/

section
variable (p4 p3 p2 : Vec Ideal S2560x128 .f32)

theorem canon3_c (r : Fin 2560) (f : Fin 128) :
    View.canon ([⟨r1_6c, p4⟩, ⟨r1_6b, p3⟩, ⟨r1_6a, p2⟩] : List (View.Piece (Elt Ideal) S2560x384 .f32))
      (ix2 r (⟨256 + f.val, by omega⟩ : Fin 384)) = p4 (ix2 r f) := by
  rw [emb6c]
  exact View.canon_cons_emb r1_6c p4 _ (ix2 r f)

theorem canon3_b (r : Fin 2560) (f : Fin 128) :
    View.canon ([⟨r1_6c, p4⟩, ⟨r1_6b, p3⟩, ⟨r1_6a, p2⟩] : List (View.Piece (Elt Ideal) S2560x384 .f32))
      (ix2 r (⟨128 + f.val, by omega⟩ : Fin 384)) = p3 (ix2 r f) := by
  rw [View.canon_cons_of_not_mem ⟨r1_6c, p4⟩ [⟨r1_6b, p3⟩, ⟨r1_6a, p2⟩]
      (not_mem6c r (⟨128 + f.val, by omega⟩ : Fin 384) (by show 128 + f.val < 256; omega)), emb6b]
  exact View.canon_cons_emb r1_6b p3 _ (ix2 r f)

theorem canon3_a (r : Fin 2560) (f : Fin 128) :
    View.canon ([⟨r1_6c, p4⟩, ⟨r1_6b, p3⟩, ⟨r1_6a, p2⟩] : List (View.Piece (Elt Ideal) S2560x384 .f32))
      (ix2 r (⟨f.val, by omega⟩ : Fin 384)) = p2 (ix2 r f) := by
  rw [View.canon_cons_of_not_mem ⟨r1_6c, p4⟩ [⟨r1_6b, p3⟩, ⟨r1_6a, p2⟩]
      (not_mem6c r (⟨f.val, by omega⟩ : Fin 384) (by show f.val < 256; omega)),
    View.canon_cons_of_not_mem ⟨r1_6b, p3⟩ [⟨r1_6a, p2⟩]
      (not_mem6b r (⟨f.val, by omega⟩ : Fin 384) (by show f.val < 128; omega)), emb6a]
  exact View.canon_cons_emb r1_6a p2 _ (ix2 r f)
end

/-! ## The output blocks at an entry -/

section
variable (x0 : Vec Ideal S2560x24 .f32) (x1 : Vec Ideal S20x384 .f32) (x2 : Vec Ideal S1x384 .f32) (x3 : Vec Ideal S2560x384 .f32) (x4 : Vec Ideal S2560x384 .f32)

/-- The first output block is the scalar message's payload of the input blocks. -/
theorem out1_5_at (r : Fin 2560) (f : Fin 128) :
    out1_5 x0 x1 x2 x3 (ix2 r f) = k1_pay9 x0 x1 x2 x3 (ix2 r f) := by
  unfold out1_5
  rw [View.canon_unit_zero off00]
  simp only [View.ld_unit_zero (S := S2560x24) off00, View.ld_unit_zero (S := S20x384) off00,
    View.ld_unit_zero (S := S1x384) off00, View.ld_unit_zero (S := S2560x384) off00]

/-- The second output block's first column third is the first component's payload. -/
theorem out1_6_at0 (r : Fin 2560) (f : Fin 128) :
    out1_6 x0 x1 x2 x3 x4 (ix2 r (⟨f.val, by omega⟩ : Fin 384))
      = k1_pay2 (k1_pay7 x0 x1 x2 x3) (k1_pay8 x0 x1 x2 x3) (k1_pay10 x0) x4 (ix2 r f) := by
  unfold out1_6
  rw [canon3_a]
  simp only [View.ld_unit_zero (S := S2560x24) off00, View.ld_unit_zero (S := S20x384) off00,
    View.ld_unit_zero (S := S1x384) off00, View.ld_unit_zero (S := S2560x384) off00]

/-- Its second column third is the second component's payload. -/
theorem out1_6_at1 (r : Fin 2560) (f : Fin 128) :
    out1_6 x0 x1 x2 x3 x4 (ix2 r (⟨128 + f.val, by omega⟩ : Fin 384))
      = k1_pay3 (k1_pay7 x0 x1 x2 x3) (k1_pay8 x0 x1 x2 x3) (k1_pay10 x0) x4 (ix2 r f) := by
  unfold out1_6
  rw [canon3_b]
  simp only [View.ld_unit_zero (S := S2560x24) off00, View.ld_unit_zero (S := S20x384) off00,
    View.ld_unit_zero (S := S1x384) off00, View.ld_unit_zero (S := S2560x384) off00]

/-- Its third column third is the third component's payload. -/
theorem out1_6_at2 (r : Fin 2560) (f : Fin 128) :
    out1_6 x0 x1 x2 x3 x4 (ix2 r (⟨256 + f.val, by omega⟩ : Fin 384))
      = k1_pay4 (k1_pay7 x0 x1 x2 x3) (k1_pay8 x0 x1 x2 x3) (k1_pay10 x0) x4 (ix2 r f) := by
  unfold out1_6
  rw [canon3_c]
  simp only [View.ld_unit_zero (S := S2560x24) off00, View.ld_unit_zero (S := S20x384) off00,
    View.ld_unit_zero (S := S1x384) off00, View.ld_unit_zero (S := S2560x384) off00]
end

end Cert.KernelIdeal.Hand

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.EdgeValue.lean ====
/-
  The edge network's launch, second half: the two arrays its 125 grid points leave, entry by entry, in the reference's
  own stage terms.

  The body's arithmetic is read at one row `r` of a block: the gated filter (the twenty filter inputs against a column
  of the weights, plus the bias, times the cosine cutoff of the distance), times the gathered node output; the edge
  vector over its bounded Euclidean length; and the two messages built from their column thirds.  The reference's
  stages are read at edge `p` in the same scalar functions.  Edge `p` is row `p % 2560` of block `p / 2560`, where the
  row-blocked operands' blocks hold the arrays' row `p`; the two sides then agree operation for operation, up to one
  commuted product in the vector message.
-/
import proofs.«405721_j59141699666425_3_alg».proof.Proof.KI.EdgeGate
import proofs.«405721_j59141699666425_3_alg».proof.Proof.KI.EdgeBlocks
import proofs.«405721_j59141699666425_3_alg».proof.Proof.KI.EdgeOut
import proofs.«405721_j59141699666425_3_alg».proof.Proof.Gen.ReferenceIdeal.Read
import proofs.«405721_j59141699666425_3_alg».proof.Proof.LibDotPlain
import proofs.«405721_j59141699666425_3_alg».proof.Proof.LibColumn
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The two scalar functions both sides compute -/
/-- The cosine cutoff at distance `d`: half of one plus the cosine of `d` times π/5 inside the radius 5, zero outside. -/
def cutoffE (d : EReal) : EReal :=
  Scalar.select (FloatOps.cmpf (F := Ideal) .olt d (FloatOps.ofBits (F := Ideal) .f32 0x40A00000#32))
    (FloatOps.ofBits (F := Ideal) .f32 0x3F000000#32 * (Ideal.cos (d * FloatOps.ofBits (F := Ideal) .f32 0x3F20D97C#32) + FloatOps.ofBits (F := Ideal) .f32 0x3F800000#32))
    (FloatOps.ofBits (F := Ideal) .f32 0x00000000#32)

/-- Component `q` of the vector `e` divided by its Euclidean length, the length bounded below by the word of 1e-10. -/
def unitE (e : Fin 3 → EReal) (q : Fin 3) : EReal :=
  Ideal.div (e q) (max (Ideal.sqrt (∑ k : Fin 3, e k * e k)) (FloatOps.ofBits (F := Ideal) .f32 0x2EDBE6FF#32))

/-! ## The body's payloads read at an index -/

/-- The gated filter times the gathered node output, at row `r` and column `j` of one block: the twenty filter inputs
    against column `j` of the weights, plus the bias, times the cutoff of the distance, times the gathered entry. -/
theorem pay6_apply (v0 : Vec Ideal S2560x24 .f32) (v5 : Vec Ideal S20x384 .f32) (v7 : Vec Ideal S1x384 .f32)
    (v24 : Vec Ideal S2560x384 .f32) (r : Fin 2560) (j : Fin 384) :
    k1_pay6 v0 v5 v7 v24 (ix2 r j)
      = (((∑ k : Fin 20, v0 (ix2 r (⟨k.val, by omega⟩ : Fin 24)) * v5 (ix2 k j)) + v7 (ix2 (0 : Fin 1) j))
          * cutoffE (v0 (ix2 r (⟨20, by omega⟩ : Fin 24)))) * v24 (ix2 r j) := by
  unfold k1_pay6 k1_pay5
  simp only [shapeCast_self]
  refine congrArg₂ (· * ·) (congrArg₂ (· * ·) (congrArg₂ (· + ·) ?_ ?_) ?_) rfl
  · refine (Cert.LibDotPlain.matmul_zero_apply dot_S2560x20_S20x384_S2560x384_1_0_0_1_n_n_wf none
      (extractStridedSlice S2560x20 ![0, 0] v0 slices_S2560x24_o0_0_S2560x20) v5 r j).trans ?_
    refine Finset.sum_congr rfl fun k _ => congrArg (· * v5 (ix2 k j)) ?_
    exact slice2_axis1_apply 0 v0 slices_S2560x24_o0_0_S2560x20 r k _ (Nat.zero_add _).symm
  · exact broadcastTo_1b_ab_apply v7 broadcasts_S1x384_S2560x384 r j
  · refine (Cert.LibColumn.broadcastTo_a1_ab_apply _ broadcasts_S2560x1_S2560x384 r j).trans ?_
    have e : extractStridedSlice S2560x1 ![0, 20] v0 slices_S2560x24_o0_20_S2560x1 (ix2 r (0 : Fin 1))
        = v0 (ix2 r (⟨20, by omega⟩ : Fin 24)) :=
      slice2_axis1_apply 20 v0 slices_S2560x24_o0_20_S2560x1 r (0 : Fin 1) _ rfl
    unfold cutoffE
    rw [← e]
    rfl

/-- The first third of the gate. -/
theorem pay7_apply (v0 : Vec Ideal S2560x24 .f32) (v5 : Vec Ideal S20x384 .f32) (v7 : Vec Ideal S1x384 .f32)
    (v24 : Vec Ideal S2560x384 .f32) (r : Fin 2560) (f : Fin 128) :
    k1_pay7 v0 v5 v7 v24 (ix2 r f) = k1_pay6 v0 v5 v7 v24 (ix2 r (⟨f.val, by omega⟩ : Fin 384)) := by
  unfold k1_pay7
  exact slice2_axis1_apply 0 _ slices_S2560x384_o0_0_S2560x128 r f _ (Nat.zero_add _).symm

/-- The second third of the gate. -/
theorem pay8_apply (v0 : Vec Ideal S2560x24 .f32) (v5 : Vec Ideal S20x384 .f32) (v7 : Vec Ideal S1x384 .f32)
    (v24 : Vec Ideal S2560x384 .f32) (r : Fin 2560) (f : Fin 128) :
    k1_pay8 v0 v5 v7 v24 (ix2 r f) = k1_pay6 v0 v5 v7 v24 (ix2 r (⟨128 + f.val, by omega⟩ : Fin 384)) := by
  unfold k1_pay8
  exact slice2_axis1_apply 128 _ slices_S2560x384_o0_128_S2560x128 r f _ rfl

/-- The last third of the gate: the scalar message. -/
theorem pay9_apply (v0 : Vec Ideal S2560x24 .f32) (v5 : Vec Ideal S20x384 .f32) (v7 : Vec Ideal S1x384 .f32)
    (v24 : Vec Ideal S2560x384 .f32) (r : Fin 2560) (f : Fin 128) :
    k1_pay9 v0 v5 v7 v24 (ix2 r f) = k1_pay6 v0 v5 v7 v24 (ix2 r (⟨256 + f.val, by omega⟩ : Fin 384)) := by
  unfold k1_pay9
  exact slice2_axis1_apply 256 _ slices_S2560x384_o0_256_S2560x128 r f _ rfl

/-- The kernel's normalised edge vector at row `r`, component `q`: columns 21, 22, 23 of the packed block over their
    bounded Euclidean length. -/
theorem pay10_apply (v0 : Vec Ideal S2560x24 .f32) (r : Fin 2560) (q : Fin 3) :
    k1_pay10 v0 (ix2 r q) = unitE (fun k => v0 (ix2 r (⟨21 + k.val, by omega⟩ : Fin 24))) q := by
  unfold k1_pay10 k1_pay5
  simp only [shapeCast_self]
  have e4 : ∀ k : Fin 3, extractStridedSlice S2560x3 ![0, 21] v0 slices_S2560x24_o0_21_S2560x3 (ix2 r k)
      = v0 (ix2 r (⟨21 + k.val, by omega⟩ : Fin 24)) := fun k =>
    slice2_axis1_apply 21 v0 slices_S2560x24_o0_21_S2560x3 r k _ rfl
  unfold unitE
  refine congrArg₂ Ideal.div (e4 q) ?_
  refine (Cert.LibColumn.broadcastTo_a1_ab_apply _ broadcasts_S2560x1_S2560x3 r q).trans ?_
  refine congrArg₂ max (congrArg Ideal.sqrt ?_) rfl
  refine (Cert.LibColumn.shapeCast_a_a1_apply _ shapeCasts_S2560_S2560x1 r (0 : Fin 1)).trans ?_
  refine (Ideal.multiReduction_add_single _ 0x00000000#32 reduces_S2560x3_S2560 (.inl rfl) rfl (ix1 r)).trans ?_
  have el : ∀ k : Fin 3, reduces_S2560x3_S2560.lift (ix1 r) k = ix2 r k := fun k => funext fun a => Fin.ext (by
    match a with | ⟨0, _⟩ => rfl | ⟨1, _⟩ => rfl)
  refine Finset.sum_congr rfl fun k _ => ?_
  rw [el k]
  exact congrArg₂ (· * ·) (e4 k) (e4 k)

/-- Component 0 of the vector message at row `r`, feature `f`: the gathered vector state's entry times the first third of
    the gate, plus the edge vector's component times the second third. -/
theorem pay2_apply (v27 v28 : FVec Ideal S2560x128 .f32) (v38 : FVec Ideal S2560x3 .f32) (v39 : Vec Ideal S2560x384 .f32)
    (r : Fin 2560) (f : Fin 128) :
    k1_pay2 v27 v28 v38 v39 (ix2 r f)
      = v39 (ix2 r (⟨f.val, by omega⟩ : Fin 384)) * v27 (ix2 r f) + v38 (ix2 r (0 : Fin 3)) * v28 (ix2 r f) := by
  unfold k1_pay2 k1_pay1
  simp only [shapeCast_self]
  refine congrArg₂ (· + ·) (congrArg₂ (· * ·) ?_ rfl) (congrArg₂ (· * ·) ?_ rfl)
  · exact slice2_axis1_apply 0 v39 slices_S2560x384_o0_0_S2560x128 r f _ (Nat.zero_add _).symm
  · exact (Cert.LibColumn.broadcastTo_a1_ab_apply _ broadcasts_S2560x1_S2560x128 r f).trans
      (slice2_axis1_apply 0 v38 slices_S2560x3_o0_0_S2560x1 r (0 : Fin 1) _ rfl)

/-- Component 1 of the vector message. -/
theorem pay3_apply (v27 v28 : FVec Ideal S2560x128 .f32) (v38 : FVec Ideal S2560x3 .f32) (v39 : Vec Ideal S2560x384 .f32)
    (r : Fin 2560) (f : Fin 128) :
    k1_pay3 v27 v28 v38 v39 (ix2 r f)
      = v39 (ix2 r (⟨128 + f.val, by omega⟩ : Fin 384)) * v27 (ix2 r f) + v38 (ix2 r (1 : Fin 3)) * v28 (ix2 r f) := by
  unfold k1_pay3 k1_pay1
  simp only [shapeCast_self]
  refine congrArg₂ (· + ·) (congrArg₂ (· * ·) ?_ rfl) (congrArg₂ (· * ·) ?_ rfl)
  · exact slice2_axis1_apply 128 v39 slices_S2560x384_o0_128_S2560x128 r f _ rfl
  · exact (Cert.LibColumn.broadcastTo_a1_ab_apply _ broadcasts_S2560x1_S2560x128 r f).trans
      (slice2_axis1_apply 1 v38 slices_S2560x3_o0_1_S2560x1 r (0 : Fin 1) _ rfl)

/-- Component 2 of the vector message. -/
theorem pay4_apply (v27 v28 : FVec Ideal S2560x128 .f32) (v38 : FVec Ideal S2560x3 .f32) (v39 : Vec Ideal S2560x384 .f32)
    (r : Fin 2560) (f : Fin 128) :
    k1_pay4 v27 v28 v38 v39 (ix2 r f)
      = v39 (ix2 r (⟨256 + f.val, by omega⟩ : Fin 384)) * v27 (ix2 r f) + v38 (ix2 r (2 : Fin 3)) * v28 (ix2 r f) := by
  unfold k1_pay4 k1_pay1
  simp only [shapeCast_self]
  refine congrArg₂ (· + ·) (congrArg₂ (· * ·) ?_ rfl) (congrArg₂ (· * ·) ?_ rfl)
  · exact slice2_axis1_apply 256 v39 slices_S2560x384_o0_256_S2560x128 r f _ rfl
  · exact (Cert.LibColumn.broadcastTo_a1_ab_apply _ broadcasts_S2560x1_S2560x128 r f).trans
      (slice2_axis1_apply 2 v38 slices_S2560x3_o0_2_S2560x1 r (0 : Fin 1) _ rfl)

/-! ## The reference's stages read at an index -/

open Cert.ReferenceIdeal in
/-- The reference's gated filter at edge `p`, column `j`: the filter inputs against column `j` of the weights, plus
    the bias, times the cutoff of the edge's distance. -/
theorem ref24_apply (x2 : (⟨Cert.ReferenceIdeal.S320000x20, .f32⟩ : BufTy).Contents (Elt Ideal)) (x4 : (⟨Cert.ReferenceIdeal.S320000x1, .f32⟩ : BufTy).Contents (Elt Ideal))
    (x6 : (⟨Cert.ReferenceIdeal.S20x384, .f32⟩ : BufTy).Contents (Elt Ideal)) (x7 : (⟨Cert.ReferenceIdeal.S384, .f32⟩ : BufTy).Contents (Elt Ideal))
    (p : Fin 320000) (j : Fin 384) :
    Cert.ReferenceIdeal.Read.val_main_v24 (F := Ideal) x2 x4 x6 x7 (ix2 p j)
      = ((∑ k : Fin 20, x2 (ix2 p k) * x6 (ix2 k j)) + x7 (ix1 j)) * cutoffE (x4 (ix2 p (0 : Fin 1))) := by
  rw [Read.val_main_v24_apply, Read.val_main_v12_apply, Read.val_main_v9_apply, Read.val_main_v11_apply, Read.val_main_v10_apply,
    Read.val_main_v23_apply, Read.val_main_v22_apply]
  have e1 : ∀ k, Read.lidx_main_v9 (ix2 p j) k = ix2 p k := fun k => funext fun a => by
    match a with | ⟨0, _⟩ => rfl | ⟨1, _⟩ => rfl
  have e2 : ∀ k, Read.ridx_main_v9 (ix2 p j) k = ix2 k j := fun k => funext fun a => by
    match a with | ⟨0, _⟩ => rfl | ⟨1, _⟩ => rfl
  have e3 : Read.idx_main_v10 (Read.idx_main_v11 (ix2 p j)) = ix1 j := funext fun a => by
    match a with | ⟨0, _⟩ => rfl
  have e4 : Read.idx_main_v23 (ix2 p j) = ix2 p (0 : Fin 1) := funext fun a => by
    match a with | ⟨0, _⟩ => rfl | ⟨1, _⟩ => rfl
  simp only [e1, e2, e3, e4]
  rfl

open Cert.ReferenceIdeal in
/-- The reference's normalised edge vector at edge `p`, component `q`. -/
theorem ref8_apply (x3 : (⟨Cert.ReferenceIdeal.S320000x3, .f32⟩ : BufTy).Contents (Elt Ideal)) (p : Fin 320000) (q : Fin 3) :
    Cert.ReferenceIdeal.Read.val_main_v8 (F := Ideal) x3 (ix2 p q) = unitE (fun k => x3 (ix2 p k)) q := by
  rw [Read.val_main_v8_apply, Read.val_main_v7_apply, Read.val_main_v6_apply, Read.val_main_v4_apply, Read.val_main_call0_v2_apply,
    Read.val_main_call0_v1_apply]
  have e1 : ∀ k, Read.idx_main_call0_v1 (Read.idx_main_call0_v2 (Read.idx_main_v7 (ix2 p q))) k = ix2 p k := fun k =>
    funext fun a => by match a with | ⟨0, _⟩ => rfl | ⟨1, _⟩ => rfl
  have z : Read.val_main_call0_cst (F := Ideal) (Shape.Idx.first Gen.h_S_) = 0 := Ideal.ofBits_zero_f32
  simp only [e1]
  rw [z, zero_add]
  rfl

/-! ## One row of a block against one edge of the arrays -/

/-- The gated filter times the gathered entry at row `r` of a block is the reference's at edge `p`, when the block's row
    `r` holds the arrays' row `p`. -/
theorem gate_point (v0 : Vec Ideal S2560x24 .f32) (v5 : Vec Ideal S20x384 .f32) (v7 : Vec Ideal S1x384 .f32)
    (v24 : Vec Ideal S2560x384 .f32)
    (x2 : (⟨S320000x20, .f32⟩ : BufTy).Contents (Elt Ideal)) (x4 : (⟨S320000x1, .f32⟩ : BufTy).Contents (Elt Ideal))
    (x6 : (⟨S20x384, .f32⟩ : BufTy).Contents (Elt Ideal)) (x7 : (⟨S384, .f32⟩ : BufTy).Contents (Elt Ideal))
    (GS : (⟨S320000x384, .f32⟩ : BufTy).Contents (Elt Ideal)) (p : Fin 320000) (r : Fin 2560)
    (h0a : ∀ k : Fin 20, v0 (ix2 r (⟨k.val, by omega⟩ : Fin 24)) = x2 (ix2 p k))
    (h0b : v0 (ix2 r (⟨20, by omega⟩ : Fin 24)) = x4 (ix2 p (0 : Fin 1)))
    (h5 : v5 = x6) (h7 : ∀ j : Fin 384, v7 (ix2 (0 : Fin 1) j) = x7 (ix1 j))
    (h24 : ∀ j : Fin 384, v24 (ix2 r j) = GS (ix2 p j)) (j : Fin 384) :
    k1_pay6 v0 v5 v7 v24 (ix2 r j)
      = Cert.ReferenceIdeal.Read.val_main_v24 (F := Ideal) x2 x4 x6 x7 (ix2 p j) * GS (ix2 p j) := by
  rw [pay6_apply, ref24_apply, h0b, h7 j, h24 j, h5]
  simp only [h0a]

/-- The normalised edge vector at row `r` of a block is the reference's at edge `p`. -/
theorem unit_point (v0 : Vec Ideal S2560x24 .f32) (x3 : (⟨S320000x3, .f32⟩ : BufTy).Contents (Elt Ideal))
    (p : Fin 320000) (r : Fin 2560)
    (h0c : ∀ q : Fin 3, v0 (ix2 r (⟨21 + q.val, by omega⟩ : Fin 24)) = x3 (ix2 p q)) (q : Fin 3) :
    k1_pay10 v0 (ix2 r q) = Cert.ReferenceIdeal.Read.val_main_v8 (F := Ideal) x3 (ix2 p q) := by
  rw [pay10_apply, ref8_apply]
  simp only [h0c]

/-- A column of a third lies inside the 384 columns. -/
theorem third_lt (o : Nat) (ho : o + 128 ≤ 384) (f : Fin 128) : o + f.val < 384 := by have := f.isLt; omega

/-- The second output block at row `r`, column `q·128 + f`: the gathered vector state's entry times the first gate third,
    plus the edge vector's component `q` times the second gate third. -/
theorem out1_6_at (x0 : Vec Ideal S2560x24 .f32) (x1 : Vec Ideal S20x384 .f32) (x2 : Vec Ideal S1x384 .f32)
    (x3 : Vec Ideal S2560x384 .f32) (x4 : Vec Ideal S2560x384 .f32) (r : Fin 2560) (q : Fin 3) (f : Fin 128)
    (j : Fin 384) (hj : j.val = q.val * 128 + f.val) :
    out1_6 x0 x1 x2 x3 x4 (ix2 r j)
      = x4 (ix2 r j) * k1_pay7 x0 x1 x2 x3 (ix2 r f) + k1_pay10 x0 (ix2 r q) * k1_pay8 x0 x1 x2 x3 (ix2 r f) := by
  match q, hj with
  | ⟨0, _⟩, hj =>
    obtain rfl : j = (⟨f.val, Nat.lt_trans f.isLt (by norm_num)⟩ : Fin 384) := Fin.ext (by rw [hj]; show 0 * 128 + f.val = f.val; omega)
    exact (out1_6_at0 x0 x1 x2 x3 x4 r f).trans (pay2_apply _ _ _ _ r f)
  | ⟨1, _⟩, hj =>
    obtain rfl : j = (⟨128 + f.val, third_lt 128 (by norm_num) f⟩ : Fin 384) := Fin.ext (by rw [hj]; show 1 * 128 + f.val = 128 + f.val; omega)
    exact (out1_6_at1 x0 x1 x2 x3 x4 r f).trans (pay3_apply _ _ _ _ r f)
  | ⟨2, _⟩, hj =>
    obtain rfl : j = (⟨256 + f.val, third_lt 256 (by norm_num) f⟩ : Fin 384) := Fin.ext (by rw [hj]; show 2 * 128 + f.val = 256 + f.val; omega)
    exact (out1_6_at2 x0 x1 x2 x3 x4 r f).trans (pay4_apply _ _ _ _ r f)

/-! ## The two arrays -/

section
variable (V : (c : Dev nD) → (b : Ref sig .tc) → Buf (Elt Ideal) ((c : Thread nD τ).loc b)) (c : Dev nD)
  (x2 : (⟨S320000x20, .f32⟩ : BufTy).Contents (Elt Ideal)) (x3 : (⟨S320000x3, .f32⟩ : BufTy).Contents (Elt Ideal))
  (x4 : (⟨S320000x1, .f32⟩ : BufTy).Contents (Elt Ideal)) (x7 : (⟨S384, .f32⟩ : BufTy).Contents (Elt Ideal))
  (GS : (⟨S320000x384, .f32⟩ : BufTy).Contents (Elt Ideal)) (GV : (⟨Cert.ReferenceIdeal.S320000x3x128, .f32⟩ : BufTy).Contents (Elt Ideal))
  (h12a : ∀ (p : Fin 320000) (k : Fin 20), (V c main_v12 : S320000x24.Idx → EReal) (ix2 p (⟨k.val, by omega⟩ : Fin 24)) = x2 (ix2 p k))
  (h12b : ∀ p : Fin 320000, (V c main_v12 : S320000x24.Idx → EReal) (ix2 p (⟨20, by omega⟩ : Fin 24)) = x4 (ix2 p (0 : Fin 1)))
  (h12c : ∀ (p : Fin 320000) (q : Fin 3), (V c main_v12 : S320000x24.Idx → EReal) (ix2 p (⟨21 + q.val, by omega⟩ : Fin 24)) = x3 (ix2 p q))
  (h13 : ∀ j : Fin 384, (V c main_v13 : S1x384.Idx → EReal) (ix2 (0 : Fin 1) j) = x7 (ix1 j))
  (h10 : ∀ (p : Fin 320000) (j : Fin 384), (V c main_v10 : S320000x384.Idx → EReal) (ix2 p j) = GS (ix2 p j))
  (h11 : ∀ (p : Fin 320000) (q : Fin 3) (f : Fin 128), (V c main_v11 : S320000x384.Idx → EReal) (ix2 p (⟨q.val * 128 + f.val, by omega⟩ : Fin 384)) = GV (ix3 p q f))

/-- The gated filter at edge `p`, column `j`, times the gathered node output there. -/
abbrev filt (p : Fin 320000) (j : Fin 384) : EReal :=
  Cert.ReferenceIdeal.Read.val_main_v24 (F := Ideal) x2 x4 (V c main_arg6) x7 (ix2 p j) * GS (ix2 p j)

include h12a h12b h13 h10 in
/-- The body's gated filter times gathered entry, at edge `p`'s row of edge `p`'s block, is the reference's at `p`. -/
theorem gate_at (p : Fin 320000) (j : Fin 384) :
    k1_pay6 (iblk1 V c 0 (tOf p)) (iblk1 V c 1 (tOf p)) (iblk1 V c 2 (tOf p)) (iblk1 V c 3 (tOf p)) (ix2 (rOf p) j)
      = filt V c x2 x4 x7 GS p j :=
  gate_point (iblk1 V c 0 (tOf p)) (iblk1 V c 1 (tOf p)) (iblk1 V c 2 (tOf p)) (iblk1 V c 3 (tOf p))
    x2 x4 (V c main_arg6) x7 GS p (rOf p)
    (fun k => (iblk1_0_at V c p (⟨k.val, by omega⟩ : Fin 24)).trans (h12a p k))
    ((iblk1_0_at V c p (⟨20, by omega⟩ : Fin 24)).trans (h12b p))
    (iblk1_1_eq V c (tOf p))
    (fun j => (congrFun (iblk1_2_eq V c (tOf p)) (ix2 (0 : Fin 1) j)).trans (h13 j))
    (fun j => (iblk1_3_at V c p j).trans (h10 p j)) j

include h12a h12b h12c h13 h10 in
/-- The scalar message array at (p, f): the last third of the gated filter times the gathered node output. -/
theorem edge_arr5 (p : Fin 320000) (f : Fin 128) :
    ((dat1 V c).arrAt 5 cfg1.N : S320000x128.Idx → EReal) (ix2 p f)
      = filt V c x2 x4 x7 GS p (⟨256 + f.val, by omega⟩ : Fin 384) := by
  refine (arr5_at V c p f).trans ?_
  refine (out1_5_at (iblk1 V c 0 (tOf p)) (iblk1 V c 1 (tOf p)) (iblk1 V c 2 (tOf p)) (iblk1 V c 3 (tOf p)) (rOf p) f).trans ?_
  refine (pay9_apply (iblk1 V c 0 (tOf p)) (iblk1 V c 1 (tOf p)) (iblk1 V c 2 (tOf p)) (iblk1 V c 3 (tOf p)) (rOf p) f).trans ?_
  exact gate_at V c x2 x4 x7 GS h12a h12b h13 h10 p _

include h12a h12b h12c h13 h10 h11 in
/-- The vector message array at (p, q·128 + f): the gathered vector state times the first third of the gate, plus the
    second third of the gate times the normalised edge vector's component q. -/
theorem edge_arr6 (p : Fin 320000) (q : Fin 3) (f : Fin 128) :
    ((dat1 V c).arrAt 6 cfg1.N : S320000x384.Idx → EReal) (ix2 p (⟨q.val * 128 + f.val, by omega⟩ : Fin 384))
      = GV (ix3 p q f) * filt V c x2 x4 x7 GS p (⟨f.val, by omega⟩ : Fin 384)
        + filt V c x2 x4 x7 GS p (⟨128 + f.val, by omega⟩ : Fin 384)
          * Cert.ReferenceIdeal.Read.val_main_v8 (F := Ideal) x3 (ix2 p q) := by
  refine (arr6_at V c p _).trans ?_
  refine (out1_6_at (iblk1 V c 0 (tOf p)) (iblk1 V c 1 (tOf p)) (iblk1 V c 2 (tOf p)) (iblk1 V c 3 (tOf p)) (iblk1 V c 4 (tOf p))
    (rOf p) q f _ rfl).trans ?_
  rw [pay7_apply (iblk1 V c 0 (tOf p)) (iblk1 V c 1 (tOf p)) (iblk1 V c 2 (tOf p)) (iblk1 V c 3 (tOf p)) (rOf p) f,
    pay8_apply (iblk1 V c 0 (tOf p)) (iblk1 V c 1 (tOf p)) (iblk1 V c 2 (tOf p)) (iblk1 V c 3 (tOf p)) (rOf p) f,
    gate_at V c x2 x4 x7 GS h12a h12b h13 h10 p, gate_at V c x2 x4 x7 GS h12a h12b h13 h10 p,
    unit_point (iblk1 V c 0 (tOf p)) x3 p (rOf p) (fun q' => (iblk1_0_at V c p (⟨21 + q'.val, by omega⟩ : Fin 24)).trans (h12c p q')) q,
    (iblk1_4_at V c p _).trans (h11 p q f)]
  rw [mul_comm (Cert.ReferenceIdeal.Read.val_main_v8 (F := Ideal) x3 (ix2 p q))]
end

end Cert.KernelIdeal.Hand

end
-- ==== Proof.KI.Args.lean ====
/-
  The argument arrays as the program is launched with them, and the reference's own stage terms at those arrays: the
  node network's output, the gathered node rows, the two messages and the two results.  The kernel's side is proved
  equal to these terms, so the reference's arithmetic is the one specification both sides are compared at.
-/
import proofs.«405721_j59141699666425_3_alg».proof.Proof.KI.Run
import proofs.«405721_j59141699666425_3_alg».proof.Proof.Gen.ReferenceIdeal.Read
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- Argument 0 at launch. -/
abbrev X0 : (⟨S20000x128, .f32⟩ : BufTy).Contents (Elt Ideal) := m ((c.tc : Thread nD τ).loc main_arg0)
/-- Argument 1 at launch. -/
abbrev X1 : (⟨S20000x3x128, .f32⟩ : BufTy).Contents (Elt Ideal) := m ((c.tc : Thread nD τ).loc main_arg1)
/-- Argument 2 at launch. -/
abbrev X2 : (⟨S320000x20, .f32⟩ : BufTy).Contents (Elt Ideal) := m ((c.tc : Thread nD τ).loc main_arg2)
/-- Argument 3 at launch. -/
abbrev X3 : (⟨S320000x3, .f32⟩ : BufTy).Contents (Elt Ideal) := m ((c.tc : Thread nD τ).loc main_arg3)
/-- Argument 4 at launch. -/
abbrev X4 : (⟨S320000x1, .f32⟩ : BufTy).Contents (Elt Ideal) := m ((c.tc : Thread nD τ).loc main_arg4)
/-- Argument 5 at launch. -/
abbrev X5 : (⟨S320000x2, .i32⟩ : BufTy).Contents (Elt Ideal) := m ((c.tc : Thread nD τ).loc main_arg5)
/-- Argument 6 at launch. -/
abbrev X6 : (⟨S20x384, .f32⟩ : BufTy).Contents (Elt Ideal) := m ((c.tc : Thread nD τ).loc main_arg6)
/-- Argument 7 at launch. -/
abbrev X7 : (⟨S384, .f32⟩ : BufTy).Contents (Elt Ideal) := m ((c.tc : Thread nD τ).loc main_arg7)
/-- Argument 8 at launch. -/
abbrev X8 : (⟨S128x128, .f32⟩ : BufTy).Contents (Elt Ideal) := m ((c.tc : Thread nD τ).loc main_arg8)
/-- Argument 9 at launch. -/
abbrev X9 : (⟨S128, .f32⟩ : BufTy).Contents (Elt Ideal) := m ((c.tc : Thread nD τ).loc main_arg9)
/-- Argument 10 at launch. -/
abbrev X10 : (⟨S128x384, .f32⟩ : BufTy).Contents (Elt Ideal) := m ((c.tc : Thread nD τ).loc main_arg10)
/-- Argument 11 at launch. -/
abbrev X11 : (⟨S384, .f32⟩ : BufTy).Contents (Elt Ideal) := m ((c.tc : Thread nD τ).loc main_arg11)

/-- The reference's node output (its second layer's affine image of the gated first layer). -/
abbrev refSO : (⟨S20000x384, .f32⟩ : BufTy).Contents (Elt Ideal) :=
  Cert.ReferenceIdeal.Read.val_main_v33 (F := Ideal) (X0 m c) (X8 m c) (X9 m c) (X10 m c) (X11 m c)
/-- The reference's filter weights gated by the cosine cutoff. -/
abbrev refFW : (⟨S320000x384, .f32⟩ : BufTy).Contents (Elt Ideal) :=
  Cert.ReferenceIdeal.Read.val_main_v24 (F := Ideal) (X2 m c) (X4 m c) (X6 m c) (X7 m c)
/-- The reference's normalised edge vectors. -/
abbrev refEVN : (⟨S320000x3, .f32⟩ : BufTy).Contents (Elt Ideal) :=
  Cert.ReferenceIdeal.Read.val_main_v8 (F := Ideal) (X3 m c)
/-- The reference's node output gathered at every edge's source node. -/
abbrev refGS : (⟨S320000x384, .f32⟩ : BufTy).Contents (Elt Ideal) :=
  Cert.ReferenceIdeal.Read.val_main_v40 (F := Ideal) (X0 m c) (X5 m c) (X8 m c) (X9 m c) (X10 m c) (X11 m c)
/-- The reference's vector state gathered at every edge's source node. -/
abbrev refGV : (⟨Cert.ReferenceIdeal.S320000x3x128, .f32⟩ : BufTy).Contents (Elt Ideal) :=
  Cert.ReferenceIdeal.Read.val_main_v51 (F := Ideal) (X1 m c) (X5 m c)
/-- The reference's scalar message. -/
abbrev refMS : (⟨S320000x128, .f32⟩ : BufTy).Contents (Elt Ideal) :=
  Cert.ReferenceIdeal.Read.val_main_v44 (F := Ideal) (X0 m c) (X2 m c) (X4 m c) (X5 m c) (X6 m c) (X7 m c) (X8 m c) (X9 m c) (X10 m c) (X11 m c)
/-- The reference's vector message. -/
abbrev refMV : (⟨Cert.ReferenceIdeal.S320000x3x128, .f32⟩ : BufTy).Contents (Elt Ideal) :=
  Cert.ReferenceIdeal.Read.val_main_v60 (F := Ideal) (X0 m c) (X1 m c) (X2 m c) (X3 m c) (X4 m c) (X5 m c) (X6 m c) (X7 m c) (X8 m c) (X9 m c) (X10 m c) (X11 m c)
/-- The reference's first result. -/
abbrev ref67 : (⟨S20000x128, .f32⟩ : BufTy).Contents (Elt Ideal) :=
  Cert.ReferenceIdeal.Read.val_main_v67 (F := Ideal) (X0 m c) (X2 m c) (X4 m c) (X5 m c) (X6 m c) (X7 m c) (X8 m c) (X9 m c) (X10 m c) (X11 m c)
/-- The reference's second result. -/
abbrev ref68 : (⟨S20000x3x128, .f32⟩ : BufTy).Contents (Elt Ideal) :=
  Cert.ReferenceIdeal.Read.val_main_v68 (F := Ideal) (X0 m c) (X1 m c) (X2 m c) (X3 m c) (X4 m c) (X5 m c) (X6 m c) (X7 m c) (X8 m c) (X9 m c) (X10 m c) (X11 m c)

/-- Every edge's source node, read as a signed integer, names a node. -/
def SrcInRange : Prop :=
  ∀ p : Fin 320000, 0 ≤ ((X5 m c) (ix2 p (0 : Fin 2))).toInt ∧ ((X5 m c) (ix2 p (0 : Fin 2))).toInt < 20000

end Cert.KernelIdeal.Hand

end
-- ==== Proof.KI.HostEntry.lean ====
/-
  What the two launches find in their operand arrays that the host wrote or left alone: the bias vectors laid as rows,
  the weights untouched, and the three narrow per-edge inputs packed side by side into one array of 24 columns.
-/
import proofs.«405721_j59141699666425_3_alg».proof.Proof.KI.Args
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The node launch's entry -/

/-- The first host stretch writes no argument: each is as launched. -/
theorem W1_arg (r : Ref sig .tc) (hr : r ∉ hostOps0_W) :
    W1 m c (Proc.devRef .tc r) = m ((c.tc : Thread nD τ).loc r) :=
  StableHlo.after_of_writes_sub hostOps0 _ hostOps0_writes hr

theorem A1_arg0 : A1 m c main_arg0 = X0 m c := W1_arg m c main_arg0 (by decide)
theorem A1_arg8 : A1 m c main_arg8 = X8 m c := W1_arg m c main_arg8 (by decide)
theorem A1_arg10 : A1 m c main_arg10 = X10 m c := W1_arg m c main_arg10 (by decide)

/-- The first layer's bias, laid as one row by the host. -/
theorem A1_v4_eq : (A1 m c main_v4 : S1x128.Idx → EReal)
    = fun i => shapeCast S1x128 (X9 m c) shapeCasts_S128_S1x128 i := by
  dsimp only [A1, W1, W0]
  show StableHlo.after hostOps0 _ (Proc.devRef .tc main_v4) = _
  after_results
  rfl
theorem A1_v4 (k : Fin 128) : (A1 m c main_v4 : S1x128.Idx → EReal) (ix2 (0 : Fin 1) k) = X9 m c (ix1 k) := by
  rw [A1_v4_eq]
  exact shapeCast_a_1a_apply (X9 m c) shapeCasts_S128_S1x128 0 k

/-- The second layer's bias, laid as one row by the host. -/
theorem A1_v5_eq : (A1 m c main_v5 : S1x384.Idx → EReal)
    = fun i => shapeCast S1x384 (X11 m c) shapeCasts_S384_S1x384 i := by
  dsimp only [A1, W1, W0]
  show StableHlo.after hostOps0 _ (Proc.devRef .tc main_v5) = _
  after_results
  rfl
theorem A1_v5 (j : Fin 384) : (A1 m c main_v5 : S1x384.Idx → EReal) (ix2 (0 : Fin 1) j) = X11 m c (ix1 j) := by
  rw [A1_v5_eq]
  exact shapeCast_a_1a_apply (X11 m c) shapeCasts_S384_S1x384 0 j

/-! ## The edge launch's entry -/

/-- No segment before the edge launch writes an argument that is no array of the node launch. -/
theorem W4_arg (r : Ref sig .tc) (h12 : r ∉ hostOps1_1_W) (h1 : r ∉ hostOps1_W)
    (hw : ∀ w, Pipeline.arrRef spec0 w ≠ r) (h0 : r ∉ hostOps0_W) :
    W4 m c (Proc.devRef .tc r) = m ((c.tc : Thread nD τ).loc r) :=
  calc W4 m c (Proc.devRef .tc r)
    _ = W3 m c (Proc.devRef .tc r) := StableHlo.after_of_writes_sub hostOps1_1 _ hostOps1_1_writes h12
    _ = W2 m c (Proc.devRef .tc r) := StableHlo.after_of_writes_sub hostOps1 _ hostOps1_writes h1
    _ = W1 m c (Proc.devRef .tc r) := W2_of_ne m c r hw
    _ = m ((c.tc : Thread nD τ).loc r) := W1_arg m c r h0

theorem A5_arg6 : A5 m c main_arg6 = X6 m c :=
  (StableHlo.after_of_writes_sub hostOps1_2 _ hostOps1_2_writes (by decide : main_arg6 ∉ hostOps1_2_W)).trans
    (W4_arg m c main_arg6 (by decide) (by decide) (by decide) (by decide))

/-- The filter network's bias, laid as one row by the host: the last host stretch at any contents. -/
theorem v13_after (V : Valuation τ sig (Elt Ideal)) :
    (StableHlo.after hostOps1_2 V (Proc.devRef .tc main_v13) : S1x384.Idx → EReal)
      = fun i => shapeCast S1x384 (V (Proc.devRef .tc main_arg7) : S384.Idx → EReal) shapeCasts_S384_S1x384 i := by
  after_results
  rfl
theorem A5_v13 (j : Fin 384) : (A5 m c main_v13 : S1x384.Idx → EReal) (ix2 (0 : Fin 1) j) = X7 m c (ix1 j) := by
  have e : (A5 m c main_v13 : S1x384.Idx → EReal) = _ := v13_after (W4 m c)
  rw [e]
  refine (shapeCast_a_1a_apply _ shapeCasts_S384_S1x384 0 j).trans ?_
  exact congrFun (W4_arg m c main_arg7 (by decide) (by decide) (by decide) (by decide)) (ix1 j)

/-- The packed per-edge input: the last host stretch lays the radial basis, the distance and the direction side by
    side, at any contents. -/
theorem v12_after (V : Valuation τ sig (Elt Ideal)) :
    (StableHlo.after hostOps1_2 V (Proc.devRef .tc main_v12) : S320000x24.Idx → EReal)
      = concatenate S320000x24 1 [⟨S320000x20, (V (Proc.devRef .tc main_arg2) : S320000x20.Idx → EReal)⟩,
          ⟨S320000x1, (V (Proc.devRef .tc main_arg4) : S320000x1.Idx → EReal)⟩,
          ⟨S320000x3, (V (Proc.devRef .tc main_arg3) : S320000x3.Idx → EReal)⟩]
          concatenates_S320000x20_S320000x1_S320000x3_S320000x24_d1 := by
  after_results
  rfl

/-- Columns 0 to 19 of the packed array are the first piece's columns. -/
theorem cat24_fst (x2 : S320000x20.Idx → EReal) (x4 : S320000x1.Idx → EReal) (x3 : S320000x3.Idx → EReal)
    (p : Fin 320000) (k : Fin 20) :
    concatenate S320000x24 1 [⟨S320000x20, x2⟩, ⟨S320000x1, x4⟩, ⟨S320000x3, x3⟩]
      concatenates_S320000x20_S320000x1_S320000x3_S320000x24_d1 (ix2 p (⟨k.val, by omega⟩ : Fin 24)) = x2 (ix2 p k) := by
  refine concatenate_apply_piece (t := S320000x24) 1 _ _ _ 0 (by show (0 : ℕ) < 3; omega) S320000x20 x2 rfl rfl 0 rfl (ix2 p k) ?_ ?_
  · intro b hb
    match b with
    | ⟨0, _⟩ => rfl
    | ⟨1, _⟩ => exact absurd rfl hb
  · show 0 + k.val = k.val
    omega

/-- Column 20 of the packed array is the second piece's one column. -/
theorem cat24_snd (x2 : S320000x20.Idx → EReal) (x4 : S320000x1.Idx → EReal) (x3 : S320000x3.Idx → EReal)
    (p : Fin 320000) :
    concatenate S320000x24 1 [⟨S320000x20, x2⟩, ⟨S320000x1, x4⟩, ⟨S320000x3, x3⟩]
      concatenates_S320000x20_S320000x1_S320000x3_S320000x24_d1 (ix2 p (⟨20, by omega⟩ : Fin 24)) = x4 (ix2 p (0 : Fin 1)) := by
  refine concatenate_apply_piece (t := S320000x24) 1 _ _ _ 1 (by show (1 : ℕ) < 3; omega) S320000x1 x4 rfl rfl 20 rfl (ix2 p (0 : Fin 1)) ?_ ?_
  · intro b hb
    match b with
    | ⟨0, _⟩ => rfl
    | ⟨1, _⟩ => exact absurd rfl hb
  · rfl

/-- Columns 21 to 23 of the packed array are the third piece's columns. -/
theorem cat24_trd (x2 : S320000x20.Idx → EReal) (x4 : S320000x1.Idx → EReal) (x3 : S320000x3.Idx → EReal)
    (p : Fin 320000) (q : Fin 3) :
    concatenate S320000x24 1 [⟨S320000x20, x2⟩, ⟨S320000x1, x4⟩, ⟨S320000x3, x3⟩]
      concatenates_S320000x20_S320000x1_S320000x3_S320000x24_d1 (ix2 p (⟨21 + q.val, by omega⟩ : Fin 24)) = x3 (ix2 p q) := by
  refine concatenate_apply_piece (t := S320000x24) 1 _ _ _ 2 (by show (2 : ℕ) < 3; omega) S320000x3 x3 rfl rfl 21 rfl (ix2 p q) ?_ ?_
  · intro b hb
    match b with
    | ⟨0, _⟩ => rfl
    | ⟨1, _⟩ => exact absurd rfl hb
  · rfl

/-- The packed array at the edge launch's entry, over the three arguments as launched. -/
theorem A5_v12_eq : (A5 m c main_v12 : S320000x24.Idx → EReal)
    = concatenate S320000x24 1 [⟨S320000x20, X2 m c⟩, ⟨S320000x1, X4 m c⟩, ⟨S320000x3, X3 m c⟩]
        concatenates_S320000x20_S320000x1_S320000x3_S320000x24_d1 := by
  have e : (A5 m c main_v12 : S320000x24.Idx → EReal) = _ := v12_after (W4 m c)
  rw [e, W4_arg m c main_arg2 (by decide) (by decide) (by decide) (by decide),
    W4_arg m c main_arg4 (by decide) (by decide) (by decide) (by decide),
    W4_arg m c main_arg3 (by decide) (by decide) (by decide) (by decide)]

theorem A5_v12a (p : Fin 320000) (k : Fin 20) :
    (A5 m c main_v12 : S320000x24.Idx → EReal) (ix2 p (⟨k.val, by omega⟩ : Fin 24)) = X2 m c (ix2 p k) := by
  rw [A5_v12_eq]
  exact cat24_fst (X2 m c) (X4 m c) (X3 m c) p k
theorem A5_v12b (p : Fin 320000) :
    (A5 m c main_v12 : S320000x24.Idx → EReal) (ix2 p (⟨20, by omega⟩ : Fin 24)) = X4 m c (ix2 p (0 : Fin 1)) := by
  rw [A5_v12_eq]
  exact cat24_snd (X2 m c) (X4 m c) (X3 m c) p
theorem A5_v12c (p : Fin 320000) (q : Fin 3) :
    (A5 m c main_v12 : S320000x24.Idx → EReal) (ix2 p (⟨21 + q.val, by omega⟩ : Fin 24)) = X3 m c (ix2 p q) := by
  rw [A5_v12_eq]
  exact cat24_trd (X2 m c) (X4 m c) (X3 m c) p q

end Cert.KernelIdeal.Hand

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeSlabs.lean ====
/-
  A take of slabs read at an index.

  A gather of an operand [R, B, C] at a column [M, 1] of start indices, whose start-indexed leading axis is collapsed and
  whose two trailing axes are the offset axes, reads at (p, q, f) the operand's slab named by start index p — read as a
  signed integer and clamped into [0, R − 1] — at (q, f).
-/
import Idealize.ShloMosaic.Lib.ValueIdx
import Idealize.ShloMosaic.Lib.Pipeline.Value

noncomputable section

namespace Cert.TakeSlabs

open Idealize.ShloMosaic Idealize.ShloMosaic.ValueIdx

variable {α : Type}

/-- The dimension numbers of a take of slabs, opened: operand [R, B, C], a column [M, 1] of start indices, result
    [M, B, C]; the leading axis is start-indexed and collapsed, the two trailing axes are the offset axes. The start
    indices' batching axes and the slice sizes stay as the record has them. -/
abbrev takeSlabsDims {R B C M : Nat} (sb : List (Fin 2)) (ss : Fin 3 → Nat)
    (wf : GatherDims.WF ⟨3, ![R, B, C]⟩ ⟨2, ![M, 1]⟩ ⟨3, ![M, B, C]⟩ [1, 2] [0] [] [0] sb 1 ss) :
    GatherDims ⟨3, ![R, B, C]⟩ ⟨2, ![M, 1]⟩ ⟨3, ![M, B, C]⟩ where
  offsetDims := [1, 2]
  collapsedSliceDims := [0]
  operandBatchingDims := []
  startIndicesBatchingDims := sb
  startIndexMap := [0]
  indexVectorDim := 1
  sliceSizes := ss
  wf := wf

/-- On the leading axis the operand coordinate of result (p, q, f) is start index p, read signed and clamped to R − 1
    (the slice size on a collapsed axis is one); no batching, no offset. -/
theorem takeSlabs_axis0 {R B C M : Nat} (sb : List (Fin 2)) (ss : Fin 3 → Nat)
    (wf : GatherDims.WF ⟨3, ![R, B, C]⟩ ⟨2, ![M, 1]⟩ ⟨3, ![M, B, C]⟩ [1, 2] [0] [] [0] sb 1 ss)
    (idx : IVec ⟨2, ![M, 1]⟩ 32) (p : Fin M) (q : Fin B) (f : Fin C) :
    (takeSlabsDims sb ss wf).start (ix3 p q f) idx (0 : Fin 3) + (takeSlabsDims sb ss wf).batchCoord (ix3 p q f) (0 : Fin 3)
        + (takeSlabsDims sb ss wf).offCoord (ix3 p q f) (0 : Fin 3)
      = min (idx (ix2 p (0 : Fin 1))).toInt.toNat (R - 1) := by
  have hm : (0 : Fin 3) ∈ (takeSlabsDims sb ss wf).startIndexMap := by
    show (0 : Fin 3) ∈ ([0] : List (Fin 3)); decide
  have hsl : ss 0 = 1 := (takeSlabsDims sb ss wf).slice_collapsed 0 (by show (0 : Fin 3) ∈ ([0] : List (Fin 3)); decide)
  rw [GatherDims.batchCoord_eq_zero _ _ _ List.not_mem_nil,
    GatherDims.offCoord_eq_zero _ _ _ (fun h => ((GatherDims.mem_sKept _ _).mp h).1
      (show (0 : Fin 3) ∈ ([0] : List (Fin 3)) by decide))]
  simp only [Nat.add_zero]
  unfold GatherDims.start
  rw [dif_pos hm]
  have hsi : (takeSlabsDims sb ss wf).siIdx (ix3 p q f) ⟨List.idxOf (0 : Fin 3) (takeSlabsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the middle axis the operand coordinate of result (p, q, f) is q: no start index, no batching, offset q. -/
theorem takeSlabs_axis1 {R B C M : Nat} (sb : List (Fin 2)) (ss : Fin 3 → Nat)
    (wf : GatherDims.WF ⟨3, ![R, B, C]⟩ ⟨2, ![M, 1]⟩ ⟨3, ![M, B, C]⟩ [1, 2] [0] [] [0] sb 1 ss)
    (idx : IVec ⟨2, ![M, 1]⟩ 32) (p : Fin M) (q : Fin B) (f : Fin C) :
    (takeSlabsDims sb ss wf).start (ix3 p q f) idx (1 : Fin 3) + (takeSlabsDims sb ss wf).batchCoord (ix3 p q f) (1 : Fin 3)
        + (takeSlabsDims sb ss wf).offCoord (ix3 p q f) (1 : Fin 3) = q.val := by
  have hm : (1 : Fin 3) ∉ (takeSlabsDims sb ss wf).startIndexMap := by
    show (1 : Fin 3) ∉ ([0] : List (Fin 3)); decide
  have hk : (1 : Fin 3) ∈ (takeSlabsDims sb ss wf).sKept :=
    (GatherDims.mem_sKept _ _).mpr ⟨by show (1 : Fin 3) ∉ ([0] : List (Fin 3)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- On the last axis the operand coordinate of result (p, q, f) is f: no start index, no batching, offset f. -/
theorem takeSlabs_axis2 {R B C M : Nat} (sb : List (Fin 2)) (ss : Fin 3 → Nat)
    (wf : GatherDims.WF ⟨3, ![R, B, C]⟩ ⟨2, ![M, 1]⟩ ⟨3, ![M, B, C]⟩ [1, 2] [0] [] [0] sb 1 ss)
    (idx : IVec ⟨2, ![M, 1]⟩ 32) (p : Fin M) (q : Fin B) (f : Fin C) :
    (takeSlabsDims sb ss wf).start (ix3 p q f) idx (2 : Fin 3) + (takeSlabsDims sb ss wf).batchCoord (ix3 p q f) (2 : Fin 3)
        + (takeSlabsDims sb ss wf).offCoord (ix3 p q f) (2 : Fin 3) = f.val := by
  have hm : (2 : Fin 3) ∉ (takeSlabsDims sb ss wf).startIndexMap := by
    show (2 : Fin 3) ∉ ([0] : List (Fin 3)); decide
  have hk : (2 : Fin 3) ∈ (takeSlabsDims sb ss wf).sKept :=
    (GatherDims.mem_sKept _ _).mpr ⟨by show (2 : Fin 3) ∉ ([0] : List (Fin 3)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF SLABS. A gather of an operand [R, B, C] at a column [M, 1] of start indices, whose one start-indexed
    axis (the leading one) is collapsed and whose two trailing axes are the offset axes (the printed dimension numbers,
    each by `rfl`), reads at (p, q, f) the operand's slab named by start index p, read signed and clamped into
    [0, R − 1], at (q, f). -/
theorem take_slabs_apply {R B C M : Nat} (d : GatherDims ⟨3, ![R, B, C]⟩ ⟨2, ![M, 1]⟩ ⟨3, ![M, B, C]⟩)
    (hoff : d.offsetDims = [1, 2]) (hcoll : d.collapsedSliceDims = [0]) (hob : d.operandBatchingDims = [])
    (hsim : d.startIndexMap = [0]) (hivd : d.indexVectorDim = 1) (hR : 0 < R)
    (x : (⟨3, ![R, B, C]⟩ : Shape).Idx → α) (idx : IVec ⟨2, ![M, 1]⟩ 32) (p : Fin M) (q : Fin B) (f : Fin C) :
    Host.gather d x idx (ix3 p q f)
      = x (ix3 (⟨min (idx (ix2 p (0 : Fin 1))).toInt.toNat (R - 1), by omega⟩ : Fin R) q f) := by
  obtain ⟨od, cd, ob, sb, sim, ivd, ss, wf⟩ := d
  dsimp only at hoff hcoll hob hsim hivd
  subst hoff hcoll hob hsim hivd
  show Host.gather (takeSlabsDims sb ss wf) x idx (ix3 p q f) = _
  unfold Host.gather
  congr 1
  funext a
  refine Fin.ext ?_
  show (takeSlabsDims sb ss wf).start (ix3 p q f) idx a + (takeSlabsDims sb ss wf).batchCoord (ix3 p q f) a
    + (takeSlabsDims sb ss wf).offCoord (ix3 p q f) a = _
  match a with
  | ⟨0, _⟩ => exact takeSlabs_axis0 sb ss wf idx p q f
  | ⟨1, _⟩ => exact takeSlabs_axis1 sb ss wf idx p q f
  | ⟨2, _⟩ => exact takeSlabs_axis2 sb ss wf idx p q f

end Cert.TakeSlabs

end
-- ==== Proof.KI.HostGather.lean ====
/-
  The gathered node rows the edge launch finds: with every source index in range the fill of the take never binds, so
  row p of the gathered table is row src(p) of the node output beside the flattened vector state, which is what the
  reference's two gathers read.
-/
import proofs.«405721_j59141699666425_3_alg».proof.Proof.KI.Args
import proofs.«405721_j59141699666425_3_alg».proof.Proof.LibTakeRows
import proofs.«405721_j59141699666425_3_alg».proof.Proof.LibUnitAxis
import proofs.«405721_j59141699666425_3_alg».proof.Proof.LibTakeSlabs
import Idealize.ShloMosaic.Lib.StableHlo.Run
import Idealize.ShloMosaic.Lib.Pipeline.Value
import Idealize.ShloMosaic.Lib.ValueLayout
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The take with its fill, as a function of the table and the index vector -/

/-- The index vector with a negative entry moved up by the table's height, laid as a column. -/
def wrapCol (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32))) src)

/-- The bit "the row index lies in [0, 19999]" of every entry of an index column. -/
def inRangeMask (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The rows of a table taken at an index vector, a row whose index is out of range filled with the fill word. -/
def takeFill (tbl : S20000x768.Idx → EReal) (src : IVec S320000 32) : S320000x768.Idx → EReal :=
  select (broadcastInDim S320000x768 ![0] bcast_S320000_S320000x768_0 (inRangeMask (wrapCol src)))
    (Host.gather gather_S20000x768_S320000x1_S320000x768_1_0_n_n_0_1_1768 tbl (wrapCol src))
    (broadcastInDim S320000x768 ![] bcast_S_S320000x768 (constant (F := Ideal) S_ .f32 0x7FC00000#32))

/-- The wrapped column at row p. -/
theorem wrapCol_apply (src : IVec S320000 32) (p : Fin 320000) :
    wrapCol src (ix2 p (0 : Fin 1))
      = Scalar.select (IntOp.cmpi .slt (src (ix1 p)) 0#32) (IntOp.addi (src (ix1 p)) 20000#32) (src (ix1 p)) := by
  unfold wrapCol
  rw [Cert.LibUnitAxis.bcast_col_apply]
  rfl

/-- A word that reads as a non-negative integer is not below zero. -/
theorem cmpi_slt_zero_of_nonneg {s : BitVec 32} (h : 0 ≤ s.toInt) : IntOp.cmpi .slt s 0#32 = 0#1 := by
  refine eq_zero_of_ne_one fun e => ?_
  rw [IntOp.cmpi_slt, show (0#32 : BitVec 32).toInt = 0 from by decide] at e
  omega

/-- The wrapped column at a row whose index is non-negative is the index. -/
theorem wrapCol_apply_of_nonneg (src : IVec S320000 32) (p : Fin 320000) (h : 0 ≤ (src (ix1 p)).toInt) :
    wrapCol src (ix2 p (0 : Fin 1)) = src (ix1 p) := by
  rw [wrapCol_apply, cmpi_slt_zero_of_nonneg h, select_zero]

/-- The in-range bit at row p. -/
theorem inRangeMask_apply (col : IVec S320000x1 32) (p : Fin 320000) :
    inRangeMask col (ix1 p)
      = IntOp.andi (IntOp.cmpi .sge (col (ix2 p (0 : Fin 1))) 0#32) (IntOp.cmpi .sle (col (ix2 p (0 : Fin 1))) 19999#32) := by
  unfold inRangeMask
  rw [Cert.LibUnitAxis.reduce_andi_unit_apply _ (constantI S_ 1 1#1) reducesTo_S320000x1_S320000_d1 h_S_ (fun _ => rfl) p]
  rfl

/-- The in-range bit of a row whose index is in range is one. -/
theorem inRangeMask_of_inRange (col : IVec S320000x1 32) (p : Fin 320000)
    (h0 : 0 ≤ (col (ix2 p (0 : Fin 1))).toInt) (h1 : (col (ix2 p (0 : Fin 1))).toInt < 20000) :
    inRangeMask col (ix1 p) = 1#1 := by
  rw [inRangeMask_apply]
  have e0 : IntOp.cmpi .sge (col (ix2 p (0 : Fin 1))) 0#32 = 1#1 := by
    rw [IntOp.cmpi_sge, show (0#32 : BitVec 32).toInt = 0 from by decide]; exact h0
  have e1 : IntOp.cmpi .sle (col (ix2 p (0 : Fin 1))) 19999#32 = 1#1 := by
    rw [IntOp.cmpi_sle, show (19999#32 : BitVec 32).toInt = 19999 from by decide]; omega
  rw [e0, e1]; decide

/-- THE TAKE IN RANGE. At a row whose index reads as an integer in [0, 20000) the fill does not bind: entry (p, k) is the
    table's entry at that row and column k. -/
theorem takeFill_apply (tbl : S20000x768.Idx → EReal) (src : IVec S320000 32) (p : Fin 320000) (k : Fin 768)
    (h0 : 0 ≤ (src (ix1 p)).toInt) (h1 : (src (ix1 p)).toInt < 20000) :
    takeFill tbl src (ix2 p k)
      = tbl (ix2 (⟨min (src (ix1 p)).toInt.toNat (20000 - 1), by omega⟩ : Fin 20000) k) := by
  have hw := wrapCol_apply_of_nonneg src p h0
  unfold takeFill
  rw [select_apply, Cert.LibUnitAxis.bcast_cols_apply, inRangeMask_of_inRange _ p (by rw [hw]; exact h0) (by rw [hw]; exact h1),
    select_one, Cert.TakeRows.take_rows_apply _ rfl rfl rfl rfl rfl (by decide)]
  simp only [hw]

/-! ## The buffers the take reads -/

/-- The source-node vector: column 0 of the edge list, flattened; the node launch does not touch it. -/
theorem W2_v1 : (W2 m c main_v1 : S320000.Idx → BitVec 32)
    = shapeCast S320000 (extractStridedSlice S320000x1 ![0, 0] (X5 m c) slices_S320000x2_S320000x1_0_0)
        shapeCasts_S320000x1_S320000 := by
  refine (W2_of_ne m c main_v1 (by decide)).trans ?_
  show StableHlo.after hostOps0 (W0 m c) (Proc.devRef .tc main_v1) = _
  after_results
  rfl

/-- The vector state reaches the take as launched. -/
theorem W2_arg1 : (W2 m c main_arg1 : S20000x3x128.Idx → EReal) = X1 m c :=
  (W2_of_ne m c main_arg1 (by decide)).trans
    (StableHlo.after_of_writes_sub hostOps0 _ hostOps0_writes (by decide : main_arg1 ∉ hostOps0_W))

/-- Entry p of the source-node vector is the edge list's entry (p, 0). -/
theorem W2_v1_apply (p : Fin 320000) :
    (W2 m c main_v1 : S320000.Idx → BitVec 32) (ix1 p) = X5 m c (ix2 p (0 : Fin 2)) := by
  rw [W2_v1]
  refine (shapeCast_apply _ _ (ix1 p) (ix2 p (0 : Fin 1)) ?_).trans ?_
  · rw [Shape.rowMajor_val_two, Shape.rowMajor_val_one]; show p.val * 1 + 0 = p.val; omega
  · exact slice2_axis1_apply 0 _ _ p (0 : Fin 1) (0 : Fin 2) rfl

/-- The node table the take reads: the node launch's output beside the flattened vector state. -/
abbrev nodeTable : S20000x768.Idx → EReal :=
  concatenate S20000x768 1
    [⟨S20000x384, (W2 m c main_v6 : S20000x384.Idx → EReal)⟩,
     ⟨S20000x384, shapeCast S20000x384 (X1 m c) shapeCasts_S20000x3x128_S20000x384⟩]
    concatenates_S20000x384_S20000x384_S20000x768_d1

/-- The gathered table is the take, with its fill, of the node table at the source-node vector. -/
theorem W4_v9 : (W4 m c main_v9 : S320000x768.Idx → EReal)
    = takeFill (nodeTable m c) (W2 m c main_v1 : S320000.Idx → BitVec 32) := by
  unfold nodeTable takeFill wrapCol inRangeMask
  rw [← W2_arg1 m c]
  show StableHlo.after hostOps1_1 (W3 m c) (Proc.devRef .tc main_v9) = _
  after_results_simp
  simp only [StableHlo.TRef.toBuf, StableHlo.TRef.ofBuf, cast_eq]
  rw [StableHlo.reshape_result, StableHlo.reshape_result_ne]
  · rfl
  · decide

/-- The first half handed to the edge launch: columns 0 to 383 of the gathered table. -/
theorem A5_v10_eq : (A5 m c main_v10 : S320000x384.Idx → EReal)
    = extractStridedSlice S320000x384 ![0, 0] (W4 m c main_v9 : S320000x768.Idx → EReal)
        slices_S320000x768_S320000x384_0_0 := by
  show StableHlo.after hostOps1_2 (W4 m c) (Proc.devRef .tc main_v10)
    = extractStridedSlice S320000x384 ![0, 0] (W4 m c (Proc.devRef .tc main_v9)) slices_S320000x768_S320000x384_0_0
  generalize W4 m c = V
  after_results

/-- The second half: columns 384 to 767 of the gathered table. -/
theorem A5_v11_eq : (A5 m c main_v11 : S320000x384.Idx → EReal)
    = extractStridedSlice S320000x384 ![0, 384] (W4 m c main_v9 : S320000x768.Idx → EReal)
        slices_S320000x768_S320000x384_0_384 := by
  show StableHlo.after hostOps1_2 (W4 m c) (Proc.devRef .tc main_v11)
    = extractStridedSlice S320000x384 ![0, 384] (W4 m c (Proc.devRef .tc main_v9)) slices_S320000x768_S320000x384_0_384
  generalize W4 m c = V
  after_results

/-- A column of the node table's first half is the node launch's output. -/
theorem nodeTable_left (r : Fin 20000) (j : Fin 384) :
    nodeTable m c (ix2 r (⟨j.val, by omega⟩ : Fin 768)) = (W2 m c main_v6 : S20000x384.Idx → EReal) (ix2 r j) :=
by
  unfold nodeTable
  refine concatenate_pair_apply_left (t := S20000x768) (s₁ := S20000x384) (s₂ := S20000x384) _ _ _ _ (ix2 r (⟨j.val, by omega⟩ : Fin 768)) rfl (ix2 r j) (fun b => ?_)
  match b with
  | ⟨0, _⟩ => rfl
  | ⟨1, _⟩ => rfl

/-- Column 384 + q·128 + f of the node table is the vector state at (q, f). -/
theorem nodeTable_right (r : Fin 20000) (q : Fin 3) (f : Fin 128) :
    nodeTable m c (ix2 r (⟨384 + (q.val * 128 + f.val), by omega⟩ : Fin 768)) = X1 m c (ix3 r q f) := by
  unfold nodeTable
  refine (concatenate_pair_apply_right (t := S20000x768) (s₁ := S20000x384) (s₂ := S20000x384) _ _ _ _ (ix2 r (⟨384 + (q.val * 128 + f.val), by omega⟩ : Fin 768)) rfl rfl
    (ix2 r (⟨q.val * 128 + f.val, by omega⟩ : Fin 384)) ?_ ?_).trans ?_
  · intro b hb
    match b with
    | ⟨0, _⟩ => rfl
    | ⟨1, _⟩ => exact absurd rfl hb
  · show (q.val * 128 + f.val) + 384 = 384 + (q.val * 128 + f.val); omega
  · refine shapeCast_apply _ _ _ (ix3 r q f) ?_
    rw [Shape.rowMajor_val_three, Shape.rowMajor_val_two]
    show (r.val * 3 + q.val) * 128 + f.val = r.val * 384 + (q.val * 128 + f.val); omega

/-! ## The reference's two gathers -/

/-- The reference's source-node vector at p is the edge list's entry (p, 0). -/
theorem ref_v1_apply (p : Fin 320000) :
    Cert.ReferenceIdeal.Read.val_main_v1 (F := Ideal) (X5 m c) (ix1 p) = X5 m c (ix2 p (0 : Fin 2)) := by
  rw [Cert.ReferenceIdeal.Read.val_main_v1_apply, Cert.ReferenceIdeal.Read.val_main_v0_apply]
  refine congrArg (X5 m c) (funext fun a => ?_)
  match a with
  | ⟨0, _⟩ => exact Fin.ext (Nat.div_one _)
  | ⟨1, _⟩ => rfl

/-- The index column of the reference's first gather, at a non-negative source node, is that node. -/
theorem ref_v39_apply (p : Fin 320000) (h0 : 0 ≤ (X5 m c (ix2 p (0 : Fin 2))).toInt) :
    Cert.ReferenceIdeal.Read.val_main_v39 (F := Ideal) (X5 m c) (ix2 p (0 : Fin 1)) = X5 m c (ix2 p (0 : Fin 2)) := by
  rw [Cert.ReferenceIdeal.Read.val_main_v39_apply,
    show Cert.ReferenceIdeal.Read.idx_main_v39 (ix2 p (0 : Fin 1)) = ix1 p from
      funext fun a => by match a with | ⟨0, _⟩ => rfl]
  show Scalar.select (IntOp.cmpi .slt (Cert.ReferenceIdeal.Read.val_main_v1 (F := Ideal) (X5 m c) (ix1 p)) 0#32) _
    (Cert.ReferenceIdeal.Read.val_main_v1 (F := Ideal) (X5 m c) (ix1 p)) = _
  rw [ref_v1_apply, cmpi_slt_zero_of_nonneg h0, select_zero]

/-- The index column of the reference's second gather, likewise. -/
theorem ref_v50_apply (p : Fin 320000) (h0 : 0 ≤ (X5 m c (ix2 p (0 : Fin 2))).toInt) :
    Cert.ReferenceIdeal.Read.val_main_v50 (F := Ideal) (X5 m c) (ix2 p (0 : Fin 1)) = X5 m c (ix2 p (0 : Fin 2)) := by
  rw [Cert.ReferenceIdeal.Read.val_main_v50_apply,
    show Cert.ReferenceIdeal.Read.idx_main_v50 (ix2 p (0 : Fin 1)) = ix1 p from
      funext fun a => by match a with | ⟨0, _⟩ => rfl]
  show Scalar.select (IntOp.cmpi .slt (Cert.ReferenceIdeal.Read.val_main_v1 (F := Ideal) (X5 m c) (ix1 p)) 0#32) _
    (Cert.ReferenceIdeal.Read.val_main_v1 (F := Ideal) (X5 m c) (ix1 p)) = _
  rw [ref_v1_apply, cmpi_slt_zero_of_nonneg h0, select_zero]

/-- The reference's gathered node output at (p, j): the node output's row named by the source node, clamped. -/
theorem refGS_apply (p : Fin 320000) (j : Fin 384) (h0 : 0 ≤ (X5 m c (ix2 p (0 : Fin 2))).toInt) :
    refGS m c (ix2 p j)
      = refSO m c (ix2 (⟨min (X5 m c (ix2 p (0 : Fin 2))).toInt.toNat (20000 - 1), by omega⟩ : Fin 20000) j) := by
  show Host.gather Cert.ReferenceIdeal.gather_S20000x384_S320000x1_S320000x384_1_0_n_n_0_1_1384 (refSO m c)
    (Cert.ReferenceIdeal.Read.val_main_v39 (F := Ideal) (X5 m c)) (ix2 p j) = _
  rw [Cert.TakeRows.take_rows_apply _ rfl rfl rfl rfl rfl (by decide)]
  simp only [ref_v39_apply m c p h0]

/-- The reference's gathered vector state at (p, q, f): the vector state's slab named by the source node, clamped. -/
theorem refGV_apply (p : Fin 320000) (q : Fin 3) (f : Fin 128) (h0 : 0 ≤ (X5 m c (ix2 p (0 : Fin 2))).toInt) :
    refGV m c (ix3 p q f)
      = X1 m c (ix3 (⟨min (X5 m c (ix2 p (0 : Fin 2))).toInt.toNat (20000 - 1), by omega⟩ : Fin 20000) q f) := by
  show Host.gather Cert.ReferenceIdeal.gather_S20000x3x128_S320000x1_S320000x3x128_12_0_n_n_0_1_13128 (X1 m c)
    (Cert.ReferenceIdeal.Read.val_main_v50 (F := Ideal) (X5 m c)) (ix3 p q f) = _
  rw [Cert.TakeSlabs.take_slabs_apply _ rfl rfl rfl rfl rfl (by decide)]
  simp only [ref_v50_apply m c p h0]

/-! ## The two halves against the reference -/

/-- The first half of the gathered table is the reference's gathered node output, given that the node launch left the
    reference's node output in its result array. -/
theorem A5_v10 (hso : (W2 m c main_v6 : S20000x384.Idx → EReal) = refSO m c) (hr : SrcInRange m c)
    (p : Fin 320000) (j : Fin 384) :
    (A5 m c main_v10 : S320000x384.Idx → EReal) (ix2 p j) = refGS m c (ix2 p j) := by
  obtain ⟨h0, h1⟩ := hr p
  have hs := W2_v1_apply m c p
  rw [A5_v10_eq, slice2_axis1_apply 0 _ _ p j (⟨j.val, by omega⟩ : Fin 768) (Nat.zero_add _).symm, W4_v9,
    takeFill_apply _ _ p _ (by rw [hs]; exact h0) (by rw [hs]; exact h1), nodeTable_left, hso,
    refGS_apply m c p j h0]
  simp only [hs]

/-- The second half of the gathered table, column q·128 + f, is the reference's gathered vector state at (p, q, f). -/
theorem A5_v11 (hr : SrcInRange m c) (p : Fin 320000) (q : Fin 3) (f : Fin 128) :
    (A5 m c main_v11 : S320000x384.Idx → EReal) (ix2 p (⟨q.val * 128 + f.val, by omega⟩ : Fin 384)) = refGV m c (ix3 p q f) := by
  obtain ⟨h0, h1⟩ := hr p
  have hs := W2_v1_apply m c p
  rw [A5_v11_eq, slice2_axis1_apply 384 _ _ p _ (⟨384 + (q.val * 128 + f.val), by omega⟩ : Fin 768) rfl, W4_v9,
    takeFill_apply _ _ p _ (by rw [hs]; exact h0) (by rw [hs]; exact h1), nodeTable_right,
    refGV_apply m c p q f h0]
  simp only [hs]

end Cert.KernelIdeal.Hand

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.LibScatterSlabs.lean ====
/-
  A scatter-add of slabs read at an index, on the extended reals.

  Updates [M, B, C] are added into an operand [R, B, C]: slab p of the updates goes to the operand slab named by start
  index p — a column [M, 1] of words read as signed integers and not clamped — and keeps its two inner coordinates; a
  slab whose index falls outside the operand is dropped. At (n, b, o) the result is the operand there plus the sum, over
  the update slabs whose index is n, of the update at (p, b, o).
-/
import Idealize.ShloMosaic.PureOps.Ideal
import Idealize.ShloMosaic.PureOps.Contract
import Idealize.ShloMosaic.Lib.ValueIdx

noncomputable section

open scoped BigOperators

namespace Cert.ScatterSlabs

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {N : Type*} [AddCommMonoid N] {n0 n1 n2 : Nat} (f : (⟨3, ![n0, n1, n2]⟩ : Shape).Idx → N) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a scatter-add of slabs, opened: operand [R, B, C], a column [M, 1] of start indices,
    updates [M, B, C]; the update's two inner axes are its window axes, the operand's first axis is the one inserted
    axis and the one axis a start index names, and the index vector lies along the indices' second axis. -/
abbrev scatterSlabsDims {R B C M : Nat}
    (wf : ScatterDims.WF ⟨3, ![R, B, C]⟩ ⟨2, ![M, 1]⟩ ⟨3, ![M, B, C]⟩ [1, 2] [0] [0] 1) :
    ScatterDims ⟨3, ![R, B, C]⟩ ⟨2, ![M, 1]⟩ ⟨3, ![M, B, C]⟩ where
  updateWindowDims := [1, 2]
  insertedWindowDims := [0]
  scatterDimsToOperandDims := [0]
  indexVectorDim := 1
  wf := wf

/-- On the first axis the window of update (p, q, r) starts at start index p, read signed and not clamped. -/
theorem scatterSlabs_start0 {R B C M : Nat}
    (wf : ScatterDims.WF ⟨3, ![R, B, C]⟩ ⟨2, ![M, 1]⟩ ⟨3, ![M, B, C]⟩ [1, 2] [0] [0] 1)
    (idx : IVec ⟨2, ![M, 1]⟩ 32) (p : Fin M) (q : Fin B) (r : Fin C) :
    (scatterSlabsDims wf).start (ix3 p q r) idx (0 : Fin 3) = (idx (ix2 p (0 : Fin 1))).toInt := by
  have hm : (0 : Fin 3) ∈ (scatterSlabsDims wf).scatterDimsToOperandDims := by
    show (0 : Fin 3) ∈ ([0] : List (Fin 3)); decide
  unfold ScatterDims.start
  rw [dif_pos hm]
  have hsi : (scatterSlabsDims wf).siIdx (ix3 p q r) ⟨List.idxOf (0 : Fin 3) (scatterSlabsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the two inner axes no start index is named: the window of update (p, q, r) starts at 0. -/
theorem scatterSlabs_start1 {R B C M : Nat}
    (wf : ScatterDims.WF ⟨3, ![R, B, C]⟩ ⟨2, ![M, 1]⟩ ⟨3, ![M, B, C]⟩ [1, 2] [0] [0] 1)
    (idx : IVec ⟨2, ![M, 1]⟩ 32) (p : Fin M) (q : Fin B) (r : Fin C) :
    (scatterSlabsDims wf).start (ix3 p q r) idx (1 : Fin 3) = 0 := by
  have hm : (1 : Fin 3) ∉ (scatterSlabsDims wf).scatterDimsToOperandDims := by
    show (1 : Fin 3) ∉ ([0] : List (Fin 3)); decide
  unfold ScatterDims.start
  rw [dif_neg hm]

theorem scatterSlabs_start2 {R B C M : Nat}
    (wf : ScatterDims.WF ⟨3, ![R, B, C]⟩ ⟨2, ![M, 1]⟩ ⟨3, ![M, B, C]⟩ [1, 2] [0] [0] 1)
    (idx : IVec ⟨2, ![M, 1]⟩ 32) (p : Fin M) (q : Fin B) (r : Fin C) :
    (scatterSlabsDims wf).start (ix3 p q r) idx (2 : Fin 3) = 0 := by
  have hm : (2 : Fin 3) ∉ (scatterSlabsDims wf).scatterDimsToOperandDims := by
    show (2 : Fin 3) ∉ ([0] : List (Fin 3)); decide
  unfold ScatterDims.start
  rw [dif_neg hm]

/-- The first axis is inserted: the window coordinate of update (p, q, r) there is 0. -/
theorem scatterSlabs_window0 {R B C M : Nat}
    (wf : ScatterDims.WF ⟨3, ![R, B, C]⟩ ⟨2, ![M, 1]⟩ ⟨3, ![M, B, C]⟩ [1, 2] [0] [0] 1)
    (p : Fin M) (q : Fin B) (r : Fin C) :
    (scatterSlabsDims wf).window (ix3 p q r) (0 : Fin 3) = 0 := by
  have hk : (0 : Fin 3) ∉ (scatterSlabsDims wf).sKept := by
    show (0 : Fin 3) ∉ ((List.finRange 3).filter (fun a => a ∉ ([0] : List (Fin 3)))); decide
  unfold ScatterDims.window
  rw [dif_neg hk]

/-- The second axis is the first window axis: the window coordinate of update (p, q, r) there is q. -/
theorem scatterSlabs_window1 {R B C M : Nat}
    (wf : ScatterDims.WF ⟨3, ![R, B, C]⟩ ⟨2, ![M, 1]⟩ ⟨3, ![M, B, C]⟩ [1, 2] [0] [0] 1)
    (p : Fin M) (q : Fin B) (r : Fin C) :
    (scatterSlabsDims wf).window (ix3 p q r) (1 : Fin 3) = q.val := by
  have hk : (1 : Fin 3) ∈ (scatterSlabsDims wf).sKept := by
    show (1 : Fin 3) ∈ ((List.finRange 3).filter (fun a => a ∉ ([0] : List (Fin 3)))); decide
  unfold ScatterDims.window
  rw [dif_pos hk]
  rfl

/-- The third axis is the second window axis: the window coordinate of update (p, q, r) there is r. -/
theorem scatterSlabs_window2 {R B C M : Nat}
    (wf : ScatterDims.WF ⟨3, ![R, B, C]⟩ ⟨2, ![M, 1]⟩ ⟨3, ![M, B, C]⟩ [1, 2] [0] [0] 1)
    (p : Fin M) (q : Fin B) (r : Fin C) :
    (scatterSlabsDims wf).window (ix3 p q r) (2 : Fin 3) = r.val := by
  have hk : (2 : Fin 3) ∈ (scatterSlabsDims wf).sKept := by
    show (2 : Fin 3) ∈ ((List.finRange 3).filter (fun a => a ∉ ([0] : List (Fin 3)))); decide
  unfold ScatterDims.window
  rw [dif_pos hk]
  rfl

/-- Update (p, q, r) lands on operand element (n, b, o) exactly when start index p, read signed, is n and (q, r) is
    (b, o): on the first axis the landing coordinate is the start index (which must lie in [0, R) to land at all), on
    the inner axes it is the update's own coordinate. -/
theorem scatterSlabs_resultIdx_iff {R B C M : Nat}
    (wf : ScatterDims.WF ⟨3, ![R, B, C]⟩ ⟨2, ![M, 1]⟩ ⟨3, ![M, B, C]⟩ [1, 2] [0] [0] 1)
    (idx : IVec ⟨2, ![M, 1]⟩ 32) (p : Fin M) (q : Fin B) (r : Fin C) (n : Fin R) (b : Fin B) (o : Fin C) :
    (scatterSlabsDims wf).resultIdx? (ix3 p q r) idx = some (ix3 n b o)
      ↔ (idx (ix2 p (0 : Fin 1))).toInt = (n.val : Int) ∧ q = b ∧ r = o := by
  have h0 : (scatterSlabsDims wf).start (ix3 p q r) idx (0 : Fin 3) + (scatterSlabsDims wf).window (ix3 p q r) (0 : Fin 3)
      = (idx (ix2 p (0 : Fin 1))).toInt := by
    rw [scatterSlabs_start0, scatterSlabs_window0]; simp
  have h1 : (scatterSlabsDims wf).start (ix3 p q r) idx (1 : Fin 3) + (scatterSlabsDims wf).window (ix3 p q r) (1 : Fin 3)
      = (q.val : Int) := by
    rw [scatterSlabs_start1, scatterSlabs_window1]; simp
  have h2 : (scatterSlabsDims wf).start (ix3 p q r) idx (2 : Fin 3) + (scatterSlabsDims wf).window (ix3 p q r) (2 : Fin 3)
      = (r.val : Int) := by
    rw [scatterSlabs_start2, scatterSlabs_window2]; simp
  unfold ScatterDims.resultIdx?
  constructor
  · intro h
    split_ifs at h with hc
    have e := Option.some.inj h
    have e0 : ((scatterSlabsDims wf).start (ix3 p q r) idx (0 : Fin 3)
        + (scatterSlabsDims wf).window (ix3 p q r) (0 : Fin 3)).toNat = n.val := congrArg Fin.val (congrFun e (0 : Fin 3))
    have e1 : ((scatterSlabsDims wf).start (ix3 p q r) idx (1 : Fin 3)
        + (scatterSlabsDims wf).window (ix3 p q r) (1 : Fin 3)).toNat = b.val := congrArg Fin.val (congrFun e (1 : Fin 3))
    have e2 : ((scatterSlabsDims wf).start (ix3 p q r) idx (2 : Fin 3)
        + (scatterSlabsDims wf).window (ix3 p q r) (2 : Fin 3)).toNat = o.val := congrArg Fin.val (congrFun e (2 : Fin 3))
    have c0 := (hc (0 : Fin 3)).1
    rw [h0] at e0 c0
    rw [h1] at e1
    rw [h2] at e2
    refine ⟨by omega, Fin.ext (by omega), Fin.ext (by omega)⟩
  · rintro ⟨hn, rfl, rfl⟩
    have hc : ∀ a : Fin 3, 0 ≤ (scatterSlabsDims wf).start (ix3 p q r) idx a + (scatterSlabsDims wf).window (ix3 p q r) a
        ∧ (scatterSlabsDims wf).start (ix3 p q r) idx a + (scatterSlabsDims wf).window (ix3 p q r) a
          < (⟨3, ![R, B, C]⟩ : Shape).size a := by
      intro a
      match a with
      | ⟨0, _⟩ =>
        show 0 ≤ (scatterSlabsDims wf).start (ix3 p q r) idx (0 : Fin 3) + (scatterSlabsDims wf).window (ix3 p q r) (0 : Fin 3)
          ∧ (scatterSlabsDims wf).start (ix3 p q r) idx (0 : Fin 3) + (scatterSlabsDims wf).window (ix3 p q r) (0 : Fin 3)
            < (R : Int)
        rw [h0, hn]; have := n.isLt; omega
      | ⟨1, _⟩ =>
        show 0 ≤ (scatterSlabsDims wf).start (ix3 p q r) idx (1 : Fin 3) + (scatterSlabsDims wf).window (ix3 p q r) (1 : Fin 3)
          ∧ (scatterSlabsDims wf).start (ix3 p q r) idx (1 : Fin 3) + (scatterSlabsDims wf).window (ix3 p q r) (1 : Fin 3)
            < (B : Int)
        rw [h1]; have := q.isLt; omega
      | ⟨2, _⟩ =>
        show 0 ≤ (scatterSlabsDims wf).start (ix3 p q r) idx (2 : Fin 3) + (scatterSlabsDims wf).window (ix3 p q r) (2 : Fin 3)
          ∧ (scatterSlabsDims wf).start (ix3 p q r) idx (2 : Fin 3) + (scatterSlabsDims wf).window (ix3 p q r) (2 : Fin 3)
            < (C : Int)
        rw [h2]; have := r.isLt; omega
    rw [dif_pos hc]
    congr 1
    funext a
    refine Fin.ext ?_
    match a with
    | ⟨0, _⟩ =>
      show ((scatterSlabsDims wf).start (ix3 p q r) idx (0 : Fin 3)
        + (scatterSlabsDims wf).window (ix3 p q r) (0 : Fin 3)).toNat = n.val
      rw [h0, hn]; rfl
    | ⟨1, _⟩ =>
      show ((scatterSlabsDims wf).start (ix3 p q r) idx (1 : Fin 3)
        + (scatterSlabsDims wf).window (ix3 p q r) (1 : Fin 3)).toNat = q.val
      rw [h1]; rfl
    | ⟨2, _⟩ =>
      show ((scatterSlabsDims wf).start (ix3 p q r) idx (2 : Fin 3)
        + (scatterSlabsDims wf).window (ix3 p q r) (2 : Fin 3)).toNat = r.val
      rw [h2]; rfl

/-- THE SCATTER-ADD OF SLABS at (n, b, o). The four hypotheses are the printed dimension numbers, each by `rfl`. -/
theorem scatter_slabs_apply {R B C M : Nat} (d : ScatterDims ⟨3, ![R, B, C]⟩ ⟨2, ![M, 1]⟩ ⟨3, ![M, B, C]⟩)
    (huw : d.updateWindowDims = [1, 2]) (hiw : d.insertedWindowDims = [0]) (hsd : d.scatterDimsToOperandDims = [0])
    (hiv : d.indexVectorDim = 1)
    (x : (⟨3, ![R, B, C]⟩ : Shape).Idx → EReal) (idx : IVec ⟨2, ![M, 1]⟩ 32)
    (upd : (⟨3, ![M, B, C]⟩ : Shape).Idx → EReal) (n : Fin R) (b : Fin B) (o : Fin C) :
    Host.scatterAdd (F := Ideal) (φ := .f32) d x idx upd (ix3 n b o)
      = x (ix3 n b o) + ∑ p ∈ Finset.univ.filter (fun p : Fin M => (idx (ix2 p (0 : Fin 1))).toInt = (n.val : Int)),
          upd (ix3 p b o) := by
  obtain ⟨uw, iw, sd, iv, wf⟩ := d
  dsimp only at huw hiw hsd hiv
  subst huw hiw hsd hiv
  show Ideal.hostScatterAdd (scatterSlabsDims wf) x idx upd (ix3 n b o) = _
  unfold Ideal.hostScatterAdd
  congr 1
  -- both filtered sums become sums of guarded terms; the sum over update indices is the triple sum over (p, q, r)
  rw [Finset.sum_filter, Finset.sum_filter, sum_idx3]
  refine Finset.sum_congr rfl fun p _ => ?_
  -- slab p: the guard on (p, q, r) is "start index p is n, q = b and r = o"; the inner sums keep the one term (b, o)
  simp only [scatterSlabs_resultIdx_iff]
  by_cases hp : (idx (ix2 p (0 : Fin 1))).toInt = (n.val : Int)
  · simp only [hp, true_and, if_true]
    rw [Finset.sum_eq_single b]
    · simp only [true_and]
      exact (Finset.sum_ite_eq' Finset.univ o fun r => upd (ix3 p b r)).trans (if_pos (Finset.mem_univ o))
    · intro q _ hq
      simp only [hq, false_and, if_false]
      exact Finset.sum_const_zero
    · intro hb; exact absurd (Finset.mem_univ b) hb
  · simp only [hp, false_and, if_false]
    rw [Finset.sum_eq_zero]; intro q _; exact Finset.sum_const_zero

end Cert.ScatterSlabs

end
-- ==== Proof.KI.Tail.lean ====
/-
  The program's last stretch: both results are the arguments plus the scatter-add of the messages over the edges'
  target nodes.  The scalar result is the reference's operation for operation; the vector result scatters rows of 384
  and regroups them into 3 × 128 afterwards, where the reference scatters 3 × 128 slabs: at each entry both are the sum
  of the message over the edges whose target is that node.
-/
import proofs.«405721_j59141699666425_3_alg».proof.Proof.KI.Args
import proofs.«405721_j59141699666425_3_alg».proof.Proof.LibScatterRows
import proofs.«405721_j59141699666425_3_alg».proof.Proof.LibScatterSlabs
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The edges' target column is written once, before the first launch, and no later segment touches it: at the last
    stretch's entry it is still the reference's own slice-and-reshape of the edge index argument. -/
theorem W6_main_v3 :
    W6 m c (Proc.devRef .tc main_v3) = Cert.ReferenceIdeal.Read.val_main_v3 (F := Ideal) (X5 m c) :=
  calc W6 m c (Proc.devRef .tc main_v3)
    _ = W5 m c (Proc.devRef .tc main_v3) := W6_of_ne m c main_v3 (by decide)
    _ = W4 m c (Proc.devRef .tc main_v3) := StableHlo.after_of_writes_sub hostOps1_2 _ hostOps1_2_writes (by decide : main_v3 ∉ hostOps1_2_W)
    _ = W3 m c (Proc.devRef .tc main_v3) := StableHlo.after_of_writes_sub hostOps1_1 _ hostOps1_1_writes (by decide : main_v3 ∉ hostOps1_1_W)
    _ = W2 m c (Proc.devRef .tc main_v3) := StableHlo.after_of_writes_sub hostOps1 _ hostOps1_writes (by decide : main_v3 ∉ hostOps1_W)
    _ = W1 m c (Proc.devRef .tc main_v3) := W2_of_ne m c main_v3 (by decide)
    _ = Cert.ReferenceIdeal.Read.val_main_v3 (F := Ideal) (X5 m c) := by
      show StableHlo.after hostOps0 _ (Proc.devRef .tc main_v3) = _
      after_results
      rfl

/-- Argument 0 at the last stretch's entry. -/
theorem W6_main_arg0 : W6 m c (Proc.devRef .tc main_arg0) = X0 m c :=
  calc W6 m c (Proc.devRef .tc main_arg0)
    _ = W7 m c (Proc.devRef .tc main_arg0) := (StableHlo.after_of_writes_sub hostOps2 _ hostOps2_writes (by decide : main_arg0 ∉ hostOps2_W)).symm
    _ = X0 m c := W7_main_arg0 m c

/-- Argument 1 at the last stretch's entry. -/
theorem W6_main_arg1 : W6 m c (Proc.devRef .tc main_arg1) = X1 m c :=
  calc W6 m c (Proc.devRef .tc main_arg1)
    _ = W7 m c (Proc.devRef .tc main_arg1) := (StableHlo.after_of_writes_sub hostOps2 _ hostOps2_writes (by decide : main_arg1 ∉ hostOps2_W)).symm
    _ = X1 m c := W7_main_arg1 m c

/-- The first result, given the scalar message array. -/
theorem final_v22 (h : (W6 m c main_v14_0 : S320000x128.Idx → EReal) = refMS m c) :
    (W7 m c main_v22 : S20000x128.Idx → EReal) = ref67 m c := by
  show StableHlo.after hostOps2 _ (Proc.devRef .tc main_v22) = _
  after_results
  -- the operands at the stretch's entry: the argument, the target column, the scalar message
  rw [W6_main_arg0, W6_main_v3, h]
  -- the reference's stages are the same four operations on the same operands
  rfl

/-- The vector message as rows of 384 at the last stretch's entry. -/
abbrev tailMV : S320000x384.Idx → EReal := W6 m c (Proc.devRef .tc main_v14_1)

/-- The edges' target column as both scatters read it: one start index per edge. -/
abbrev tailIdx : IVec S320000x1 32 :=
  broadcastInDim S320000x1 ![0] bcast_S320000_S320000x1_0 (Cert.ReferenceIdeal.Read.val_main_v3 (F := Ideal) (X5 m c))

/-- Argument 1 as extended reals. -/
abbrev tailX1 : S20000x3x128.Idx → EReal := X1 m c

/-- The message rows scattered, from zero, onto their target nodes: rows of 384. -/
abbrev tailRows : S20000x384.Idx → EReal :=
  Host.scatterAdd (F := Ideal) (φ := .f32) scatter_S20000x384_S320000x1_S320000x384_1_0_0_1
    (broadcastInDim S20000x384 ![] bcast_S_S20000x384 (constant (F := Ideal) S_ .f32 0x00000000#32))
    (tailIdx m c) (tailMV m c)

/-- Row n of the scattered rows at column o: zero plus the sum of the message rows at column o over the edges whose
    target is n. -/
theorem tailRows_apply (n : Fin 20000) (o : Fin 384) :
    tailRows m c (ix2 n o) = Ideal.ofBits .f32 0x00000000#32
      + ∑ p ∈ Finset.univ.filter (fun p : Fin 320000 => (tailIdx m c (ix2 p (0 : Fin 1))).toInt = (n.val : Int)),
          tailMV m c (ix2 p o) := by
  unfold tailRows
  rw [Cert.ScatterRows.scatter_rows_apply _ rfl rfl rfl rfl]
  rw [broadcastInDim_apply _ bcast_S_S20000x384 _ (ix2 n o) (fun a => a.elim0) (fun a => a.elim0)]
  rfl

/-- The second result as an array: argument 1 plus the scattered rows regrouped into 3 × 128. -/
theorem W7_main_v23_eq :
    (W7 m c main_v23 : Cert.ReferenceIdeal.S20000x3x128.Idx → EReal)
      = addf (F := Ideal) (φ := .f32) (tailX1 m c) (shapeCast S20000x3x128 (tailRows m c) shapeCasts_S20000x384_S20000x3x128) := by
  show StableHlo.after hostOps2 _ (Proc.devRef .tc main_v23) = _
  after_results
  rw [W6_main_arg1, W6_main_v3]
  rfl

/-- The vector result at (n, q, f): the argument there plus, from zero, the sum of the message rows at column
    q·128 + f over the edges whose target is n.  The regrouping reads row n at that column. -/
theorem W7_main_v23_at (n : Fin 20000) (q : Fin 3) (f : Fin 128) :
    (W7 m c main_v23 : Cert.ReferenceIdeal.S20000x3x128.Idx → EReal) (ix3 n q f)
      = tailX1 m c (ix3 n q f) + (Ideal.ofBits .f32 0x00000000#32
          + ∑ p ∈ Finset.univ.filter (fun p : Fin 320000 => (tailIdx m c (ix2 p (0 : Fin 1))).toInt = (n.val : Int)),
            tailMV m c (ix2 p (⟨q.val * 128 + f.val, by omega⟩ : Fin 384))) := by
  refine (congrFun (W7_main_v23_eq m c) (ix3 n q f)).trans ?_
  rw [addf_apply,
    shapeCast_apply (tailRows m c) shapeCasts_S20000x384_S20000x3x128 (ix3 n q f)
      (ix2 n (⟨q.val * 128 + f.val, by omega⟩ : Fin 384))
      (by rw [Shape.rowMajor_val_two, Shape.rowMajor_val_three]
          show n.val * 384 + (q.val * 128 + f.val) = (n.val * 3 + q.val) * 128 + f.val
          omega),
    tailRows_apply]

/-- The reference's second result at (n, q, f): the argument there plus, from zero, the sum of the vector message at
    (p, q, f) over the edges whose target is n: its scatter-add of 3 × 128 slabs read at an entry. -/
theorem ref68_at (n : Fin 20000) (q : Fin 3) (f : Fin 128) :
    (ref68 m c : Cert.ReferenceIdeal.S20000x3x128.Idx → EReal) (ix3 n q f)
      = tailX1 m c (ix3 n q f) + (Ideal.ofBits .f32 0x00000000#32
          + ∑ p ∈ Finset.univ.filter (fun p : Fin 320000 => (tailIdx m c (ix2 p (0 : Fin 1))).toInt = (n.val : Int)),
            (refMV m c : Cert.ReferenceIdeal.S320000x3x128.Idx → EReal) (ix3 p q f)) := by
  show Cert.ReferenceIdeal.Read.val_main_v68 (F := Ideal) _ _ _ _ _ _ _ _ _ _ _ _ (ix3 n q f) = _
  rw [Cert.ReferenceIdeal.Read.val_main_v68_apply]
  unfold Cert.ReferenceIdeal.Read.val_main_v66
  rw [Cert.ScatterSlabs.scatter_slabs_apply _ rfl rfl rfl rfl]
  rw [Cert.ReferenceIdeal.Read.val_main_v64_apply]
  rfl

/-- The two results agree at (n, q, f): both are the argument plus, from zero, a sum over the edges whose target is n,
    and the summands agree edge by edge. -/
theorem final_v23_at (h : ∀ (p : Fin 320000) (q : Fin 3) (f : Fin 128),
      (W6 m c main_v14_1 : S320000x384.Idx → EReal) (ix2 p (⟨q.val * 128 + f.val, by omega⟩ : Fin 384)) = refMV m c (ix3 p q f))
    (n : Fin 20000) (q : Fin 3) (f : Fin 128) :
    (W7 m c main_v23 : Cert.ReferenceIdeal.S20000x3x128.Idx → EReal) (ix3 n q f) = ref68 m c (ix3 n q f) := by
  rw [W7_main_v23_at m c n q f, ref68_at m c n q f]
  refine congrArg (fun z => tailX1 m c (ix3 n q f) + (Ideal.ofBits .f32 0x00000000#32 + z)) ?_
  exact Finset.sum_congr rfl fun p _ => h p q f

/-- The second result, given the vector message array entry by entry. -/
theorem final_v23 (h : ∀ (p : Fin 320000) (q : Fin 3) (f : Fin 128),
      (W6 m c main_v14_1 : S320000x384.Idx → EReal) (ix2 p (⟨q.val * 128 + f.val, by omega⟩ : Fin 384)) = refMV m c (ix3 p q f)) :
    (W7 m c main_v23 : Cert.ReferenceIdeal.S20000x3x128.Idx → EReal) = ref68 m c := by
  funext i
  have hi := eq_ix3 (n0 := 20000) (n1 := 3) (n2 := 128) i
  rw [hi]
  exact final_v23_at m c h (i 0) (i 1) (i 2)

end Cert.KernelIdeal.Hand

end
-- ==== Proof.KI.RefMsg.lean ====
/-
  The reference's two messages read at an index, in terms of its gated filter, its gathered node rows and its
  normalised edge vectors: the scalar message is the last third of the gate; the vector message is the gathered vector
  state times the first third plus the second third times the edge vector's component.

  Both are read off the reference's own stages: the gate is the pointwise product of the filter and the gathered rows;
  its three thirds are column slices at offsets 0, 128 and 256; the vector message broadcasts the first two thirds along
  the 3-axis and the edge vectors along the 128-axis, multiplies pointwise and adds.  Each layout stage reads its operand
  at an index computed from the result index; composed, those indices are (p, f), (p, 128 + f), (p, 256 + f) and (p, q).
-/
import proofs.«405721_j59141699666425_3_alg».proof.Proof.KI.Args
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The last-third slice reads the gate at column 256 + f. -/
theorem idx_last_third (p : Fin 320000) (f : Fin 128) :
    Cert.ReferenceIdeal.Read.idx_main_v44 (ix2 p f) = ix2 p (⟨256 + f.val, by omega⟩ : Fin 384) := by
  funext a
  match a with
  | ⟨0, _⟩ => rfl
  | ⟨1, _⟩ => rfl

/-- The first third, broadcast along the 3-axis, reads the gate at column f. -/
theorem idx_first_third (p : Fin 320000) (q : Fin 3) (f : Fin 128) :
    Cert.ReferenceIdeal.Read.idx_main_v42
        (Cert.ReferenceIdeal.Read.idx_main_v52 (Cert.ReferenceIdeal.Read.idx_main_v53 (ix3 p q f)))
      = ix2 p (⟨f.val, by omega⟩ : Fin 384) := by
  funext a
  match a with
  | ⟨0, _⟩ => rfl
  | ⟨1, _⟩ => rfl

/-- The second third, broadcast along the 3-axis, reads the gate at column 128 + f. -/
theorem idx_second_third (p : Fin 320000) (q : Fin 3) (f : Fin 128) :
    Cert.ReferenceIdeal.Read.idx_main_v43
        (Cert.ReferenceIdeal.Read.idx_main_v55 (Cert.ReferenceIdeal.Read.idx_main_v57 (ix3 p q f)))
      = ix2 p (⟨128 + f.val, by omega⟩ : Fin 384) := by
  funext a
  match a with
  | ⟨0, _⟩ => rfl
  | ⟨1, _⟩ => rfl

/-- The edge vectors, broadcast along the 128-axis, are read at (p, q). -/
theorem idx_edge_vec (p : Fin 320000) (q : Fin 3) (f : Fin 128) :
    Cert.ReferenceIdeal.Read.idx_main_v56 (Cert.ReferenceIdeal.Read.idx_main_v58 (ix3 p q f)) = ix2 p q := by
  funext a
  match a with
  | ⟨0, _⟩ => rfl
  | ⟨1, _⟩ => rfl

variable (m : (ℓ : Loc nD τ sig) → Buf (Elt Ideal) ℓ) (c : Dev nD)

/-- The reference's scalar message at (p, f). -/
theorem ref_ms_apply (p : Fin 320000) (f : Fin 128) :
    refMS m c (ix2 p f) = refFW m c (ix2 p (⟨256 + f.val, by omega⟩ : Fin 384)) * refGS m c (ix2 p (⟨256 + f.val, by omega⟩ : Fin 384)) := by
  unfold refMS
  rw [Cert.ReferenceIdeal.Read.val_main_v44_apply, Cert.ReferenceIdeal.Read.val_main_v41_apply, idx_last_third]
  rfl

/-- The reference's vector message at (p, q, f). -/
theorem ref_mv_apply (p : Fin 320000) (q : Fin 3) (f : Fin 128) :
    refMV m c (ix3 p q f)
      = refGV m c (ix3 p q f) * (refFW m c (ix2 p (⟨f.val, by omega⟩ : Fin 384)) * refGS m c (ix2 p (⟨f.val, by omega⟩ : Fin 384)))
        + (refFW m c (ix2 p (⟨128 + f.val, by omega⟩ : Fin 384)) * refGS m c (ix2 p (⟨128 + f.val, by omega⟩ : Fin 384))) * refEVN m c (ix2 p q) := by
  unfold refMV
  rw [Cert.ReferenceIdeal.Read.val_main_v60_apply, Cert.ReferenceIdeal.Read.val_main_v54_apply,
    Cert.ReferenceIdeal.Read.val_main_v59_apply, Cert.ReferenceIdeal.Read.val_main_v53_apply,
    Cert.ReferenceIdeal.Read.val_main_v52_apply, Cert.ReferenceIdeal.Read.val_main_v42_apply,
    Cert.ReferenceIdeal.Read.val_main_v57_apply, Cert.ReferenceIdeal.Read.val_main_v55_apply,
    Cert.ReferenceIdeal.Read.val_main_v43_apply, Cert.ReferenceIdeal.Read.val_main_v58_apply,
    Cert.ReferenceIdeal.Read.val_main_v56_apply, Cert.ReferenceIdeal.Read.val_main_v41_apply,
    Cert.ReferenceIdeal.Read.val_main_v41_apply, idx_first_third, idx_second_third, idx_edge_vec]
  rfl

end Cert.KernelIdeal.Hand

end
-- ==== Proof.KI.PreRange.lean ====
/-
  The precondition read at the one place the proof uses it: every edge's source index, read as a signed integer, lies
  in [0, 20000).

  The printed precondition is a chain of conjunctions whose last conjunct is the range test on the first column of the
  edge table: the column is sliced out, reshaped to a vector, compared (signed) against the broadcast constants 0 and
  20000, the two comparisons are conjoined and the result is reduced by "and" over its one axis.  A conjunction that is 1
  has both halves 1; a reduction by "and" over every axis that is 1 met only 1s; a signed comparison that is 1 is the
  order of the two words read as signed integers; and the sliced, reshaped column read at edge p is the table at (p, 0).
-/
import proofs.«405721_j59141699666425_3_alg».proof.Proof.KI.Args
import proofs.«405721_j59141699666425_3_alg».proof.Defs
import proofs.«405721_j59141699666425_3_alg».proof.Proof.Gen.Pre_finite_inputs
import Idealize.ShloMosaic.Lib.StableHlo.Predicate
import Idealize.ShloMosaic.Lib.ReduceAll

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The first column of the edge table, sliced out and reshaped to a vector, read at edge `p` is the table at (p, 0). -/
theorem src_column_read (a5 : IVec Cert.Pre_finite_inputs.S320000x2 32)
    (hs : Cert.Pre_finite_inputs.S320000x2.Slices ![0, 0] Cert.Pre_finite_inputs.S320000x1)
    (hc : Cert.Pre_finite_inputs.S320000x1.ShapeCasts Cert.Pre_finite_inputs.S320000) (p : Fin 320000) :
    shapeCast Cert.Pre_finite_inputs.S320000
        (extractStridedSlice Cert.Pre_finite_inputs.S320000x1 ![0, 0] a5 hs) hc (ix1 p)
      = a5 (ix2 p (0 : Fin 2)) := by
  refine (shapeCast_apply _ hc (ix1 p) (ix2 p (0 : Fin 1)) ?_).trans ?_
  · rw [Shape.rowMajor_val_two, Shape.rowMajor_val_one]
    show p.val * 1 + 0 = p.val
    omega
  · refine extractStridedSlice_apply _ a5 hs (ix2 p (0 : Fin 1)) (ix2 p (0 : Fin 2)) ?_
    intro a
    match a with
    | ⟨0, _⟩ => show p.val = 0 + p.val; omega
    | ⟨1, _⟩ => rfl

/-- The last stretch of the printed precondition being 1 says every edge's source index lies in [0, 20000). -/
theorem part3_range {F : FTy → Type} [FloatOps F] (a5 : IVec Cert.Pre_finite_inputs.S320000x2 32)
    (v48 : IVec Cert.Pre_finite_inputs.S_ 1) (v49 v50 : FVec F Cert.Pre_finite_inputs.S384 .f32)
    (h : Cert.Pre_finite_inputs.fn_part3 (F := F) a5 v48 v49 v50 ix0 = 1#1) (p : Fin 320000) :
    0 ≤ (a5 (ix2 p (0 : Fin 2))).toInt ∧ (a5 (ix2 p (0 : Fin 2))).toInt < 20000 := by
  dsimp only [Cert.Pre_finite_inputs.fn_part3] at h
  have h1 := (IntOp.andi_eq_one.1 h).2
  -- the rank-0 shape has one index, so the reduction runs over every axis
  haveI : Subsingleton Cert.Pre_finite_inputs.S_.Idx := ⟨fun a b => funext fun d => d.elim0⟩
  have h2 := Host.reduce_andi_all _ _ _ _ _ h1 (ix1 p)
  obtain ⟨hge, hlt⟩ := IntOp.andi_eq_one.1 h2
  have hge' := IntOp.cmpi_sge.1 hge
  have hlt' := IntOp.cmpi_slt.1 hlt
  rw [src_column_read] at hge' hlt'
  exact ⟨hge', hlt'⟩

variable (m : (ℓ : Loc nD τ sig) → Buf (Elt Ideal) ℓ) (c : Dev nD)

/-- Under the precondition every edge's source index names a node. -/
theorem src_in_range (h : @Cert.Pre_KernelIdeal Cert.Pre_finite_inputs.Gen.facts m) : SrcInRange m c := by
  intro p
  have h0 := congrFun (h c) ix0
  dsimp only [Cert.Pre_finite_inputs.fn, Cert.Pre_finite_inputs.fn_part1, Cert.Pre_finite_inputs.fn_part2] at h0
  exact part3_range _ _ _ _ h0 p

end Cert.KernelIdeal.Hand

end
-- ==== Proof.KI.Assemble.lean ====
/-
  The kernel's two results are the reference's.  The node launch leaves the reference's node output; the host's take
  then hands the edge launch exactly the rows the reference gathers (every source index being in range, the fill never
  binds); the edge launch's two arrays are the reference's two messages entry by entry (one product commuted); and the
  last stretch scatters them over the target nodes as the reference does.
-/
import proofs.«405721_j59141699666425_3_alg».proof.Proof.KI.NodeValue
import proofs.«405721_j59141699666425_3_alg».proof.Proof.KI.EdgeValue
import proofs.«405721_j59141699666425_3_alg».proof.Proof.KI.HostEntry
import proofs.«405721_j59141699666425_3_alg».proof.Proof.KI.HostGather
import proofs.«405721_j59141699666425_3_alg».proof.Proof.KI.Tail
import proofs.«405721_j59141699666425_3_alg».proof.Proof.KI.RefMsg
import proofs.«405721_j59141699666425_3_alg».proof.Proof.KI.PreRange

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The node launch leaves the reference's node output in its result array. -/
theorem v6_eq : (W2 m c main_v6 : S20000x384.Idx → EReal) = refSO m c := by
  have h := node_arr (A1 m) c (X9 m c) (X11 m c) (A1_v4 m c) (A1_v5 m c)
  rw [A1_arg0, A1_arg8, A1_arg10] at h
  exact (W2_arr m c 5).trans h

/-- The gated filter over the edge launch's operands is the reference's. -/
theorem filt_eq (p : Fin 320000) (j : Fin 384) :
    filt (A5 m) c (X2 m c) (X4 m c) (X7 m c) (refGS m c) p j = refFW m c (ix2 p j) * refGS m c (ix2 p j) := by
  unfold filt
  rw [A5_arg6]

/-- The edge launch's first result array is the reference's scalar message. -/
theorem v14_0_eq (hr : SrcInRange m c) : (W6 m c main_v14_0 : S320000x128.Idx → EReal) = refMS m c := by
  funext (i : S320000x128.Idx)
  obtain ⟨p, f, rfl⟩ : ∃ (p : Fin 320000) (f : Fin 128), i = ix2 p f := ⟨i 0, i 1, eq_ix2 i⟩
  refine (congrFun (W6_arr m c 5) (ix2 p f)).trans ?_
  refine (edge_arr5 (V := A5 m) (c := c) (x2 := X2 m c) (x3 := X3 m c) (x4 := X4 m c) (x7 := X7 m c) (GS := refGS m c)
    (h12a := A5_v12a m c) (h12b := A5_v12b m c) (h12c := A5_v12c m c) (h13 := A5_v13 m c)
    (h10 := A5_v10 m c (v6_eq m c) hr) p f).trans ?_
  rw [filt_eq, ref_ms_apply]

/-- The edge launch's second result array, entry by entry, is the reference's vector message. -/
theorem v14_1_eq (hr : SrcInRange m c) (p : Fin 320000) (q : Fin 3) (f : Fin 128) :
    (W6 m c main_v14_1 : S320000x384.Idx → EReal) (ix2 p (⟨q.val * 128 + f.val, by omega⟩ : Fin 384)) = refMV m c (ix3 p q f) := by
  refine (congrFun (W6_arr m c 6) (ix2 p (⟨q.val * 128 + f.val, by omega⟩ : Fin 384))).trans ?_
  refine (edge_arr6 (V := A5 m) (c := c) (x2 := X2 m c) (x3 := X3 m c) (x4 := X4 m c) (x7 := X7 m c) (GS := refGS m c) (GV := refGV m c)
    (h12a := A5_v12a m c) (h12b := A5_v12b m c) (h12c := A5_v12c m c) (h13 := A5_v13 m c)
    (h10 := A5_v10 m c (v6_eq m c) hr) (h11 := A5_v11 m c hr) p q f).trans ?_
  rw [filt_eq, filt_eq, ref_mv_apply]

/-- The kernel's first result is the reference's. -/
theorem kernel_v22 (hr : SrcInRange m c) : (W7 m c main_v22 : S20000x128.Idx → EReal) = ref67 m c :=
  final_v22 m c (v14_0_eq m c hr)

/-- The kernel's second result is the reference's. -/
theorem kernel_v23 (hr : SrcInRange m c) : (W7 m c main_v23 : Cert.ReferenceIdeal.S20000x3x128.Idx → EReal) = ref68 m c :=
  final_v23 m c (v14_1_eq m c hr)

end Cert.KernelIdeal.Hand

end
-- ==== Proof.lean ====
/-
  The certificate of a message-passing layer: a per-node two-layer network, a gather of its output and of the nodes'
  vector state to every edge's source, a per-edge filter gated by a cosine cutoff of the edge length, and a scatter-add
  of the scalar and vector messages onto every edge's target node.  The kernel runs the node network and the edge filter
  as two launches over blocks of nodes and of edges, with the gather, the packing of the narrow edge inputs and the
  scatter on the host between them; the reference computes the same quantities with array operations.

  Precondition: every float input is finite, and every edge's SOURCE index lies in [0, 20000): outside that range the
  reference's own indexing reads out of range (it clamps) while the kernel's take fills with NaN, so the two are only
  compared where the index names a node.  Finiteness is never used: the two sides agree operation for operation, up to
  the order of one product and the grouping of the scatter's rows.

  The three frames are read off each program's run (the kernel's two: the run of seven segments; the reference's: its
  straight line of host operations).  The idealization rewrote nothing, so the preservation claim is trivial.  The
  value claim takes the reference's own stage terms as the common specification (KI/Assemble.lean).
-/
import proofs.«405721_j59141699666425_3_alg».proof.Defs
import proofs.«405721_j59141699666425_3_alg».proof.Proof.Gen.Kernel
import proofs.«405721_j59141699666425_3_alg».proof.Proof.Gen.KernelIdeal
import proofs.«405721_j59141699666425_3_alg».proof.Proof.Gen.ReferenceIdeal
import proofs.«405721_j59141699666425_3_alg».proof.Proof.Gen.Pre_finite_inputs
import proofs.«405721_j59141699666425_3_alg».proof.Proof.Gen.ReferenceIdeal.Run
import proofs.«405721_j59141699666425_3_alg».proof.Proof.Gen.ReferenceIdeal.Read
import proofs.«405721_j59141699666425_3_alg».proof.Proof.KB.Run
import proofs.«405721_j59141699666425_3_alg».proof.Proof.KI.Run
import proofs.«405721_j59141699666425_3_alg».proof.Proof.KI.Assemble
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its arguments as launched. -/
theorem frame_k : Cert.frame_Kernel := fun m ρ _ => Cert.Kernel.Hand.frame_main m ρ

/-- The idealized kernel runs and leaves its arguments as launched. -/
theorem frame_ki : Cert.frame_KernelIdeal := fun m ρ _ => Cert.KernelIdeal.Hand.frame_main m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reference's two results at the kernel's
    arguments. -/
theorem algebraic : Cert.algebraic_KernelIdeal_ReferenceIdeal := by
  intro m ρ m' ρ' hpre hagree
  refine ⟨fun c => Cert.KernelIdeal.Hand.ref67 m c, fun c => Cert.KernelIdeal.Hand.ref68 m c, ?_, ?_⟩
  · refine (θ_run Cert.KernelIdeal.defs _ _).mono (fun r h c => ?_) (Cert.KernelIdeal.Hand.run_main m ρ)
    have hr := Cert.KernelIdeal.Hand.src_in_range m c hpre
    exact ⟨(h c _ (Cert.KernelIdeal.Hand.mem_uc Cert.KernelIdeal.main_v22 (by decide))).trans (Cert.KernelIdeal.Hand.kernel_v22 m c hr),
      (h c _ (Cert.KernelIdeal.Hand.mem_uc Cert.KernelIdeal.main_v23 (by decide))).trans (Cert.KernelIdeal.Hand.kernel_v23 m c hr),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c),
      (h c _ (Cert.KernelIdeal.Hand.mem_uc Cert.KernelIdeal.main_arg9 (by decide))).trans (Cert.KernelIdeal.Hand.W7_main_arg9 m c),
      (h c _ (Cert.KernelIdeal.Hand.mem_uc Cert.KernelIdeal.main_arg10 (by decide))).trans (Cert.KernelIdeal.Hand.W7_main_arg10 m c),
      (h c _ (Cert.KernelIdeal.Hand.mem_uc Cert.KernelIdeal.main_arg11 (by decide))).trans (Cert.KernelIdeal.Hand.W7_main_arg11 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.Read.val_main_v67_eq (F := Ideal) _ _ _ _ _ _ _ _ _ _).trans ?_
      rw [(hagree c).1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    · refine (Cert.ReferenceIdeal.Read.val_main_v68_eq (F := Ideal) m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
